-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x81920 : Shape := ⟨2, ![1024, 81920]⟩
abbrev S256x40960 : Shape := ⟨2, ![256, 40960]⟩
abbrev S64x256 : Shape := ⟨2, ![64, 256]⟩
abbrev S8x128 : Shape := ⟨2, ![8, 128]⟩
abbrev S1x8 : Shape := ⟨2, ![1, 8]⟩
abbrev S_ : Shape := ⟨0, ![]⟩

class Facts : Prop where
  bcast_S_S1024x81920 : S_.BroadcastsInDim S1024x81920 (![] : Fin 0 → Fin S1024x81920.rank)
  reducesTo_S1024x81920_S_d0_1 : S1024x81920.ReducesTo [0, 1] S_
  h_S_ : 0 < S_.numel
  bcast_S_S256x40960 : S_.BroadcastsInDim S256x40960 (![] : Fin 0 → Fin S256x40960.rank)
  reducesTo_S256x40960_S_d0_1 : S256x40960.ReducesTo [0, 1] S_
  bcast_S_S64x256 : S_.BroadcastsInDim S64x256 (![] : Fin 0 → Fin S64x256.rank)
  reducesTo_S64x256_S_d0_1 : S64x256.ReducesTo [0, 1] S_
  bcast_S_S8x128 : S_.BroadcastsInDim S8x128 (![] : Fin 0 → Fin S8x128.rank)
  reducesTo_S8x128_S_d0_1 : S8x128.ReducesTo [0, 1] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_arg4 : FVec F S1x8 .f32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_v19 : FVec F S1x8 .f32 := Host.absf main_arg4
  let main_cst_6 : FVec F S_ .f32 := constant S_ .f32 0x7F800000#32
  let main_v20 : FVec F S1x8 .f32 := broadcastInDim S1x8 ![] bcast_S_S1x8 main_cst_6
  let main_v21 : IVec S1x8 1 := cmpf .olt main_v19 main_v20
  let main_c_7 : IVec S_ 1 := constantI S_ 1 1#1
  let main_v22 : IVec S_ 1 := (fun x v => Host.reduce IntOp.andi x v reducesTo_S1x8_S_d0_1 h_S_) main_v21 main_c_7
  let main_v23 : IVec S_ 1 := andi main_v18 main_v22
  main_v23

def fn {F : FTy → Type} [FloatOps F] (main_arg0 : FVec F S1024x81920 .f32) (main_arg1 : FVec F S256x40960 .f32) (main_arg2 : FVec F S64x256 .f32) (main_arg3 : FVec F S8x128 .f32) (main_arg4 : FVec F S1x8 .f32) : IVec S_ 1 :=
  let main_v0 : FVec F S1024x81920 .f32 := Host.absf main_arg0
  let main_cst : FVec F S_ .f32 := constant S_ .f32 0x7F800000#32
  let main_v1 : FVec F S1024x81920 .f32 := broadcastInDim S1024x81920 ![] bcast_S_S1024x81920 main_cst
  let main_v2 : IVec S1024x81920 1 := cmpf .olt main_v0 main_v1
  let main_c : IVec S_ 1 := constantI S_ 1 1#1
  let main_v3 : IVec S_ 1 := (fun x v => Host.reduce IntOp.andi x v reducesTo_S1024x81920_S_d0_1 h_S_) main_v2 main_c
  let main_v4 : FVec F S256x40960 .f32 := Host.absf main_arg1
  let main_cst_0 : FVec F S_ .f32 := constant S_ .f32 0x7F800000#32
  let main_v5 : FVec F S256x40960 .f32 := broadcastInDim S256x40960 ![] bcast_S_S256x40960 main_cst_0
  let main_v6 : IVec S256x40960 1 := cmpf .olt main_v4 main_v5
  let main_c_1 : IVec S_ 1 := constantI S_ 1 1#1
  let main_v7 : IVec S_ 1 := (fun x v => Host.reduce IntOp.andi x v reducesTo_S256x40960_S_d0_1 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S8x128 .f32 := Host.absf main_arg3
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg4 main_v13 main_v16
-- ==== Kernel.lean ====
abbrev S1024x81920 : Shape := ⟨2, ![1024, 81920]⟩
abbrev S256x40960 : Shape := ⟨2, ![256, 40960]⟩
abbrev S64x256 : Shape := ⟨2, ![64, 256]⟩
abbrev S8x128 : Shape := ⟨2, ![8, 128]⟩
abbrev S1x8 : Shape := ⟨2, ![1, 8]⟩
abbrev S1024x1 : Shape := ⟨2, ![1024, 1]⟩
abbrev S1024x2048 : Shape := ⟨2, ![1024, 2048]⟩
abbrev S256x2048 : Shape := ⟨2, ![256, 2048]⟩
abbrev S1024x256 : Shape := ⟨2, ![1024, 256]⟩
abbrev S1024 : Shape := ⟨1, ![1024]⟩
abbrev S1024x64 : Shape := ⟨2, ![1024, 64]⟩
abbrev S1024x128 : Shape := ⟨2, ![1024, 128]⟩
abbrev S1024x8 : Shape := ⟨2, ![1024, 8]⟩

abbrev nBuf : Space → Nat
  | .hbm => 6
  | .vmem => 12
  | .smem => 0
  | _ => 0

abbrev bufTy : (tb : Table) → Fin (tcTables nBuf tb) → BufTy
  | .hbm, ⟨0, _⟩ => ⟨S1024x81920, .f32⟩
  | .hbm, ⟨1, _⟩ => ⟨S256x40960, .f32⟩
  | .hbm, ⟨2, _⟩ => ⟨S64x256, .f32⟩
  | .hbm, ⟨3, _⟩ => ⟨S8x128, .f32⟩
  | .hbm, ⟨4, _⟩ => ⟨S1x8, .f32⟩
  | .hbm, ⟨5, _⟩ => ⟨S1024x1, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S256x2048, .f32⟩
  | .local _ .vmem, ⟨5, _⟩ => ⟨S256x2048, .f32⟩
  | .local _ .vmem, ⟨6, _⟩ => ⟨S64x256, .f32⟩
  | .local _ .vmem, ⟨7, _⟩ => ⟨S8x128, .f32⟩
  | .local _ .vmem, ⟨8, _⟩ => ⟨S1x8, .f32⟩
  | .local _ .vmem, ⟨9, _⟩ => ⟨S1024x1, .f32⟩
  | .local _ .vmem, ⟨10, _⟩ => ⟨S1024x256, .f32⟩
  | .local _ .vmem, ⟨11, _⟩ => ⟨S1024x256, .f32⟩
  | _, _ => ⟨S1024x81920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v21 : BitVec 1 := Scalar.cmpi .eq arg0 c19_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c20_i32 : BitVec 32 := 20#32
  let v0 : BitVec 32 := Scalar.addi arg0 c20_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  reduces_S1024x256_S1024 : S1024x256.Reduces [1] S1024
  shapeCasts_S1024_S1024x1 : S1024.ShapeCasts S1024x1
  broadcasts_S1024x1_S1024x256 : S1024x1.Broadcasts S1024x256
  inb_S64x256_S64x256_0_0 : ∀ a, (![0, 0] : Fin 2 → Nat) a + S64x256.size a ≤ S64x256.size a
  h_S64x256 : 0 < S64x256.numel
  reduces_S1024x64_S1024 : S1024x64.Reduces [1] S1024
  broadcasts_S1024x1_S1024x64 : S1024x1.Broadcasts S1024x64
  concatenates_S1024x64_S1024x64_S1024x128_d1 : Shape.Concatenates [S1024x64, S1024x64] S1024x128 1
  inb_S8x128_S8x128_0_0 : ∀ a, (![0, 0] : Fin 2 → Nat) a + S8x128.size a ≤ S8x128.size a
  h_S8x128 : 0 < S8x128.numel
  reduces_S1024x8_S1024 : S1024x8.Reduces [1] S1024
  broadcasts_S1024x1_S1024x8 : S1024x1.Broadcasts S1024x8
  inb_S1x8_S1x8_0_0 : ∀ a, (![0, 0] : Fin 2 → Nat) a + S1x8.size a ≤ S1x8.size a
  h_S1x8 : 0 < S1x8.numel
  inb_S1024x1_S1024x1_0_0 : ∀ a, (![0, 0] : Fin 2 → Nat) a + S1024x1.size a ≤ S1024x1.size a
  h_S1024x1 : 0 < S1024x1.numel
  dot_S1024x2048_S256x2048_S1024x256_1_1_0_0_n_n_wf : DotDims.WF S1024x2048 S256x2048 S1024x256 [1] [1] [0] [0] [] []
  dot_S1024x256_S64x256_S1024x64_1_1_0_0_n_n_wf : DotDims.WF S1024x256 S64x256 S1024x64 [1] [1] [0] [0] [] []
  dot_S1024x128_S8x128_S1024x8_1_1_0_0_n_n_wf : DotDims.WF S1024x128 S8x128 S1024x8 [1] [1] [0] [0] [] []
  dot_S1024x8_S1x8_S1024x1_1_1_0_0_n_n_wf : DotDims.WF S1024x8 S1x8 S1024x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x81920.size a
  hwx0_0 : ∀ i : grid0.Coords, EltTy.bits .f32 = 32 ∨ (Rect.block (s := S1024x81920) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x81920.size a
  hwx0_1 : ∀ i : grid0.Coords, EltTy.bits .f32 = 32 ∨ (Rect.block (s := S1024x81920) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x40960.size a
  hwx0_2 : ∀ i : grid0.Coords, EltTy.bits .f32 = 32 ∨ (Rect.block (s := S256x40960) S256x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8.size a ≤ S1x8.size a
  hwx0_5 : ∀ i : grid0.Coords, EltTy.bits .f32 = 32 ∨ (Rect.block (s := S1x8) S1x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S1024x1.size a
  hwx0_6 : ∀ i : grid0.Coords, EltTy.bits .f32 = 32 ∨ (Rect.block (s := S1024x1) S1024x1.size (cc0_transform_6 i) (hinb0_6 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf
def dot_S1024x256_S64x256_S1024x64_1_1_0_0_n_n : DotDims S1024x256 S64x256 S1024x64 where
  lhsContracting := [1]
  rhsContracting := [1]
  lhsNonContracting := [0]
  rhsNonContracting := [0]
  lhsBatch := []
  rhsBatch := []
  wf := dot_S1024x256_S64x256_S1024x64_1_1_0_0_n_n_wf
def dot_S1024x128_S8x128_S1024x8_1_1_0_0_n_n : DotDims S1024x128 S8x128 S1024x8 where
  lhsContracting := [1]
  rhsContracting := [1]
  lhsNonContracting := [0]
  rhsNonContracting := [0]
  lhsBatch := []
  rhsBatch := []
  wf := dot_S1024x128_S8x128_S1024x8_1_1_0_0_n_n_wf
def dot_S1024x8_S1x8_S1024x1_1_1_0_0_n_n : DotDims S1024x8 S1x8 S1024x1 where
  lhsContracting := [1]
  rhsContracting := [1]
  lhsNonContracting := [0]
  rhsNonContracting := [0]
  lhsBatch := []
  rhsBatch := []
  wf := dot_S1024x8_S1x8_S1024x1_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S8x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1024x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1024x81920 : Shape := ⟨2, ![1024, 81920]⟩
abbrev S256x40960 : Shape := ⟨2, ![256, 40960]⟩
abbrev S64x256 : Shape := ⟨2, ![64, 256]⟩
abbrev S8x128 : Shape := ⟨2, ![8, 128]⟩
abbrev S1x8 : Shape := ⟨2, ![1, 8]⟩
abbrev S1024x40960 : Shape := ⟨2, ![1024, 40960]⟩
abbrev S40960x256 : Shape := ⟨2, ![40960, 256]⟩
abbrev S1024x256 : Shape := ⟨2, ![1024, 256]⟩
abbrev S_ : Shape := ⟨0, ![]⟩
abbrev S1024 : Shape := ⟨1, ![1024]⟩
abbrev S1024x1 : Shape := ⟨2, ![1024, 1]⟩
abbrev S256x64 : Shape := ⟨2, ![256, 64]⟩
abbrev S1024x64 : Shape := ⟨2, ![1024, 64]⟩
abbrev S1024x128 : Shape := ⟨2, ![1024, 128]⟩
abbrev S128x8 : Shape := ⟨2, ![128, 8]⟩
abbrev S1024x8 : Shape := ⟨2, ![1024, 8]⟩
abbrev S8x1 : Shape := ⟨2, ![8, 1]⟩

abbrev nBuf : Space → Nat
  | .hbm => 140
  | .vmem => 0
  | .smem => 0
  | _ => 0

abbrev hbmTy0_0 (i : Nat) : BufTy := match i % 128 with
  | 0 => ⟨S1024x81920, .f32⟩
  | 1 => ⟨S256x40960, .f32⟩
  | 2 => ⟨S64x256, .f32⟩
  | 3 => ⟨S8x128, .f32⟩
  | 4 => ⟨S1x8, .f32⟩
  | 5 => ⟨S1024x40960, .f32⟩
  | 6 => ⟨S1024x40960, .f32⟩
  | 7 => ⟨S40960x256, .f32⟩
  | 8 => ⟨S1024x256, .f32⟩
  | 9 => ⟨S_, .f32⟩
  | 10 => ⟨S1024, .f32⟩
  | 11 => ⟨S_, .f32⟩
  | 12 => ⟨S1024, .f32⟩
  | 13 => ⟨S1024, .f32⟩
  | 14 => ⟨S1024x1, .f32⟩
  | 15 => ⟨S1024x256, .f32⟩
  | 16 => ⟨S1024x256, .f32⟩
  | 17 => ⟨S1024x256, .f32⟩
  | 18 => ⟨S_, .f32⟩
  | 19 => ⟨S1024, .f32⟩
  | 20 => ⟨S_, .f32⟩
  | 21 => ⟨S1024, .f32⟩
  | 22 => ⟨S1024, .f32⟩
  | 23 => ⟨S1024, .f32⟩
  | 24 => ⟨S1024x256, .f32⟩
  | 25 => ⟨S1024x256, .f32⟩
  | 26 => ⟨S1024x1, .f32⟩
  | 27 => ⟨S1024x256, .f32⟩
  | 28 => ⟨S1024x256, .f32⟩
  | 29 => ⟨S_, .f32⟩
  | 30 => ⟨S1024x256, .f32⟩
  | 31 => ⟨S1024x256, .f32⟩
  | 32 => ⟨S1024x256, .f32⟩
  | 33 => ⟨S40960x256, .f32⟩
  | 34 => ⟨S1024x256, .f32⟩
  | 35 => ⟨S_, .f32⟩
  | 36 => ⟨S1024, .f32⟩
  | 37 => ⟨S_, .f32⟩
  | 38 => ⟨S1024, .f32⟩
  | 39 => ⟨S1024, .f32⟩
  | 40 => ⟨S1024x1, .f32⟩
  | 41 => ⟨S1024x256, .f32⟩
  | 42 => ⟨S1024x256, .f32⟩
  | 43 => ⟨S1024x256, .f32⟩
  | 44 => ⟨S_, .f32⟩
  | 45 => ⟨S1024, .f32⟩
  | 46 => ⟨S_, .f32⟩
  | 47 => ⟨S1024, .f32⟩
  | 48 => ⟨S1024, .f32⟩
  | 49 => ⟨S1024, .f32⟩
  | 50 => ⟨S1024x256, .f32⟩
  | 51 => ⟨S1024x256, .f32⟩
  | 52 => ⟨S1024x1, .f32⟩
  | 53 => ⟨S1024x256, .f32⟩
  | 54 => ⟨S1024x256, .f32⟩
  | 55 => ⟨S_, .f32⟩
  | 56 => ⟨S1024x256, .f32⟩
  | 57 => ⟨S1024x256, .f32⟩
  | 58 => ⟨S1024x256, .f32⟩
  | 59 => ⟨S256x64, .f32⟩
  | 60 => ⟨S1024x64, .f32⟩
  | 61 => ⟨S_, .f32⟩
  | 62 => ⟨S1024, .f32⟩
  | 63 => ⟨S_, .f32⟩
  | 64 => ⟨S1024, .f32⟩
  | 65 => ⟨S1024, .f32⟩
  | 66 => ⟨S1024x1, .f32⟩
  | 67 => ⟨S1024x64, .f32⟩
  | 68 => ⟨S1024x64, .f32⟩
  | 69 => ⟨S1024x64, .f32⟩
  | 70 => ⟨S_, .f32⟩
  | 71 => ⟨S1024, .f32⟩
  | 72 => ⟨S_, .f32⟩
  | 73 => ⟨S1024, .f32⟩
  | 74 => ⟨S1024, .f32⟩
  | 75 => ⟨S1024, .f32⟩
  | 76 => ⟨S1024x64, .f32⟩
  | 77 => ⟨S1024x64, .f32⟩
  | 78 => ⟨S1024x1, .f32⟩
  | 79 => ⟨S1024x64, .f32⟩
  | 80 => ⟨S1024x64, .f32⟩
  | 81 => ⟨S_, .f32⟩
  | 82 => ⟨S1024x64, .f32⟩
  | 83 => ⟨S1024x64, .f32⟩
  | 84 => ⟨S1024x64, .f32⟩
  | 85 => ⟨S256x64, .f32⟩
  | 86 => ⟨S1024x64, .f32⟩
  | 87 => ⟨S_, .f32⟩
  | 88 => ⟨S1024, .f32⟩
  | 89 => ⟨S_, .f32⟩
  | 90 => ⟨S1024, .f32⟩
  | 91 => ⟨S1024, .f32⟩
  | 92 => ⟨S1024x1, .f32⟩
  | 93 => ⟨S1024x64, .f32⟩
  | 94 => ⟨S1024x64, .f32⟩
  | 95 => ⟨S1024x64, .f32⟩
  | 96 => ⟨S_, .f32⟩
  | 97 => ⟨S1024, .f32⟩
  | 98 => ⟨S_, .f32⟩
  | 99 => ⟨S1024, .f32⟩
  | 100 => ⟨S1024, .f32⟩
  | 101 => ⟨S1024, .f32⟩
  | 102 => ⟨S1024x64, .f32⟩
  | 103 => ⟨S1024x64, .f32⟩
  | 104 => ⟨S1024x1, .f32⟩
  | 105 => ⟨S1024x64, .f32⟩
  | 106 => ⟨S1024x64, .f32⟩
  | 107 => ⟨S_, .f32⟩
  | 108 => ⟨S1024x64, .f32⟩
  | 109 => ⟨S1024x64, .f32⟩
  | 110 => ⟨S1024x64, .f32⟩
  | 111 => ⟨S1024x128, .f32⟩
  | 112 => ⟨S128x8, .f32⟩
  | 113 => ⟨S1024x8, .f32⟩
  | 114 => ⟨S_, .f32⟩
  | 115 => ⟨S1024, .f32⟩
  | 116 => ⟨S_, .f32⟩
  | 117 => ⟨S1024, .f32⟩
  | 118 => ⟨S1024, .f32⟩
  | 119 => ⟨S1024x1, .f32⟩
  | 120 => ⟨S1024x8, .f32⟩
  | 121 => ⟨S1024x8, .f32⟩
  | 122 => ⟨S1024x8, .f32⟩
  | 123 => ⟨S_, .f32⟩
  | 124 => ⟨S1024, .f32⟩
  | 125 => ⟨S_, .f32⟩
  | 126 => ⟨S1024, .f32⟩
  | 127 => ⟨S1024, .f32⟩
  | _ => ⟨S1024x81920, .f32⟩

abbrev hbmTy0_1 (i : Nat) : BufTy := match i % 128 with
  | 0 => ⟨S1024, .f32⟩
  | 1 => ⟨S1024x8, .f32⟩
  | 2 => ⟨S1024x8, .f32⟩
  | 3 => ⟨S1024x1, .f32⟩
  | 4 => ⟨S1024x8, .f32⟩
  | 5 => ⟨S1024x8, .f32⟩
  | 6 => ⟨S_, .f32⟩
  | 7 => ⟨S1024x8, .f32⟩
  | 8 => ⟨S1024x8, .f32⟩
  | 9 => ⟨S1024x8, .f32⟩
  | 10 => ⟨S8x1, .f32⟩
  | 11 => ⟨S1024x1, .f32⟩
  | _ => ⟨S1024x81920, .f32⟩

abbrev hbmTy (i : Nat) : BufTy := match i / 128 with
  | 0 => hbmTy0_0 i
  | 1 => hbmTy0_1 i
  | _ => ⟨S1024x81920, .f32⟩

abbrev bufTy : (tb : Table) → Fin (tcTables nBuf tb) → BufTy
  | .hbm, ⟨i, _⟩ => hbmTy i
  | _, _ => ⟨S1024x81920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_14 : Ref sig .tc := ⟨.hbm, 87, rfl⟩
abbrev main_v67 : Ref sig .tc := ⟨.hbm, 88, rfl⟩
abbrev main_cst_15 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_16 : Ref sig .tc := ⟨.hbm, 96, rfl⟩
abbrev main_v74 : Ref sig .tc := ⟨.hbm, 97, rfl⟩
abbrev main_cst_17 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_18 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_19 : Ref sig .tc := ⟨.hbm, 114, rfl⟩
abbrev main_v89 : Ref sig .tc := ⟨.hbm, 115, rfl⟩
abbrev main_cst_20 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_21 : Ref sig .tc := ⟨.hbm, 123, rfl⟩
abbrev main_v96 : Ref sig .tc := ⟨.hbm, 124, rfl⟩
abbrev main_cst_22 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_23 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩

abbrev nD : Nat := 1
abbrev τ : Topo := Topo.v7x

variable {F : FTy → Type} [FloatOps F]

class Facts₀ : Prop where
  slices_S1024x81920_S1024x40960_0_0 : S1024x81920.Slices ![0, 0] S1024x40960
  slices_S1024x81920_S1024x40960_0_40960 : S1024x81920.Slices ![0, 40960] S1024x40960
  transposes_S256x40960_S40960x256_1_0 : S256x40960.Transposes [1, 0] S40960x256
  reducesTo_S1024x256_S1024_d1 : S1024x256.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bcast_S_S1024x256 : S_.BroadcastsInDim S1024x256 (![] : Fin 0 → Fin S1024x256.rank)
  transposes_S64x256_S256x64_1_0 : S64x256.Transposes [1, 0] S256x64
  reducesTo_S1024x64_S1024_d1 : S1024x64.ReducesTo [1] S1024
  bcast_S1024x1_S1024x64_0_1 : S1024x1.BroadcastsInDim S1024x64 (![0, 1] : Fin 2 → Fin S1024x64.rank)
  bcast_S_S1024x64 : S_.BroadcastsInDim S1024x64 (![] : Fin 0 → Fin S1024x64.rank)
  concatenates_S1024x64_S1024x64_S1024x128_d1 : Shape.Concatenates [S1024x64, S1024x64] S1024x128 1
  transposes_S8x128_S128x8_1_0 : S8x128.Transposes [1, 0] S128x8
  reducesTo_S1024x8_S1024_d1 : S1024x8.ReducesTo [1] S1024
  bcast_S1024x1_S1024x8_0_1 : S1024x1.BroadcastsInDim S1024x8 (![0, 1] : Fin 2 → Fin S1024x8.rank)
  bcast_S_S1024x8 : S_.BroadcastsInDim S1024x8 (![] : Fin 0 → Fin S1024x8.rank)
  transposes_S1x8_S8x1_1_0 : S1x8.Transposes [1, 0] S8x1
  dot_S1024x40960_S40960x256_S1024x256_1_0_0_1_n_n_wf : DotDims.WF S1024x40960 S40960x256 S1024x256 [1] [0] [0] [1] [] []
  dot_S1024x256_S256x64_S1024x64_1_0_0_1_n_n_wf : DotDims.WF S1024x256 S256x64 S1024x64 [1] [0] [0] [1] [] []
  dot_S1024x128_S128x8_S1024x8_1_0_0_1_n_n_wf : DotDims.WF S1024x128 S128x8 S1024x8 [1] [0] [0] [1] [] []
  dot_S1024x8_S8x1_S1024x1_1_0_0_1_n_n_wf : DotDims.WF S1024x8 S8x1 S1024x1 [1] [0] [0] [1] [] []

variable [Facts₀]

def dot_S1024x40960_S40960x256_S1024x256_1_0_0_1_n_n : DotDims S1024x40960 S40960x256 S1024x256 where
  lhsContracting := [1]
  rhsContracting := [0]
  lhsNonContracting := [0]
  rhsNonContracting := [1]
  lhsBatch := []
  rhsBatch := []
  wf := dot_S1024x40960_S40960x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x128_S128x8_S1024x8_1_0_0_1_n_n : DotDims S1024x128 S128x8 S1024x8 where
  lhsContracting := [1]
  rhsContracting := [0]
  lhsNonContracting := [0]
  rhsNonContracting := [1]
  lhsBatch := []
  rhsBatch := []
  wf := dot_S1024x128_S128x8_S1024x8_1_0_0_1_n_n_wf
def dot_S1024x8_S8x1_S1024x1_1_0_0_1_n_n : DotDims S1024x8 S8x1 S1024x1 where
  lhsContracting := [1]
  rhsContracting := [0]
  lhsNonContracting := [0]
  rhsNonContracting := [1]
  lhsBatch := []
  rhsBatch := []
  wf := dot_S1024x8_S8x1_S1024x1_1_0_0_1_n_n_wf

class Facts : Prop extends Facts₀ where

variable [Facts]
-- ==== Proof.K.Defs.lean ====
/-
  What the kernel's buffers hold, point by point, as pure functions of the argument arrays.

  The grid has 20 points. At point `t` the kernel is handed columns `2048·t … 2048·t + 2047` of the first half of
  the input, the same columns of the second half, and the same columns of the first weight matrix; it adds each
  half's product with the transposed weight block into an accumulator that starts from zeros at the first point
  (`accA`, `accB`: what each accumulator holds BEFORE point `n` adds its product). After the last point has
  added its product, the rest of the network is applied to the two accumulators (`epi`) and the result is the
  kernel's one output block (`netOut`).
-/
import proofs.«128817_g6923487281305_cont_9to1_m_76_4_alg».proof.Proof.Gen.Kernel.Skeleton
import proofs.«128817_g6923487281305_cont_9to1_m_76_4_alg».proof.Proof.Gen.Kernel.Launch

noncomputable section

namespace Cert.Kernel.Fr

open Idealize.ShloMosaic Idealize.ShloMosaic.TcCoe Idealize.SL.Sem
open Cert.Kernel Cert.Kernel.Gen

variable {F : FTy → Type} [FloatOps F]

variable (m : (ℓ : Loc nD τ sig) → Buf (Elt F) ℓ)

/-- Core `c`'s buffers when the kernel starts: as launched (the program is the kernel alone). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The grid's last point. -/
def tLast : Fin cfg0.N := ⟨19, by decide⟩

/-- The first half's accumulator before point `n`: zeros, then one block product added per point. -/
def accA (c : Dev nD) : ℕ → FVec F S1024x256 .f32
  | 0 => k0_pay1
  | n + 1 => if h : n < cfg0.N then k0_pay4 (iblk m c 2 ⟨n, h⟩) (accA c n) (iblk m c 0 ⟨n, h⟩) else accA c n

/-- The second half's accumulator before point `n`. -/
def accB (c : Dev nD) : ℕ → FVec F S1024x256 .f32
  | 0 => k0_pay2
  | n + 1 => if h : n < cfg0.N then k0_pay5 (iblk m c 2 ⟨n, h⟩) (accB c n) (iblk m c 1 ⟨n, h⟩) else accB c n

/-- Everything after the first layer, as the kernel's last point computes it from the two accumulators and the three
    small weight matrices. -/
def epi (a1 a2 : FVec F S1024x256 .f32) (w2 : Vec F S64x256 .f32) (w3 : Vec F S8x128 .f32) (w4 : Vec F S1x8 .f32) :
    FVec F S1024x1 .f32 :=
  k0_pay6 (k0_pay9 (k0_pay7 a2) (k0_pay8 a1 w2) w2 w3) (k0_pay10 (k0_pay7 a2) (k0_pay8 a1 w2) w2 w3) w4

/-- The kernel's output block. -/
def netOut (c : Dev nD) : FVec F S1024x1 .f32 :=
  epi (accA m c 20) (accB m c 20) (iblk m c 3 tLast) (iblk m c 4 tLast) (iblk m c 5 tLast)

theorem accA_succ (c : Dev nD) (t : Fin cfg0.N) :
    accA m c (t.val + 1) = k0_pay4 (iblk m c 2 t) (accA m c t.val) (iblk m c 0 t) := by
  show (if h : t.val < cfg0.N then _ else _) = _
  rw [dif_pos t.isLt]

theorem accB_succ (c : Dev nD) (t : Fin cfg0.N) :
    accB m c (t.val + 1) = k0_pay5 (iblk m c 2 t) (accB m c t.val) (iblk m c 1 t) := by
  show (if h : t.val < cfg0.N then _ else _) = _
  rw [dif_pos t.isLt]

end Cert.Kernel.Fr

end
-- ==== Proof.K.FrRuns.lean ====
/-
  What the three cases of the kernel body share: which grid points take which branch, where the output window is
  idle, and the names of the staging and scratch memrefs.

  The body zeroes its two accumulators at the first point only, adds one block product to each at every point, and
  at the last point only runs the rest of the network and stores the output block. So a point is in one of three
  cases: the first point (A), a middle point (B), the last point (C).
-/
import proofs.«128817_g6923487281305_cont_9to1_m_76_4_alg».proof.Proof.K.Defs
import proofs.«128817_g6923487281305_cont_9to1_m_76_4_alg».proof.Proof.Gen.Kernel.Launch
import proofs.«128817_g6923487281305_cont_9to1_m_76_4_alg».proof.Proof.Gen.Kernel.Skeleton
import proofs.«128817_g6923487281305_cont_9to1_m_76_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The body's first branch is taken: the grid coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 20 = 0 :=
  (by decide +kernel : ∀ t : Fin grid0.N, cond0_0 (grid0.coords t) ↔ t.val % 20 = 0)

/-- The body's second branch is taken: the grid coordinate is 19. -/
abbrev cond0_1 (i : grid0.Coords) : Prop := k0_cond2 i = 1#1
/-- It holds at the last point only. -/
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Where the last branch is not taken the output window is idle: nothing is stored into it, -/
theorem idleAt0_6 : ∀ t : Fin cfg0.N, ¬cond0_1 (grid0.coords t) → cfg0.idle 6 (grid0.coords t) = true := by decide +kernel
/-- and it is not written back there. -/
theorem noFlush0_6 : ∀ t : Fin cfg0.N, ¬cond0_1 (grid0.coords t) → (cfg0.win 6).flush t = false := by decide +kernel
/-- At the last point it is live. -/
theorem liveAt0_6_C : ∀ t : Fin cfg0.N, cond0_1 (grid0.coords t) → cfg0.idle 6 (grid0.coords t) = false := by decide +kernel

/-! ## The memrefs the body is called with -/

/-- One staging buffer of the output window, through which its contents are stated. -/
abbrev VO0_6 : View sig .tc .vmem S1024x1 .f32 := (Memref.whole cc0_stg6_0 : Memref sig .tc .vmem S1024x1 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
/-- The two accumulators: whole scratch buffers of the kernel's own. -/
abbrev scM0_0 : Memref sig .tc .vmem S1024x256 .f32 := Memref.whole cc0_scratch0
abbrev scM0_1 : Memref sig .tc .vmem S1024x256 .f32 := Memref.whole cc0_scratch1
abbrev VS0_0 : View sig .tc .vmem S1024x256 .f32 := scM0_0.view
abbrev VS0_1 : View sig .tc .vmem S1024x256 .f32 := scM0_1.view

/-- The scratch buffers at some contents: what the region hands the kernel before its first point. -/
theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.Kernel.Fr

end
-- ==== Proof.K.FrRunA.lean ====
/-
  The kernel body at the first point: the first branch is taken, the second is not. Each accumulator, handed over
  at unknown contents, is overwritten with zeros, loaded back, the block product added, and the sum stored back
  whole.
-/
import proofs.«128817_g6923487281305_cont_9to1_m_76_4_alg».proof.Proof.K.FrRuns

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : cond0_0 i) (hc1 : ¬cond0_1 i)
    (x0 : Vec F S1024x2048 .f32) (x1 : Vec F S1024x2048 .f32) (x2 : Vec F S256x2048 .f32) :
    Σ' (LS0 : List (View.Piece (Elt F) S1024x256 .f32)), { LS1 : List (View.Piece (Elt F) S1024x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__nnue_body i arg1 harg1 arg2 harg2 arg3 harg3 arg4 harg4 arg5 harg5 arg6 harg6 arg7 harg7 arg8 harg8 arg9 harg9) K } := by
  refine ⟨?_, ?_, fun E K => ?run⟩
  case run =>
    simp only [cc0__nnue_body_eq_skeleton]; unfold cc0__nnue_body_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Fr

end
-- ==== Proof.K.FrRunB.lean ====
/-
  The kernel body at a middle point: neither branch is taken. Each accumulator is loaded, the block product added,
  and the sum stored back whole; the pieces each accumulator ends with are found by running the body.
-/
import proofs.«128817_g6923487281305_cont_9to1_m_76_4_alg».proof.Proof.K.FrRuns

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : ¬cond0_1 i)
    (x0 : Vec F S1024x2048 .f32) (x1 : Vec F S1024x2048 .f32) (x2 : Vec F S256x2048 .f32) (xs0 : Vec F S1024x256 .f32) (xs1 : Vec F S1024x256 .f32) :
    Σ' (LS0 : List (View.Piece (Elt F) S1024x256 .f32)), { LS1 : List (View.Piece (Elt F) S1024x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__nnue_body i arg1 harg1 arg2 harg2 arg3 harg3 arg4 harg4 arg5 harg5 arg6 harg6 arg7 harg7 arg8 harg8 arg9 harg9) K } := by
  refine ⟨?_, ?_, fun E K => ?run⟩
  case run =>
    simp only [cc0__nnue_body_eq_skeleton]; unfold cc0__nnue_body_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Fr

end
-- ==== Proof.K.FrRunC.lean ====
/-
  The kernel body at the last point: the first branch is not taken, the second is. After the accumulators have
  taken the last block product, they are loaded again, the rest of the network is computed from them and the three
  small weight blocks, and the result is stored whole into the output block.
-/
import proofs.«128817_g6923487281305_cont_9to1_m_76_4_alg».proof.Proof.K.FrRuns

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun0_C (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : cond0_1 i)
    (x0 : Vec F S1024x2048 .f32) (x1 : Vec F S1024x2048 .f32) (x2 : Vec F S256x2048 .f32) (x3 : Vec F S64x256 .f32) (x4 : Vec F S8x128 .f32) (x5 : Vec F S1x8 .f32)
    (xs0 : Vec F S1024x256 .f32) (xs1 : Vec F S1024x256 .f32) :
    Σ' (L6 : List (View.Piece (Elt F) S1024x1 .f32)) (LS0 : List (View.Piece (Elt F) S1024x256 .f32)), { LS1 : List (View.Piece (Elt F) S1024x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__nnue_body i arg1 harg1 arg2 harg2 arg3 harg3 arg4 harg4 arg5 harg5 arg6 harg6 arg7 harg7 arg8 harg8 arg9 harg9) K } := by
  refine ⟨?_, ?_, ?_, fun E K => ?run⟩
  case run =>
    simp only [cc0__nnue_body_eq_skeleton]; unfold cc0__nnue_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

end Cert.Kernel.Fr

end
-- ==== Proof.K.FrPieces.lean ====
/-
  What each case of the kernel body leaves in the two accumulators and in the output block, as values.

  Running the body finds, for every buffer it stores into, the list of pieces stored. Each store here covers its
  whole buffer, so what the buffer holds afterwards is the last store's value: at the first point the block
  product added to zeros, at the other points the block product added to what the accumulator held, and at the last
  point the output block is the rest of the network applied to the two freshly updated accumulators.
-/
import proofs.«128817_g6923487281305_cont_9to1_m_76_4_alg».proof.Proof.K.FrRunA
import proofs.«128817_g6923487281305_cont_9to1_m_76_4_alg».proof.Proof.K.FrRunB
import proofs.«128817_g6923487281305_cont_9to1_m_76_4_alg».proof.Proof.K.FrRunC
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-! ## The first point -/

theorem scoverA_0 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : cond0_0 i) (hc1 : ¬cond0_1 i) (x0 : Vec F S1024x2048 .f32) (x1 : Vec F S1024x2048 .f32) (x2 : Vec F S256x2048 .f32) (y : S1024x256.Idx) :
    ∃ pc ∈ (kernelRun0_A c i arg1 harg1 arg2 harg2 arg3 harg3 arg4 harg4 arg5 harg5 arg6 harg6 arg7 harg7 arg8 harg8 arg9 harg9 hc0 hc1 x0 x1 x2).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2).1 S1024x256.size (by sl_kernel_rfl) y

theorem scoverA_1 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : cond0_0 i) (hc1 : ¬cond0_1 i) (x0 : Vec F S1024x2048 .f32) (x1 : Vec F S1024x2048 .f32) (x2 : Vec F S256x2048 .f32) (y : S1024x256.Idx) :
    ∃ pc ∈ (kernelRun0_A c i arg1 harg1 arg2 harg2 arg3 harg3 arg4 harg4 arg5 harg5 arg6 harg6 arg7 harg7 arg8 harg8 arg9 harg9 hc0 hc1 x0 x1 x2).2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2).2.1 S1024x256.size (by sl_kernel_rfl) y

theorem soutA_0_eq (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : cond0_0 i) (hc1 : ¬cond0_1 i) (x0 : Vec F S1024x2048 .f32) (x1 : Vec F S1024x2048 .f32) (x2 : Vec F S256x2048 .f32) :
    VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2).1) = k0_pay4 x2 (k0_pay1 (F := F)) x0 := by
  rw [View.read_writes_eq_canon _ _ _ (scoverA_0 c i arg1 harg1 arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1024x256) hz, View.readCov_unit_zero (S := S1024x256) _ hz]
  simp only [View.readAt_eq_ld, harg1.read_unread, harg3.read_unread, View.ld_unit_zero (S := S1024x256) hz, View.ld_unit_zero (S := S256x2048) hz, View.ld_unit_zero (S := S1024x2048) hz]

theorem soutA_1_eq (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : cond0_0 i) (hc1 : ¬cond0_1 i) (x0 : Vec F S1024x2048 .f32) (x1 : Vec F S1024x2048 .f32) (x2 : Vec F S256x2048 .f32) :
    VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 x0 x1 x2).2.1) = k0_pay5 x2 (k0_pay2 (F := F)) x1 := by
  rw [View.read_writes_eq_canon _ _ _ (scoverA_1 c i arg1 harg1 arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1024x256) hz, View.readCov_unit_zero (S := S1024x256) _ hz]
  simp only [View.readAt_eq_ld, harg2.read_unread, harg3.read_unread, View.ld_unit_zero (S := S1024x256) hz, View.ld_unit_zero (S := S256x2048) hz, View.ld_unit_zero (S := S1024x2048) hz]

/-! ## A middle point -/

theorem scoverB_0 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : ¬cond0_1 i) (x0 : Vec F S1024x2048 .f32) (x1 : Vec F S1024x2048 .f32) (x2 : Vec F S256x2048 .f32) (xs0 : Vec F S1024x256 .f32) (xs1 : Vec F S1024x256 .f32) (y : S1024x256.Idx) :
    ∃ pc ∈ (kernelRun0_B c i arg1 harg1 arg2 harg2 arg3 harg3 arg4 harg4 arg5 harg5 arg6 harg6 arg7 harg7 arg8 harg8 arg9 harg9 hc0 hc1 x0 x1 x2 xs0 xs1).1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 xs0 xs1).1 S1024x256.size (by sl_kernel_rfl) y

theorem scoverB_1 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : ¬cond0_1 i) (x0 : Vec F S1024x2048 .f32) (x1 : Vec F S1024x2048 .f32) (x2 : Vec F S256x2048 .f32) (xs0 : Vec F S1024x256 .f32) (xs1 : Vec F S1024x256 .f32) (y : S1024x256.Idx) :
    ∃ pc ∈ (kernelRun0_B c i arg1 harg1 arg2 harg2 arg3 harg3 arg4 harg4 arg5 harg5 arg6 harg6 arg7 harg7 arg8 harg8 arg9 harg9 hc0 hc1 x0 x1 x2 xs0 xs1).2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 xs0 xs1).2.1 S1024x256.size (by sl_kernel_rfl) y

theorem soutB_0_eq (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : ¬cond0_1 i) (x0 : Vec F S1024x2048 .f32) (x1 : Vec F S1024x2048 .f32) (x2 : Vec F S256x2048 .f32) (xs0 : Vec F S1024x256 .f32) (xs1 : Vec F S1024x256 .f32) :
    VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x0 x1 x2 xs0 xs1).1) = k0_pay4 x2 xs0 x0 := by
  rw [View.read_writes_eq_canon _ _ _ (scoverB_0 c i arg1 harg1 arg2 harg2 arg3 harg3 arg4 harg4 arg5 harg5 arg6 harg6 arg7 harg7 arg8 harg8 arg9 harg9 hc0 hc1 x0 x1 x2 xs0 xs1)]
  unfold kernelRun0_B
  dsimp only
  sl_unfold_words
  rw [View.canon_unit_zero hz]
  simp only [View.readAt_eq_ld, harg1.read_unread, harg3.read_unread, harg8.read_unread, View.ld_unit_zero (S := S1024x256) hz, View.ld_unit_zero (S := S256x2048) hz, View.ld_unit_zero (S := S1024x2048) hz]

theorem soutB_1_eq (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : ¬cond0_1 i) (x0 : Vec F S1024x2048 .f32) (x1 : Vec F S1024x2048 .f32) (x2 : Vec F S256x2048 .f32) (xs0 : Vec F S1024x256 .f32) (xs1 : Vec F S1024x256 .f32) :
    VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 x0 x1 x2 xs0 xs1).2.1) = k0_pay5 x2 xs1 x1 := by
  rw [View.read_writes_eq_canon _ _ _ (scoverB_1 c i arg1 harg1 arg2 harg2 arg3 harg3 arg4 harg4 arg5 harg5 arg6 harg6 arg7 harg7 arg8 harg8 arg9 harg9 hc0 hc1 x0 x1 x2 xs0 xs1)]
  unfold kernelRun0_B
  dsimp only
  sl_unfold_words
  rw [View.canon_unit_zero hz]
  simp only [View.readAt_eq_ld, harg2.read_unread, harg3.read_unread, harg9.read_unread, View.ld_unit_zero (S := S1024x256) hz, View.ld_unit_zero (S := S256x2048) hz, View.ld_unit_zero (S := S1024x2048) hz]

/-! ## The last point -/

theorem coverC_6 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : cond0_1 i) (x0 : Vec F S1024x2048 .f32) (x1 : Vec F S1024x2048 .f32) (x2 : Vec F S256x2048 .f32) (x3 : Vec F S64x256 .f32) (x4 : Vec F S8x128 .f32) (x5 : Vec F S1x8 .f32) (xs0 : Vec F S1024x256 .f32) (xs1 : Vec F S1024x256 .f32) (y : S1024x1.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0 xs1).1 S1024x1.size (by sl_kernel_rfl) y

theorem scoverC_0 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : cond0_1 i) (x0 : Vec F S1024x2048 .f32) (x1 : Vec F S1024x2048 .f32) (x2 : Vec F S256x2048 .f32) (x3 : Vec F S64x256 .f32) (x4 : Vec F S8x128 .f32) (x5 : Vec F S1x8 .f32) (xs0 : Vec F S1024x256 .f32) (xs1 : Vec F S1024x256 .f32) (y : S1024x256.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0 xs1).2.1 S1024x256.size (by sl_kernel_rfl) y

theorem scoverC_1 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : cond0_1 i) (x0 : Vec F S1024x2048 .f32) (x1 : Vec F S1024x2048 .f32) (x2 : Vec F S256x2048 .f32) (x3 : Vec F S64x256 .f32) (x4 : Vec F S8x128 .f32) (x5 : Vec F S1x8 .f32) (xs0 : Vec F S1024x256 .f32) (xs1 : Vec F S1024x256 .f32) (y : S1024x256.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0 xs1).2.2.1 S1024x256.size (by sl_kernel_rfl) y

theorem soutC_0_eq (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : cond0_1 i) (x0 : Vec F S1024x2048 .f32) (x1 : Vec F S1024x2048 .f32) (x2 : Vec F S256x2048 .f32) (x3 : Vec F S64x256 .f32) (x4 : Vec F S8x128 .f32) (x5 : Vec F S1x8 .f32) (xs0 : Vec F S1024x256 .f32) (xs1 : Vec F S1024x256 .f32) :
    VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x0 x1 x2 x3 x4 x5 xs0 xs1).2.1) = k0_pay4 x2 xs0 x0 := by
  rw [View.read_writes_eq_canon _ _ _ (scoverC_0 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero hz]
  simp only [View.readAt_eq_ld, harg1.read_unread, harg3.read_unread, harg8.read_unread, View.ld_unit_zero (S := S1024x256) hz, View.ld_unit_zero (S := S256x2048) hz, View.ld_unit_zero (S := S1024x2048) hz]

theorem soutC_1_eq (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : cond0_1 i) (x0 : Vec F S1024x2048 .f32) (x1 : Vec F S1024x2048 .f32) (x2 : Vec F S256x2048 .f32) (x3 : Vec F S64x256 .f32) (x4 : Vec F S8x128 .f32) (x5 : Vec F S1x8 .f32) (xs0 : Vec F S1024x256 .f32) (xs1 : Vec F S1024x256 .f32) :
    VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 x0 x1 x2 x3 x4 x5 xs0 xs1).2.2.1) = k0_pay5 x2 xs1 x1 := by
  rw [View.read_writes_eq_canon _ _ _ (scoverC_1 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero hz]
  simp only [View.readAt_eq_ld, harg2.read_unread, harg3.read_unread, harg9.read_unread, View.ld_unit_zero (S := S1024x256) hz, View.ld_unit_zero (S := S256x2048) hz, View.ld_unit_zero (S := S1024x2048) hz]

theorem outC_6_eq (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : cond0_1 i) (x0 : Vec F S1024x2048 .f32) (x1 : Vec F S1024x2048 .f32) (x2 : Vec F S256x2048 .f32) (x3 : Vec F S64x256 .f32) (x4 : Vec F S8x128 .f32) (x5 : Vec F S1x8 .f32) (xs0 : Vec F S1024x256 .f32) (xs1 : Vec F S1024x256 .f32) :
    VO0_6.read (Elt F) (VO0_6.writes (Elt F) VO0_6.junk (kernelRun0_C c i arg1 harg1 arg2 harg2 arg3 harg3 arg4 harg4 arg5 harg5 arg6 harg6 arg7 harg7 arg8 harg8 arg9 harg9 hc0 hc1 x0 x1 x2 x3 x4 x5 xs0 xs1).1) = epi (k0_pay4 x2 xs0 x0) (k0_pay5 x2 xs1 x1) x3 x4 x5 := by
  rw [View.read_writes_eq_canon _ _ _ (coverC_6 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero hz]
  unfold epi
  simp only [View.readAt_eq_ld, harg1.read_unread, harg2.read_unread, harg3.read_unread, harg4.read_unread, harg5.read_unread, harg6.read_unread, harg8.read_unread, harg9.read_unread, View.readCov_unit_zero (S := S1024x256) _ hz, View.ld_unit_zero (S := S1024x256) hz, View.ld_unit_zero (S := S256x2048) hz, View.ld_unit_zero (S := S1024x2048) hz, View.ld_unit_zero (S := S64x256) hz, View.ld_unit_zero (S := S8x128) hz, View.ld_unit_zero (S := S1x8) hz]

end Cert.Kernel.Fr

end
-- ==== Proof.K.FrData.lean ====
/-
  The pipeline's proof data: what every window's staging buffer holds after the body at each point, and what the
  two accumulators hold between points.

  The six input windows hold their array's block at every point (the body never writes them). The accumulators are
  handed over at unknown contents before the first point and hold, before point `n + 1`, the running sums `accA`,
  `accB` at `n + 1`. The output block is written at the last point only, with the network's result.
  The input array is read through two windows, each holding half of the read permission.
-/
import proofs.«128817_g6923487281305_cont_9to1_m_76_4_alg».proof.Proof.K.FrRuns

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulators between points: before the first point at anything; before point `n + 1` at the running sums. -/
def PhiS (c : Dev nD) : (n : ℕ) → n ≤ cfg0.N → sProp 𝕄
  | 0, _ => Pipeline.scopedRest spec0 c
  | n + 1, _ => iprop(owns (c : Thread nD τ) scM0_0 fullShare (accA m c (n + 1)) ∗ owns (c : Thread nD τ) scM0_1 fullShare (accB m c (n + 1)))

theorem PhiS_zero (c : Dev nD) (n : ℕ) (h : n ≤ cfg0.N) (hz : n = 0) : PhiS m c n h = Pipeline.scopedRest spec0 c := by
  subst hz; rfl

theorem PhiS_succ (c : Dev nD) (n : ℕ) (hn : n + 1 ≤ cfg0.N) :
    PhiS m c (n + 1) hn = iprop(owns (c : Thread nD τ) scM0_0 fullShare (accA m c (n + 1)) ∗ owns (c : Thread nD τ) scM0_1 fullShare (accB m c (n + 1))) := rfl

theorem PhiS_pos (c : Dev nD) (n : ℕ) (h : n ≤ cfg0.N) (hz : n ≠ 0) :
    PhiS m c n h = iprop(owns (c : Thread nD τ) scM0_0 fullShare (accA m c n) ∗ owns (c : Thread nD τ) scM0_1 fullShare (accB m c n)) := by
  cases n with
  | zero => exact absurd rfl hz
  | succ n => rfl

/-- The output block after point `t` (consulted at the last point only). -/
def outAt (c : Dev nD) (t : Fin cfg0.N) : FVec F S1024x1 .f32 :=
  epi (accA m c (t.val + 1)) (accB m c (t.val + 1)) (iblk m c 3 t) (iblk m c 4 t) (iblk m c 5 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

end Cert.Kernel.Fr

end
-- ==== Proof.K.FrBody.lean ====
/-
  The body obligation: at every grid point, from the accumulators as the point before left them and every window's
  staging buffer at what it then holds, the kernel body runs to the accumulators at the next running sums and every
  staging buffer at what the proof data says — the inputs' blocks untouched, the output block untouched except at
  the last point, where it receives the network's result.
-/
import proofs.«128817_g6923487281305_cont_9to1_m_76_4_alg».proof.Proof.K.FrPieces
import proofs.«128817_g6923487281305_cont_9to1_m_76_4_alg».proof.Proof.K.FrData

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ, accA_succ m c t, accB_succ m c t]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN : t.val < 20 := lt_of_lt_of_eq t.isLt (show cfg0.N = 20 from N_0)
  by_cases h0 : t.val % 20 = 0
  · have h1 : ¬t.val % 20 = 19 := by omega
    have hz0 : t.val = 0 := by omega
    rw [Dat.leavesExact_idle (dats m 0 c) 6 t (idleAt0_6 t (fun h => h1 ((hcond0_1 t).mp h))) (noFlush0_6 t (fun h => h1 ((hcond0_1 t).mp h)))]
    rw [PhiS_castSucc m c t, PhiS_zero m c _ _ hz0, scopedRest0_owns]
    rw [show accA m c t.val = k0_pay1 from by rw [hz0]; rfl, show accB m c t.val = k0_pay2 from by rw [hz0]; rfl]
    iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t)).2.2 Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1]
    · isplitl [HS0]
      · unfold owns; iexists _; isplitr
        swap; · iexact HS0
        ipureintro
        exact (View.read_writes_of_cover _ _ _ _ _ (scoverA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t))).trans (soutA_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t))
      · unfold owns; iexists _; isplitr
        swap; · iexact HS1
        ipureintro
        exact (View.read_writes_of_cover _ _ _ _ _ (scoverA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t))).trans (soutA_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t))
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz0 : t.val ≠ 0 := by omega
    rw [PhiS_castSucc m c t, PhiS_pos m c _ _ hz0]
    by_cases h1 : t.val % 20 = 19
    · rw [show (dats m 0 c).leavesExact 6 t = owns (c : Thread nD τ) (ms0_6 t) fullShare ((dats m 0 c).after 6 t) from by
        unfold Dat.leavesExact; rw [liveAt0_6_C t ((hcond0_1 t).mpr h1)], after0_6]
      unfold outAt
      rw [accA_succ m c t, accB_succ m c t]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (accA m c t.val) (accB m c t.val)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1]
      · isplitl [HS0]
        · unfold owns; iexists _; isplitr
          swap; · iexact HS0
          ipureintro
          exact (View.read_writes_of_cover _ _ _ _ _ (scoverC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (accA m c t.val) (accB m c t.val))).trans (soutC_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (accA m c t.val) (accB m c t.val))
        · unfold owns; iexists _; isplitr
          swap; · iexact HS1
          ipureintro
          exact (View.read_writes_of_cover _ _ _ _ _ (scoverC_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (accA m c t.val) (accB m c t.val))).trans (soutC_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (accA m c t.val) (accB m c t.val))
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      exact (View.read_writes_of_cover _ _ _ _ _ (coverC_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (accA m c t.val) (accB m c t.val))).trans (outC_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (accA m c t.val) (accB m c t.val))
    · rw [Dat.leavesExact_idle (dats m 0 c) 6 t (idleAt0_6 t (fun h => h1 ((hcond0_1 t).mp h))) (noFlush0_6 t (fun h => h1 ((hcond0_1 t).mp h)))]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (accA m c t.val) (accB m c t.val)).2.2 Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1]
      · isplitl [HS0]
        · unfold owns; iexists _; isplitr
          swap; · iexact HS0
          ipureintro
          exact (View.read_writes_of_cover _ _ _ _ _ (scoverB_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (accA m c t.val) (accB m c t.val))).trans (soutB_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (accA m c t.val) (accB m c t.val))
        · unfold owns; iexists _; isplitr
          swap; · iexact HS1
          ipureintro
          exact (View.read_writes_of_cover _ _ _ _ _ (scoverB_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (accA m c t.val) (accB m c t.val))).trans (soutB_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (accA m c t.val) (accB m c t.val))
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.K.FrLaunch.lean ====
/-
  The run of the whole program from the body obligation.

  The program is the kernel region alone. The launch hands the region its four argument arrays and the result array
  whole; the input array, which two windows read, is split into two halves of the read permission, one per window;
  the two accumulators are the region's only other buffers. After the run every argument array holds what it held
  (an input array is never written) and the result array holds its one block, written back after the last point.
-/
import proofs.«128817_g6923487281305_cont_9to1_m_76_4_alg».proof.Proof.K.FrData
import Idealize.ShloMosaic.Lib.Pipeline.Frame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging cells' launch element. -/
abbrev u₀ : UR sig nD τ := initOf (Pipeline.cells cfgs cellOf_inj) (Pipeline.launchToks cfgs cellOf_inj)

/-- The distinct buffers behind the windows' arrays. -/
theorem arrRefs_eq : Finset.univ.image (Pipeline.arrRef spec0)
    = ([main_arg0, main_arg1, main_arg2, main_arg3, main_arg4, main_v0] : List (Ref sig .tc)).toFinset := by decide

/-- Those buffers' points-tos one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1) ∗ (((c : Thread nD τ).loc main_arg2) ↦{fullShare} W main_arg2) ∗ (((c : Thread nD τ).loc main_arg3) ↦{fullShare} W main_arg3) ∗ (((c : Thread nD τ).loc main_arg4) ↦{fullShare} W main_arg4) ∗ (((c : Thread nD τ).loc main_v0) ↦{fullShare} W main_v0)) := by
  unfold Pipeline.arrBufs
  exact bigSep_eq_bigSepL_of_eq _ arrRefs_eq (by decide) _

/-- The arrays behind the windows, each whole, are the windows' arrays at their shares: the input array's full
    permission splits into the two windows' halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq]
  unfold Dat.arrays
  rw [bigSep_W0]
  simp only [show (cfg0.win (0 : Fin 7)).arr.view.set = Finset.univ from (arr_whole0 0).set_eq_univ,
    show (cfg0.win (1 : Fin 7)).arr.view.set = Finset.univ from (arr_whole0 1).set_eq_univ,
    show (cfg0.win (2 : Fin 7)).arr.view.set = Finset.univ from (arr_whole0 2).set_eq_univ,
    show (cfg0.win (3 : Fin 7)).arr.view.set = Finset.univ from (arr_whole0 3).set_eq_univ,
    show (cfg0.win (4 : Fin 7)).arr.view.set = Finset.univ from (arr_whole0 4).set_eq_univ,
    show (cfg0.win (5 : Fin 7)).arr.view.set = Finset.univ from (arr_whole0 5).set_eq_univ,
    show (cfg0.win (6 : Fin 7)).arr.view.set = Finset.univ from (arr_whole0 6).set_eq_univ]
  have hs : ((((c : Thread nD τ).loc main_arg0) ↦{fullShare} V m c main_arg0 : sProp 𝕄))
      ⊢ iprop((((c : Thread nD τ).loc main_arg0) ↦{fullShare.left} V m c main_arg0) ∗ (((c : Thread nD τ).loc main_arg0) ↦{fullShare.right} V m c main_arg0)) :=
    (pointsTo_share (PosShare.mem_left_op_right fullShare)).1
  refine (sep_mono hs .rfl).trans ?_
  iintro ⟨⟨Ha, Hb⟩, H1, H2, H3, H4, H5⟩
  isplitl [Ha]; · iexact Ha
  isplitl [Hb]; · iexact Hb
  isplitl [H1]; · iexact H1
  isplitl [H2]; · iexact H2
  isplitl [H3]; · iexact H3
  isplitl [H4]; · iexact H4
  iexact H5

theorem hin (c : Dev nD) : iprop(emp ∗ Pipeline.scopedRest spec0 c) ⊢ (dats m 0 c).Φ 0 := by
  rw [show (dats m 0 c).Φ 0 = PhiS m c 0 (Nat.zero_le _) from rfl, PhiS_zero m c 0 _ rfl]
  iintro ⟨-, H⟩; iexact H

theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 20 := N_0; omega), scopedRest0_owns]
  iintro ⟨HS0, HS1⟩
  isplitr; · iempintro
  isplitl [HS0]
  · iexists _; iexact HS0
  iexists _; iexact HS1

/-- The physical post: every array of the kernel holds what the library computes it holds after the last write-back. -/
def QC : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
theorem run_main (hbody : ∀ c, BodyObligation (dats (F := F) m 0 c) (defs₀ (F := F)) Variants.none () Set.univ) :
    θ_run defs (onTc (τ := τ) (main (F := F))) ⟨m, fun _ => 0, ρ⟩ (QC m) :=
  Pipeline.θ_run_region_noSem_shared cfgs (dats m) () cellOf_inj (0 : Fin 1) winFacts₀0 emb₁ defs₀ Variants.none m ρ main
    (hbody := fun c => (hbody c).loose) (hne := block_pos0) (harr := arr_whole0) (hstage := stage_whole0)
    (howed := fun _ _ => rfl) (u₀ := u₀) (hu₀ := (show (ownU u₀ : sProp 𝕄) ⊢ BI.own (emb₁ u₀) from .rfl))
    (V := V m)
    (hmain := Pipeline.hmain_region cfgs 0 defs₀ Variants.none m main fun c => (main_chain c).trans rfl)
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

end Cert.Kernel.Fr

end
-- ==== Proof.K.FrFinal.lean ====
/-
  The run, read: after it the result array holds the kernel's output block and every argument array what it held.

  The output window is written back once, after the last point, and its one block is the whole result array.
-/
import proofs.«128817_g6923487281305_cont_9to1_m_76_4_alg».proof.Proof.K.FrBody
import proofs.«128817_g6923487281305_cont_9to1_m_76_4_alg».proof.Proof.K.FrLaunch
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window's block index never moves. -/
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- The only point that writes the output block back is the last. -/
theorem flush6_last (t : Fin cfg0.N) (h : (cfg0.win 6).flush t = true) : t = tLast := by
  have h19 := (flush0_6 t).mp h
  have hN : t.val < 20 := lt_of_lt_of_eq t.isLt (show cfg0.N = 20 from N_0)
  apply Fin.ext
  show t.val = 19
  omega

/-- The output window's block is the whole result array: reading an array through it reads the array. -/
theorem blk6_read (c : Dev nD) (t : Fin cfg0.N) (G : Buf (Elt F) ((cfg0.win 6).arr.view.loc (c.tc : Thread nD τ))) :
    ((cfg0.win 6).blk t).view.read (Elt F) G = G := by
  funext y
  rw [View.read_apply]
  show G (((cfg0.win 6).blk t).view.emb y) = G y
  refine congrArg G (funext fun a => Fin.ext ?_)
  obtain ⟨e0, e1⟩ := idx6 t
  match a with
  | ⟨0, _⟩ => show win0_6.index t (0 : Fin 2) * 1024 + 1 * (y 0).val = (y 0).val; omega
  | ⟨1, _⟩ => show win0_6.index t (1 : Fin 2) * 1 + 1 * (y 1).val = (y 1).val; omega

theorem mem_blk6 (t : Fin cfg0.N) (i : S1024x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v0).slice (win0_6.rect t)).set ↔ _
  rw [View.set_slice_whole, Rect.mem_set_unit]
  exact Iff.rfl

/-- The result array after the run is the kernel's output block. -/
theorem out_final (c : Dev nD) : (dats m 0 c).arrAt 6 cfg0.N = netOut m c := by
  refine (dats m 0 c).arrAt_eq_of_cover 6 (netOut m c) (fun t hf => ?_) (fun i => ?_)
  · obtain rfl := flush6_last t hf
    rw [blk6_read c tLast]
    show (cfg0.win 6).cut (grid0.coords tLast) ((dats m 0 c).after 6 tLast) = _
    rw [after0_6]
    rfl
  · refine ⟨tLast, (flush0_6 tLast).mpr rfl, (mem_blk6 tLast i).mpr fun a => ?_⟩
    obtain ⟨e0, e1⟩ := idx6 tLast
    match a with
    | ⟨0, _⟩ =>
      show win0_6.index tLast (0 : Fin 2) * 1024 ≤ (i 0).val ∧ (i 0).val < win0_6.index tLast (0 : Fin 2) * 1024 + 1024
      have hi : (i 0).val < 1024 := (i 0).isLt
      omega
    | ⟨1, _⟩ =>
      show win0_6.index tLast (1 : Fin 2) * 1 ≤ (i 1).val ∧ (i 1).val < win0_6.index tLast (1 : Fin 2) * 1 + 1
      have hi : (i 1).val < 1 := (i 1).isLt
      omega

/-- The run with the result named and the arguments unchanged. -/
theorem run : θ_run defs (onTc (τ := τ) (main (F := F))) ⟨m, fun _ => 0, ρ⟩ (fun r => ∀ c : Dev nD,
      r.2.mem ((c.tc : Thread nD τ).loc main_v0) = netOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c 6).trans (out_final m c),
      ((h c 0).trans (((dats m 0 c).arrAt_in 0 rfl _).trans (A_eq m c 0))),
      ((h c 2).trans (((dats m 0 c).arrAt_in 2 rfl _).trans (A_eq m c 2))),
      ((h c 3).trans (((dats m 0 c).arrAt_in 3 rfl _).trans (A_eq m c 3))),
      ((h c 4).trans (((dats m 0 c).arrAt_in 4 rfl _).trans (A_eq m c 4))),
      ((h c 5).trans (((dats m 0 c).arrAt_in 5 rfl _).trans (A_eq m c 5)))⟩)
    (run_main m ρ (body_obligation m))

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run m ρ)

end Cert.Kernel.Fr

end
-- ==== Proof.KI.Defs.lean ====
/-
  What the kernel's buffers hold, point by point, as pure functions of the argument arrays.

  The grid has 20 points. At point `t` the kernel is handed columns `2048·t … 2048·t + 2047` of the first half of
  the input, the same columns of the second half, and the same columns of the first weight matrix; it adds each
  half's product with the transposed weight block into an accumulator that starts from zeros at the first point
  (`accA`, `accB`: what each accumulator holds BEFORE point `n` adds its product). After the last point has
  added its product, the rest of the network is applied to the two accumulators (`epi`) and the result is the
  kernel's one output block (`netOut`).
-/
import proofs.«128817_g6923487281305_cont_9to1_m_76_4_alg».proof.Proof.Gen.KernelIdeal.Skeleton
import proofs.«128817_g6923487281305_cont_9to1_m_76_4_alg».proof.Proof.Gen.KernelIdeal.Launch

noncomputable section

namespace Cert.KernelIdeal.Fr

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ)

/-- Core `c`'s buffers when the kernel starts: as launched (the program is the kernel alone). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The grid's last point. -/
def tLast : Fin cfg0.N := ⟨19, by decide⟩

/-- The first half's accumulator before point `n`: zeros, then one block product added per point. -/
def accA (c : Dev nD) : ℕ → FVec F S1024x256 .f32
  | 0 => k0_pay1
  | n + 1 => if h : n < cfg0.N then k0_pay4 (iblk m c 2 ⟨n, h⟩) (accA c n) (iblk m c 0 ⟨n, h⟩) else accA c n

/-- The second half's accumulator before point `n`. -/
def accB (c : Dev nD) : ℕ → FVec F S1024x256 .f32
  | 0 => k0_pay2
  | n + 1 => if h : n < cfg0.N then k0_pay5 (iblk m c 2 ⟨n, h⟩) (accB c n) (iblk m c 1 ⟨n, h⟩) else accB c n

/-- Everything after the first layer, as the kernel's last point computes it from the two accumulators and the three
    small weight matrices. -/
def epi (a1 a2 : FVec F S1024x256 .f32) (w2 : Vec F S64x256 .f32) (w3 : Vec F S8x128 .f32) (w4 : Vec F S1x8 .f32) :
    FVec F S1024x1 .f32 :=
  k0_pay6 (k0_pay9 (k0_pay7 a2) (k0_pay8 a1 w2) w2 w3) (k0_pay10 (k0_pay7 a2) (k0_pay8 a1 w2) w2 w3) w4

/-- The kernel's output block. -/
def netOut (c : Dev nD) : FVec F S1024x1 .f32 :=
  epi (accA m c 20) (accB m c 20) (iblk m c 3 tLast) (iblk m c 4 tLast) (iblk m c 5 tLast)

theorem accA_succ (c : Dev nD) (t : Fin cfg0.N) :
    accA m c (t.val + 1) = k0_pay4 (iblk m c 2 t) (accA m c t.val) (iblk m c 0 t) := by
  show (if h : t.val < cfg0.N then _ else _) = _
  rw [dif_pos t.isLt]

theorem accB_succ (c : Dev nD) (t : Fin cfg0.N) :
    accB m c (t.val + 1) = k0_pay5 (iblk m c 2 t) (accB m c t.val) (iblk m c 1 t) := by
  show (if h : t.val < cfg0.N then _ else _) = _
  rw [dif_pos t.isLt]

end Cert.KernelIdeal.Fr

end
-- ==== Proof.KI.FrRuns.lean ====
/-
  What the three cases of the kernel body share: which grid points take which branch, where the output window is
  idle, and the names of the staging and scratch memrefs.

  The body zeroes its two accumulators at the first point only, adds one block product to each at every point, and
  at the last point only runs the rest of the network and stores the output block. So a point is in one of three
  cases: the first point (A), a middle point (B), the last point (C).
-/
import proofs.«128817_g6923487281305_cont_9to1_m_76_4_alg».proof.Proof.KI.Defs
import proofs.«128817_g6923487281305_cont_9to1_m_76_4_alg».proof.Proof.Gen.KernelIdeal.Launch
import proofs.«128817_g6923487281305_cont_9to1_m_76_4_alg».proof.Proof.Gen.KernelIdeal.Skeleton
import proofs.«128817_g6923487281305_cont_9to1_m_76_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The body's first branch is taken: the grid coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 20 = 0 :=
  (by decide +kernel : ∀ t : Fin grid0.N, cond0_0 (grid0.coords t) ↔ t.val % 20 = 0)

/-- The body's second branch is taken: the grid coordinate is 19. -/
abbrev cond0_1 (i : grid0.Coords) : Prop := k0_cond2 i = 1#1
/-- It holds at the last point only. -/
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Where the last branch is not taken the output window is idle: nothing is stored into it, -/
theorem idleAt0_6 : ∀ t : Fin cfg0.N, ¬cond0_1 (grid0.coords t) → cfg0.idle 6 (grid0.coords t) = true := by decide +kernel
/-- and it is not written back there. -/
theorem noFlush0_6 : ∀ t : Fin cfg0.N, ¬cond0_1 (grid0.coords t) → (cfg0.win 6).flush t = false := by decide +kernel
/-- At the last point it is live. -/
theorem liveAt0_6_C : ∀ t : Fin cfg0.N, cond0_1 (grid0.coords t) → cfg0.idle 6 (grid0.coords t) = false := by decide +kernel

/-! ## The memrefs the body is called with -/

/-- One staging buffer of the output window, through which its contents are stated. -/
abbrev VO0_6 : View sig .tc .vmem S1024x1 .f32 := (Memref.whole cc0_stg6_0 : Memref sig .tc .vmem S1024x1 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
/-- The two accumulators: whole scratch buffers of the kernel's own. -/
abbrev scM0_0 : Memref sig .tc .vmem S1024x256 .f32 := Memref.whole cc0_scratch0
abbrev scM0_1 : Memref sig .tc .vmem S1024x256 .f32 := Memref.whole cc0_scratch1
abbrev VS0_0 : View sig .tc .vmem S1024x256 .f32 := scM0_0.view
abbrev VS0_1 : View sig .tc .vmem S1024x256 .f32 := scM0_1.view

/-- The scratch buffers at some contents: what the region hands the kernel before its first point. -/
theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.KernelIdeal.Fr

end
-- ==== Proof.KI.FrRunA.lean ====
/-
  The kernel body at the first point: the first branch is taken, the second is not. Each accumulator, handed over
  at unknown contents, is overwritten with zeros, loaded back, the block product added, and the sum stored back
  whole.
-/
import proofs.«128817_g6923487281305_cont_9to1_m_76_4_alg».proof.Proof.KI.FrRuns

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : cond0_0 i) (hc1 : ¬cond0_1 i)
    (x0 : Vec F S1024x2048 .f32) (x1 : Vec F S1024x2048 .f32) (x2 : Vec F S256x2048 .f32) :
    Σ' (LS0 : List (View.Piece (Elt F) S1024x256 .f32)), { LS1 : List (View.Piece (Elt F) S1024x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__nnue_body i arg1 harg1 arg2 harg2 arg3 harg3 arg4 harg4 arg5 harg5 arg6 harg6 arg7 harg7 arg8 harg8 arg9 harg9) K } := by
  refine ⟨?_, ?_, fun E K => ?run⟩
  case run =>
    simp only [cc0__nnue_body_eq_skeleton]; unfold cc0__nnue_body_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Fr

end
-- ==== Proof.KI.FrRunB.lean ====
/-
  The kernel body at a middle point: neither branch is taken. Each accumulator is loaded, the block product added,
  and the sum stored back whole; the pieces each accumulator ends with are found by running the body.
-/
import proofs.«128817_g6923487281305_cont_9to1_m_76_4_alg».proof.Proof.KI.FrRuns

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : ¬cond0_1 i)
    (x0 : Vec F S1024x2048 .f32) (x1 : Vec F S1024x2048 .f32) (x2 : Vec F S256x2048 .f32) (xs0 : Vec F S1024x256 .f32) (xs1 : Vec F S1024x256 .f32) :
    Σ' (LS0 : List (View.Piece (Elt F) S1024x256 .f32)), { LS1 : List (View.Piece (Elt F) S1024x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__nnue_body i arg1 harg1 arg2 harg2 arg3 harg3 arg4 harg4 arg5 harg5 arg6 harg6 arg7 harg7 arg8 harg8 arg9 harg9) K } := by
  refine ⟨?_, ?_, fun E K => ?run⟩
  case run =>
    simp only [cc0__nnue_body_eq_skeleton]; unfold cc0__nnue_body_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Fr

end
-- ==== Proof.KI.FrRunC.lean ====
/-
  The kernel body at the last point: the first branch is not taken, the second is. After the accumulators have
  taken the last block product, they are loaded again, the rest of the network is computed from them and the three
  small weight blocks, and the result is stored whole into the output block.
-/
import proofs.«128817_g6923487281305_cont_9to1_m_76_4_alg».proof.Proof.KI.FrRuns

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun0_C (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : cond0_1 i)
    (x0 : Vec F S1024x2048 .f32) (x1 : Vec F S1024x2048 .f32) (x2 : Vec F S256x2048 .f32) (x3 : Vec F S64x256 .f32) (x4 : Vec F S8x128 .f32) (x5 : Vec F S1x8 .f32)
    (xs0 : Vec F S1024x256 .f32) (xs1 : Vec F S1024x256 .f32) :
    Σ' (L6 : List (View.Piece (Elt F) S1024x1 .f32)) (LS0 : List (View.Piece (Elt F) S1024x256 .f32)), { LS1 : List (View.Piece (Elt F) S1024x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__nnue_body i arg1 harg1 arg2 harg2 arg3 harg3 arg4 harg4 arg5 harg5 arg6 harg6 arg7 harg7 arg8 harg8 arg9 harg9) K } := by
  refine ⟨?_, ?_, ?_, fun E K => ?run⟩
  case run =>
    simp only [cc0__nnue_body_eq_skeleton]; unfold cc0__nnue_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

end Cert.KernelIdeal.Fr

end
-- ==== Proof.KI.FrPieces.lean ====
/-
  What each case of the kernel body leaves in the two accumulators and in the output block, as values.

  Running the body finds, for every buffer it stores into, the list of pieces stored. Each store here covers its
  whole buffer, so what the buffer holds afterwards is the last store's value: at the first point the block
  product added to zeros, at the other points the block product added to what the accumulator held, and at the last
  point the output block is the rest of the network applied to the two freshly updated accumulators.
-/
import proofs.«128817_g6923487281305_cont_9to1_m_76_4_alg».proof.Proof.KI.FrRunA
import proofs.«128817_g6923487281305_cont_9to1_m_76_4_alg».proof.Proof.KI.FrRunB
import proofs.«128817_g6923487281305_cont_9to1_m_76_4_alg».proof.Proof.KI.FrRunC
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-! ## The first point -/

theorem scoverA_0 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : cond0_0 i) (hc1 : ¬cond0_1 i) (x0 : Vec F S1024x2048 .f32) (x1 : Vec F S1024x2048 .f32) (x2 : Vec F S256x2048 .f32) (y : S1024x256.Idx) :
    ∃ pc ∈ (kernelRun0_A c i arg1 harg1 arg2 harg2 arg3 harg3 arg4 harg4 arg5 harg5 arg6 harg6 arg7 harg7 arg8 harg8 arg9 harg9 hc0 hc1 x0 x1 x2).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2).1 S1024x256.size (by sl_kernel_rfl) y

theorem scoverA_1 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : cond0_0 i) (hc1 : ¬cond0_1 i) (x0 : Vec F S1024x2048 .f32) (x1 : Vec F S1024x2048 .f32) (x2 : Vec F S256x2048 .f32) (y : S1024x256.Idx) :
    ∃ pc ∈ (kernelRun0_A c i arg1 harg1 arg2 harg2 arg3 harg3 arg4 harg4 arg5 harg5 arg6 harg6 arg7 harg7 arg8 harg8 arg9 harg9 hc0 hc1 x0 x1 x2).2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2).2.1 S1024x256.size (by sl_kernel_rfl) y

theorem soutA_0_eq (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : cond0_0 i) (hc1 : ¬cond0_1 i) (x0 : Vec F S1024x2048 .f32) (x1 : Vec F S1024x2048 .f32) (x2 : Vec F S256x2048 .f32) :
    VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2).1) = k0_pay4 x2 (k0_pay1 (F := F)) x0 := by
  rw [View.read_writes_eq_canon _ _ _ (scoverA_0 c i arg1 harg1 arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1024x256) hz, View.readCov_unit_zero (S := S1024x256) _ hz]
  simp only [View.readAt_eq_ld, harg1.read_unread, harg3.read_unread, View.ld_unit_zero (S := S1024x256) hz, View.ld_unit_zero (S := S256x2048) hz, View.ld_unit_zero (S := S1024x2048) hz]

theorem soutA_1_eq (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : cond0_0 i) (hc1 : ¬cond0_1 i) (x0 : Vec F S1024x2048 .f32) (x1 : Vec F S1024x2048 .f32) (x2 : Vec F S256x2048 .f32) :
    VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 x0 x1 x2).2.1) = k0_pay5 x2 (k0_pay2 (F := F)) x1 := by
  rw [View.read_writes_eq_canon _ _ _ (scoverA_1 c i arg1 harg1 arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1024x256) hz, View.readCov_unit_zero (S := S1024x256) _ hz]
  simp only [View.readAt_eq_ld, harg2.read_unread, harg3.read_unread, View.ld_unit_zero (S := S1024x256) hz, View.ld_unit_zero (S := S256x2048) hz, View.ld_unit_zero (S := S1024x2048) hz]

/-! ## A middle point -/

theorem scoverB_0 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : ¬cond0_1 i) (x0 : Vec F S1024x2048 .f32) (x1 : Vec F S1024x2048 .f32) (x2 : Vec F S256x2048 .f32) (xs0 : Vec F S1024x256 .f32) (xs1 : Vec F S1024x256 .f32) (y : S1024x256.Idx) :
    ∃ pc ∈ (kernelRun0_B c i arg1 harg1 arg2 harg2 arg3 harg3 arg4 harg4 arg5 harg5 arg6 harg6 arg7 harg7 arg8 harg8 arg9 harg9 hc0 hc1 x0 x1 x2 xs0 xs1).1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 xs0 xs1).1 S1024x256.size (by sl_kernel_rfl) y

theorem scoverB_1 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : ¬cond0_1 i) (x0 : Vec F S1024x2048 .f32) (x1 : Vec F S1024x2048 .f32) (x2 : Vec F S256x2048 .f32) (xs0 : Vec F S1024x256 .f32) (xs1 : Vec F S1024x256 .f32) (y : S1024x256.Idx) :
    ∃ pc ∈ (kernelRun0_B c i arg1 harg1 arg2 harg2 arg3 harg3 arg4 harg4 arg5 harg5 arg6 harg6 arg7 harg7 arg8 harg8 arg9 harg9 hc0 hc1 x0 x1 x2 xs0 xs1).2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 xs0 xs1).2.1 S1024x256.size (by sl_kernel_rfl) y

theorem soutB_0_eq (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : ¬cond0_1 i) (x0 : Vec F S1024x2048 .f32) (x1 : Vec F S1024x2048 .f32) (x2 : Vec F S256x2048 .f32) (xs0 : Vec F S1024x256 .f32) (xs1 : Vec F S1024x256 .f32) :
    VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x0 x1 x2 xs0 xs1).1) = k0_pay4 x2 xs0 x0 := by
  rw [View.read_writes_eq_canon _ _ _ (scoverB_0 c i arg1 harg1 arg2 harg2 arg3 harg3 arg4 harg4 arg5 harg5 arg6 harg6 arg7 harg7 arg8 harg8 arg9 harg9 hc0 hc1 x0 x1 x2 xs0 xs1)]
  unfold kernelRun0_B
  dsimp only
  sl_unfold_words
  rw [View.canon_unit_zero hz]
  simp only [View.readAt_eq_ld, harg1.read_unread, harg3.read_unread, harg8.read_unread, View.ld_unit_zero (S := S1024x256) hz, View.ld_unit_zero (S := S256x2048) hz, View.ld_unit_zero (S := S1024x2048) hz]

theorem soutB_1_eq (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : ¬cond0_1 i) (x0 : Vec F S1024x2048 .f32) (x1 : Vec F S1024x2048 .f32) (x2 : Vec F S256x2048 .f32) (xs0 : Vec F S1024x256 .f32) (xs1 : Vec F S1024x256 .f32) :
    VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 x0 x1 x2 xs0 xs1).2.1) = k0_pay5 x2 xs1 x1 := by
  rw [View.read_writes_eq_canon _ _ _ (scoverB_1 c i arg1 harg1 arg2 harg2 arg3 harg3 arg4 harg4 arg5 harg5 arg6 harg6 arg7 harg7 arg8 harg8 arg9 harg9 hc0 hc1 x0 x1 x2 xs0 xs1)]
  unfold kernelRun0_B
  dsimp only
  sl_unfold_words
  rw [View.canon_unit_zero hz]
  simp only [View.readAt_eq_ld, harg2.read_unread, harg3.read_unread, harg9.read_unread, View.ld_unit_zero (S := S1024x256) hz, View.ld_unit_zero (S := S256x2048) hz, View.ld_unit_zero (S := S1024x2048) hz]

/-! ## The last point -/

theorem coverC_6 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : cond0_1 i) (x0 : Vec F S1024x2048 .f32) (x1 : Vec F S1024x2048 .f32) (x2 : Vec F S256x2048 .f32) (x3 : Vec F S64x256 .f32) (x4 : Vec F S8x128 .f32) (x5 : Vec F S1x8 .f32) (xs0 : Vec F S1024x256 .f32) (xs1 : Vec F S1024x256 .f32) (y : S1024x1.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0 xs1).1 S1024x1.size (by sl_kernel_rfl) y

theorem scoverC_0 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : cond0_1 i) (x0 : Vec F S1024x2048 .f32) (x1 : Vec F S1024x2048 .f32) (x2 : Vec F S256x2048 .f32) (x3 : Vec F S64x256 .f32) (x4 : Vec F S8x128 .f32) (x5 : Vec F S1x8 .f32) (xs0 : Vec F S1024x256 .f32) (xs1 : Vec F S1024x256 .f32) (y : S1024x256.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0 xs1).2.1 S1024x256.size (by sl_kernel_rfl) y

theorem scoverC_1 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : cond0_1 i) (x0 : Vec F S1024x2048 .f32) (x1 : Vec F S1024x2048 .f32) (x2 : Vec F S256x2048 .f32) (x3 : Vec F S64x256 .f32) (x4 : Vec F S8x128 .f32) (x5 : Vec F S1x8 .f32) (xs0 : Vec F S1024x256 .f32) (xs1 : Vec F S1024x256 .f32) (y : S1024x256.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0 xs1).2.2.1 S1024x256.size (by sl_kernel_rfl) y

theorem soutC_0_eq (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : cond0_1 i) (x0 : Vec F S1024x2048 .f32) (x1 : Vec F S1024x2048 .f32) (x2 : Vec F S256x2048 .f32) (x3 : Vec F S64x256 .f32) (x4 : Vec F S8x128 .f32) (x5 : Vec F S1x8 .f32) (xs0 : Vec F S1024x256 .f32) (xs1 : Vec F S1024x256 .f32) :
    VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x0 x1 x2 x3 x4 x5 xs0 xs1).2.1) = k0_pay4 x2 xs0 x0 := by
  rw [View.read_writes_eq_canon _ _ _ (scoverC_0 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero hz]
  simp only [View.readAt_eq_ld, harg1.read_unread, harg3.read_unread, harg8.read_unread, View.ld_unit_zero (S := S1024x256) hz, View.ld_unit_zero (S := S256x2048) hz, View.ld_unit_zero (S := S1024x2048) hz]

theorem soutC_1_eq (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : cond0_1 i) (x0 : Vec F S1024x2048 .f32) (x1 : Vec F S1024x2048 .f32) (x2 : Vec F S256x2048 .f32) (x3 : Vec F S64x256 .f32) (x4 : Vec F S8x128 .f32) (x5 : Vec F S1x8 .f32) (xs0 : Vec F S1024x256 .f32) (xs1 : Vec F S1024x256 .f32) :
    VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 x0 x1 x2 x3 x4 x5 xs0 xs1).2.2.1) = k0_pay5 x2 xs1 x1 := by
  rw [View.read_writes_eq_canon _ _ _ (scoverC_1 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero hz]
  simp only [View.readAt_eq_ld, harg2.read_unread, harg3.read_unread, harg9.read_unread, View.ld_unit_zero (S := S1024x256) hz, View.ld_unit_zero (S := S256x2048) hz, View.ld_unit_zero (S := S1024x2048) hz]

theorem outC_6_eq (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S256x2048 .f32) (harg3 : arg3.IsWhole) (arg4 : Memref sig .tc .vmem S64x256 .f32) (harg4 : arg4.IsWhole) (arg5 : Memref sig .tc .vmem S8x128 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S1024x256 .f32) (harg8 : arg8.IsWhole) (arg9 : Memref sig .tc .vmem S1024x256 .f32) (harg9 : arg9.IsWhole) (hc0 : ¬cond0_0 i) (hc1 : cond0_1 i) (x0 : Vec F S1024x2048 .f32) (x1 : Vec F S1024x2048 .f32) (x2 : Vec F S256x2048 .f32) (x3 : Vec F S64x256 .f32) (x4 : Vec F S8x128 .f32) (x5 : Vec F S1x8 .f32) (xs0 : Vec F S1024x256 .f32) (xs1 : Vec F S1024x256 .f32) :
    VO0_6.read (Elt F) (VO0_6.writes (Elt F) VO0_6.junk (kernelRun0_C c i arg1 harg1 arg2 harg2 arg3 harg3 arg4 harg4 arg5 harg5 arg6 harg6 arg7 harg7 arg8 harg8 arg9 harg9 hc0 hc1 x0 x1 x2 x3 x4 x5 xs0 xs1).1) = epi (k0_pay4 x2 xs0 x0) (k0_pay5 x2 xs1 x1) x3 x4 x5 := by
  rw [View.read_writes_eq_canon _ _ _ (coverC_6 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero hz]
  unfold epi
  simp only [View.readAt_eq_ld, harg1.read_unread, harg2.read_unread, harg3.read_unread, harg4.read_unread, harg5.read_unread, harg6.read_unread, harg8.read_unread, harg9.read_unread, View.readCov_unit_zero (S := S1024x256) _ hz, View.ld_unit_zero (S := S1024x256) hz, View.ld_unit_zero (S := S256x2048) hz, View.ld_unit_zero (S := S1024x2048) hz, View.ld_unit_zero (S := S64x256) hz, View.ld_unit_zero (S := S8x128) hz, View.ld_unit_zero (S := S1x8) hz]

end Cert.KernelIdeal.Fr

end
-- ==== Proof.KI.FrData.lean ====
/-
  The pipeline's proof data: what every window's staging buffer holds after the body at each point, and what the
  two accumulators hold between points.

  The six input windows hold their array's block at every point (the body never writes them). The accumulators are
  handed over at unknown contents before the first point and hold, before point `n + 1`, the running sums `accA`,
  `accB` at `n + 1`. The output block is written at the last point only, with the network's result.
  The input array is read through two windows, each holding half of the read permission.
-/
import proofs.«128817_g6923487281305_cont_9to1_m_76_4_alg».proof.Proof.KI.FrRuns

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulators between points: before the first point at anything; before point `n + 1` at the running sums. -/
def PhiS (c : Dev nD) : (n : ℕ) → n ≤ cfg0.N → sProp 𝕄
  | 0, _ => Pipeline.scopedRest spec0 c
  | n + 1, _ => iprop(owns (c : Thread nD τ) scM0_0 fullShare (accA m c (n + 1)) ∗ owns (c : Thread nD τ) scM0_1 fullShare (accB m c (n + 1)))

theorem PhiS_zero (c : Dev nD) (n : ℕ) (h : n ≤ cfg0.N) (hz : n = 0) : PhiS m c n h = Pipeline.scopedRest spec0 c := by
  subst hz; rfl

theorem PhiS_succ (c : Dev nD) (n : ℕ) (hn : n + 1 ≤ cfg0.N) :
    PhiS m c (n + 1) hn = iprop(owns (c : Thread nD τ) scM0_0 fullShare (accA m c (n + 1)) ∗ owns (c : Thread nD τ) scM0_1 fullShare (accB m c (n + 1))) := rfl

theorem PhiS_pos (c : Dev nD) (n : ℕ) (h : n ≤ cfg0.N) (hz : n ≠ 0) :
    PhiS m c n h = iprop(owns (c : Thread nD τ) scM0_0 fullShare (accA m c n) ∗ owns (c : Thread nD τ) scM0_1 fullShare (accB m c n)) := by
  cases n with
  | zero => exact absurd rfl hz
  | succ n => rfl

/-- The output block after point `t` (consulted at the last point only). -/
def outAt (c : Dev nD) (t : Fin cfg0.N) : FVec F S1024x1 .f32 :=
  epi (accA m c (t.val + 1)) (accB m c (t.val + 1)) (iblk m c 3 t) (iblk m c 4 t) (iblk m c 5 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

end Cert.KernelIdeal.Fr

end
-- ==== Proof.KI.FrBody.lean ====
/-
  The body obligation: at every grid point, from the accumulators as the point before left them and every window's
  staging buffer at what it then holds, the kernel body runs to the accumulators at the next running sums and every
  staging buffer at what the proof data says — the inputs' blocks untouched, the output block untouched except at
  the last point, where it receives the network's result.
-/
import proofs.«128817_g6923487281305_cont_9to1_m_76_4_alg».proof.Proof.KI.FrPieces
import proofs.«128817_g6923487281305_cont_9to1_m_76_4_alg».proof.Proof.KI.FrData

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ, accA_succ m c t, accB_succ m c t]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN : t.val < 20 := lt_of_lt_of_eq t.isLt (show cfg0.N = 20 from N_0)
  by_cases h0 : t.val % 20 = 0
  · have h1 : ¬t.val % 20 = 19 := by omega
    have hz0 : t.val = 0 := by omega
    rw [Dat.leavesExact_idle (dats m 0 c) 6 t (idleAt0_6 t (fun h => h1 ((hcond0_1 t).mp h))) (noFlush0_6 t (fun h => h1 ((hcond0_1 t).mp h)))]
    rw [PhiS_castSucc m c t, PhiS_zero m c _ _ hz0, scopedRest0_owns]
    rw [show accA m c t.val = k0_pay1 from by rw [hz0]; rfl, show accB m c t.val = k0_pay2 from by rw [hz0]; rfl]
    iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t)).2.2 Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1]
    · isplitl [HS0]
      · unfold owns; iexists _; isplitr
        swap; · iexact HS0
        ipureintro
        exact (View.read_writes_of_cover _ _ _ _ _ (scoverA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t))).trans (soutA_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t))
      · unfold owns; iexists _; isplitr
        swap; · iexact HS1
        ipureintro
        exact (View.read_writes_of_cover _ _ _ _ _ (scoverA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t))).trans (soutA_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t))
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz0 : t.val ≠ 0 := by omega
    rw [PhiS_castSucc m c t, PhiS_pos m c _ _ hz0]
    by_cases h1 : t.val % 20 = 19
    · rw [show (dats m 0 c).leavesExact 6 t = owns (c : Thread nD τ) (ms0_6 t) fullShare ((dats m 0 c).after 6 t) from by
        unfold Dat.leavesExact; rw [liveAt0_6_C t ((hcond0_1 t).mpr h1)], after0_6]
      unfold outAt
      rw [accA_succ m c t, accB_succ m c t]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (accA m c t.val) (accB m c t.val)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1]
      · isplitl [HS0]
        · unfold owns; iexists _; isplitr
          swap; · iexact HS0
          ipureintro
          exact (View.read_writes_of_cover _ _ _ _ _ (scoverC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (accA m c t.val) (accB m c t.val))).trans (soutC_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (accA m c t.val) (accB m c t.val))
        · unfold owns; iexists _; isplitr
          swap; · iexact HS1
          ipureintro
          exact (View.read_writes_of_cover _ _ _ _ _ (scoverC_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (accA m c t.val) (accB m c t.val))).trans (soutC_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (accA m c t.val) (accB m c t.val))
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      exact (View.read_writes_of_cover _ _ _ _ _ (coverC_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (accA m c t.val) (accB m c t.val))).trans (outC_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (accA m c t.val) (accB m c t.val))
    · rw [Dat.leavesExact_idle (dats m 0 c) 6 t (idleAt0_6 t (fun h => h1 ((hcond0_1 t).mp h))) (noFlush0_6 t (fun h => h1 ((hcond0_1 t).mp h)))]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (accA m c t.val) (accB m c t.val)).2.2 Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1]
      · isplitl [HS0]
        · unfold owns; iexists _; isplitr
          swap; · iexact HS0
          ipureintro
          exact (View.read_writes_of_cover _ _ _ _ _ (scoverB_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (accA m c t.val) (accB m c t.val))).trans (soutB_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (accA m c t.val) (accB m c t.val))
        · unfold owns; iexists _; isplitr
          swap; · iexact HS1
          ipureintro
          exact (View.read_writes_of_cover _ _ _ _ _ (scoverB_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (accA m c t.val) (accB m c t.val))).trans (soutB_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (accA m c t.val) (accB m c t.val))
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KI.FrLaunch.lean ====
/-
  The run of the whole program from the body obligation.

  The program is the kernel region alone. The launch hands the region its four argument arrays and the result array
  whole; the input array, which two windows read, is split into two halves of the read permission, one per window;
  the two accumulators are the region's only other buffers. After the run every argument array holds what it held
  (an input array is never written) and the result array holds its one block, written back after the last point.
-/
import proofs.«128817_g6923487281305_cont_9to1_m_76_4_alg».proof.Proof.KI.FrData
import Idealize.ShloMosaic.Lib.Pipeline.Frame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging cells' launch element. -/
abbrev u₀ : UR sig nD τ := initOf (Pipeline.cells cfgs cellOf_inj) (Pipeline.launchToks cfgs cellOf_inj)

/-- The distinct buffers behind the windows' arrays. -/
theorem arrRefs_eq : Finset.univ.image (Pipeline.arrRef spec0)
    = ([main_arg0, main_arg1, main_arg2, main_arg3, main_arg4, main_v0] : List (Ref sig .tc)).toFinset := by decide

/-- Those buffers' points-tos one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1) ∗ (((c : Thread nD τ).loc main_arg2) ↦{fullShare} W main_arg2) ∗ (((c : Thread nD τ).loc main_arg3) ↦{fullShare} W main_arg3) ∗ (((c : Thread nD τ).loc main_arg4) ↦{fullShare} W main_arg4) ∗ (((c : Thread nD τ).loc main_v0) ↦{fullShare} W main_v0)) := by
  unfold Pipeline.arrBufs
  exact bigSep_eq_bigSepL_of_eq _ arrRefs_eq (by decide) _

/-- The arrays behind the windows, each whole, are the windows' arrays at their shares: the input array's full
    permission splits into the two windows' halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq]
  unfold Dat.arrays
  rw [bigSep_W0]
  simp only [show (cfg0.win (0 : Fin 7)).arr.view.set = Finset.univ from (arr_whole0 0).set_eq_univ,
    show (cfg0.win (1 : Fin 7)).arr.view.set = Finset.univ from (arr_whole0 1).set_eq_univ,
    show (cfg0.win (2 : Fin 7)).arr.view.set = Finset.univ from (arr_whole0 2).set_eq_univ,
    show (cfg0.win (3 : Fin 7)).arr.view.set = Finset.univ from (arr_whole0 3).set_eq_univ,
    show (cfg0.win (4 : Fin 7)).arr.view.set = Finset.univ from (arr_whole0 4).set_eq_univ,
    show (cfg0.win (5 : Fin 7)).arr.view.set = Finset.univ from (arr_whole0 5).set_eq_univ,
    show (cfg0.win (6 : Fin 7)).arr.view.set = Finset.univ from (arr_whole0 6).set_eq_univ]
  have hs : ((((c : Thread nD τ).loc main_arg0) ↦{fullShare} V m c main_arg0 : sProp 𝕄))
      ⊢ iprop((((c : Thread nD τ).loc main_arg0) ↦{fullShare.left} V m c main_arg0) ∗ (((c : Thread nD τ).loc main_arg0) ↦{fullShare.right} V m c main_arg0)) :=
    (pointsTo_share (PosShare.mem_left_op_right fullShare)).1
  refine (sep_mono hs .rfl).trans ?_
  iintro ⟨⟨Ha, Hb⟩, H1, H2, H3, H4, H5⟩
  isplitl [Ha]; · iexact Ha
  isplitl [Hb]; · iexact Hb
  isplitl [H1]; · iexact H1
  isplitl [H2]; · iexact H2
  isplitl [H3]; · iexact H3
  isplitl [H4]; · iexact H4
  iexact H5

theorem hin (c : Dev nD) : iprop(emp ∗ Pipeline.scopedRest spec0 c) ⊢ (dats m 0 c).Φ 0 := by
  rw [show (dats m 0 c).Φ 0 = PhiS m c 0 (Nat.zero_le _) from rfl, PhiS_zero m c 0 _ rfl]
  iintro ⟨-, H⟩; iexact H

theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 20 := N_0; omega), scopedRest0_owns]
  iintro ⟨HS0, HS1⟩
  isplitr; · iempintro
  isplitl [HS0]
  · iexists _; iexact HS0
  iexists _; iexact HS1

/-- The physical post: every array of the kernel holds what the library computes it holds after the last write-back. -/
def QC : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
theorem run_main (hbody : ∀ c, BodyObligation (dats (F := F) m 0 c) (defs₀ (F := F)) Variants.none () Set.univ) :
    θ_run defs (onTc (τ := τ) (main (F := F))) ⟨m, fun _ => 0, ρ⟩ (QC m) :=
  Pipeline.θ_run_region_noSem_shared cfgs (dats m) () cellOf_inj (0 : Fin 1) winFacts₀0 emb₁ defs₀ Variants.none m ρ main
    (hbody := fun c => (hbody c).loose) (hne := block_pos0) (harr := arr_whole0) (hstage := stage_whole0)
    (howed := fun _ _ => rfl) (u₀ := u₀) (hu₀ := (show (ownU u₀ : sProp 𝕄) ⊢ BI.own (emb₁ u₀) from .rfl))
    (V := V m)
    (hmain := Pipeline.hmain_region cfgs 0 defs₀ Variants.none m main fun c => (main_chain c).trans rfl)
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

end Cert.KernelIdeal.Fr

end
-- ==== Proof.KI.FrFinal.lean ====
/-
  The run, read: after it the result array holds the kernel's output block and every argument array what it held.

  The output window is written back once, after the last point, and its one block is the whole result array.
-/
import proofs.«128817_g6923487281305_cont_9to1_m_76_4_alg».proof.Proof.KI.FrBody
import proofs.«128817_g6923487281305_cont_9to1_m_76_4_alg».proof.Proof.KI.FrLaunch
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window's block index never moves. -/
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- The only point that writes the output block back is the last. -/
theorem flush6_last (t : Fin cfg0.N) (h : (cfg0.win 6).flush t = true) : t = tLast := by
  have h19 := (flush0_6 t).mp h
  have hN : t.val < 20 := lt_of_lt_of_eq t.isLt (show cfg0.N = 20 from N_0)
  apply Fin.ext
  show t.val = 19
  omega

/-- The output window's block is the whole result array: reading an array through it reads the array. -/
theorem blk6_read (c : Dev nD) (t : Fin cfg0.N) (G : Buf (Elt F) ((cfg0.win 6).arr.view.loc (c.tc : Thread nD τ))) :
    ((cfg0.win 6).blk t).view.read (Elt F) G = G := by
  funext y
  rw [View.read_apply]
  show G (((cfg0.win 6).blk t).view.emb y) = G y
  refine congrArg G (funext fun a => Fin.ext ?_)
  obtain ⟨e0, e1⟩ := idx6 t
  match a with
  | ⟨0, _⟩ => show win0_6.index t (0 : Fin 2) * 1024 + 1 * (y 0).val = (y 0).val; omega
  | ⟨1, _⟩ => show win0_6.index t (1 : Fin 2) * 1 + 1 * (y 1).val = (y 1).val; omega

theorem mem_blk6 (t : Fin cfg0.N) (i : S1024x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v0).slice (win0_6.rect t)).set ↔ _
  rw [View.set_slice_whole, Rect.mem_set_unit]
  exact Iff.rfl

/-- The result array after the run is the kernel's output block. -/
theorem out_final (c : Dev nD) : (dats m 0 c).arrAt 6 cfg0.N = netOut m c := by
  refine (dats m 0 c).arrAt_eq_of_cover 6 (netOut m c) (fun t hf => ?_) (fun i => ?_)
  · obtain rfl := flush6_last t hf
    rw [blk6_read c tLast]
    show (cfg0.win 6).cut (grid0.coords tLast) ((dats m 0 c).after 6 tLast) = _
    rw [after0_6]
    rfl
  · refine ⟨tLast, (flush0_6 tLast).mpr rfl, (mem_blk6 tLast i).mpr fun a => ?_⟩
    obtain ⟨e0, e1⟩ := idx6 tLast
    match a with
    | ⟨0, _⟩ =>
      show win0_6.index tLast (0 : Fin 2) * 1024 ≤ (i 0).val ∧ (i 0).val < win0_6.index tLast (0 : Fin 2) * 1024 + 1024
      have hi : (i 0).val < 1024 := (i 0).isLt
      omega
    | ⟨1, _⟩ =>
      show win0_6.index tLast (1 : Fin 2) * 1 ≤ (i 1).val ∧ (i 1).val < win0_6.index tLast (1 : Fin 2) * 1 + 1
      have hi : (i 1).val < 1 := (i 1).isLt
      omega

/-- The run with the result named and the arguments unchanged. -/
theorem run : θ_run defs (onTc (τ := τ) (main (F := F))) ⟨m, fun _ => 0, ρ⟩ (fun r => ∀ c : Dev nD,
      r.2.mem ((c.tc : Thread nD τ).loc main_v0) = netOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c 6).trans (out_final m c),
      ((h c 0).trans (((dats m 0 c).arrAt_in 0 rfl _).trans (A_eq m c 0))),
      ((h c 2).trans (((dats m 0 c).arrAt_in 2 rfl _).trans (A_eq m c 2))),
      ((h c 3).trans (((dats m 0 c).arrAt_in 3 rfl _).trans (A_eq m c 3))),
      ((h c 4).trans (((dats m 0 c).arrAt_in 4 rfl _).trans (A_eq m c 4))),
      ((h c 5).trans (((dats m 0 c).arrAt_in 5 rfl _).trans (A_eq m c 5)))⟩)
    (run_main m ρ (body_obligation m))

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run m ρ)

end Cert.KernelIdeal.Fr

end
-- ==== Proof.Spec.lean ====
/-
  The network both programs compute, written once over coordinates on the extended reals.

  A batch row `p` of the input has two halves of 40960 features. Each half is multiplied by the transposed first
  weight matrix (`first`); each 256-wide result is normalised row by row and passed through a leaky rectifier
  (`lnl`); the second weight matrix takes each to 64 columns, normalised and rectified again; the two are laid side
  by side (`cat`) and the third weight matrix takes the 128 columns to 8, normalised and rectified; the last weight
  matrix takes these to the single output column (`tail`, `net`).

  `lnl`: with `μ = (Σⱼ a[p,j]) / d` and `v = (Σⱼ (a[p,j] − μ)²) / d`, the entry is `y = (a[p,q] − μ) / √v` and the
  result `max (c·y) y`. The divisor `d` is the row length as the float literal both programs print, `c` the
  literal both print for the slope 0.05; neither is ever evaluated.
-/
import Idealize.ShloMosaic.PureOps.Ideal

noncomputable section

open scoped BigOperators

namespace Cert.Spec

open Idealize.ShloMosaic

/-- The row length 256 as both programs spell it. -/
def d256 : EReal := Ideal.ofBits .f32 0x43800000#32
/-- The row length 64. -/
def d64 : EReal := Ideal.ofBits .f32 0x42800000#32
/-- The row length 8. -/
def d8 : EReal := Ideal.ofBits .f32 0x41000000#32
/-- The rectifier's slope. -/
def c05 : EReal := Ideal.ofBits .f32 0x3D4CCCCD#32

/-- A row's mean, with the row length given as `d`. -/
def mean {C : ℕ} (d : EReal) (a : Fin 1024 → Fin C → EReal) (p : Fin 1024) : EReal :=
  Ideal.div (∑ j : Fin C, a p j) d

/-- A row's variance about its mean. -/
def var {C : ℕ} (d : EReal) (a : Fin 1024 → Fin C → EReal) (p : Fin 1024) : EReal :=
  Ideal.div (∑ j : Fin C, (a p j - mean d a p) * (a p j - mean d a p)) d

/-- Row normalisation followed by the leaky rectifier. -/
def lnl {C : ℕ} (d : EReal) (a : Fin 1024 → Fin C → EReal) (p : Fin 1024) (q : Fin C) : EReal :=
  max (c05 * Ideal.div (a p q - mean d a p) (Ideal.sqrt (var d a p)))
    (Ideal.div (a p q - mean d a p) (Ideal.sqrt (var d a p)))

/-- A matrix times the transpose of another: `Σₜ a[p,t] · b[q,t]`. -/
def dotT {R K C : ℕ} (a : Fin R → Fin K → EReal) (b : Fin C → Fin K → EReal) (p : Fin R) (q : Fin C) : EReal :=
  ∑ t : Fin K, a p t * b q t

/-- Two 64-column matrices side by side. -/
def cat (a b : Fin 1024 → Fin 64 → EReal) (p : Fin 1024) (j : Fin 128) : EReal :=
  if h : j.val < 64 then a p ⟨j.val, h⟩ else b p ⟨j.val - 64, by omega⟩

/-- The first layer on the half of the input that starts at column `off`. -/
def first (x : Fin 1024 → Fin 81920 → EReal) (w1 : Fin 256 → Fin 40960 → EReal) (off : ℕ) (hoff : off + 40960 ≤ 81920)
    (p : Fin 1024) (q : Fin 256) : EReal :=
  ∑ j : Fin 40960, x p ⟨j.val + off, by omega⟩ * w1 q j

/-- Everything after the first layer. -/
def tail (a1 a2 : Fin 1024 → Fin 256 → EReal) (w2 : Fin 64 → Fin 256 → EReal) (w3 : Fin 8 → Fin 128 → EReal)
    (w4 : Fin 1 → Fin 8 → EReal) (p : Fin 1024) : EReal :=
  dotT (lnl d8 (dotT (cat (lnl d64 (dotT (lnl d256 a1) w2)) (lnl d64 (dotT (lnl d256 a2) w2))) w3)) w4 p (0 : Fin 1)

/-- The whole network. -/
def net (x : Fin 1024 → Fin 81920 → EReal) (w1 : Fin 256 → Fin 40960 → EReal) (w2 : Fin 64 → Fin 256 → EReal)
    (w3 : Fin 8 → Fin 128 → EReal) (w4 : Fin 1 → Fin 8 → EReal) (p : Fin 1024) : EReal :=
  tail (first x w1 0 (by omega)) (first x w1 40960 (by omega)) w2 w3 w4 p

end Cert.Spec

end
-- ==== Proof.LibStackDots.lean ====
/-
  Matrix products with a transposed operand, alone and over a stack, read at a row and a column.

  A matrix product accumulated into zeros, and the host's `dot_general` over a stack of matrices, are read
  on the extended reals at one output entry as the sum over the contracted coordinate `t` of the products of the
  two operands' entries. Which axis of each operand is contracted decides where `t` sits in each operand's index:
  with the left operand transposed (`Aᵀ B`) it is the left operand's ROW, `Σₜ A[t, p] · B[t, q]`; with neither
  transposed (`A B`) `Σₜ A[p, t] · B[t, q]`; with the right operand transposed (`A Bᵀ`) it is the right
  operand's COLUMN, `Σₜ A[p, t] · B[q, t]`. Over a stack the leading coordinate `g` is carried by both operands
  and the result. In each case the accumulator (if any) contributes `0`, and the sum over the one-axis contraction
  index is re-indexed by that axis's coordinate.
-/
import Idealize.ShloMosaic.PureOps.Ideal.Laws
import Idealize.ShloMosaic.Lib.ValueIdx

noncomputable section

open scoped BigOperators

namespace Idealize.ShloMosaic.StackDots

open Idealize.ShloMosaic Idealize.ShloMosaic.ValueIdx

/-! ## One matrix product into zeros -/

/-- `Aᵀ B` for a `K × M` matrix `A` and a `K × N` matrix `B` (both contracted on their rows), into zeros, at row `p`
    and column `q`, is `Σₜ A[t, p] · B[t, q]`. -/
theorem matmul_tn_zero_apply {φ₁ φ₂ : FTy} {M K N : Nat}
    (w : DotDims.WF ⟨2, ![K, M]⟩ ⟨2, ![K, N]⟩ ⟨2, ![M, N]⟩ [0] [0] [1] [1] [] [])
    (prec : Option ContractPrecision) (A : FVec Ideal ⟨2, ![K, M]⟩ φ₁) (B : FVec Ideal ⟨2, ![K, N]⟩ φ₂) (p : Fin M) (q : Fin N) :
    FloatOps.matmul (⟨[0], [0], [1], [1], [], [], w⟩ : DotDims ⟨2, ![K, M]⟩ ⟨2, ![K, N]⟩ ⟨2, ![M, N]⟩) prec A B (constant ⟨2, ![M, N]⟩ .f32 0x00000000#32) (ix2 p q)
      = ∑ t : Fin K, A (ix2 t p) * B (ix2 t q) := by
  rw [Ideal.matmul_constant_zero_apply,
    ← Equiv.sum_comp (contrEquiv1 (⟨[0], [0], [1], [1], [], [], w⟩ : DotDims ⟨2, ![K, M]⟩ ⟨2, ![K, N]⟩ ⟨2, ![M, N]⟩) K rfl rfl).symm]
  refine Finset.sum_congr rfl fun t _ => ?_
  have c := contrEquiv1_symm_val (⟨[0], [0], [1], [1], [], [], w⟩ : DotDims ⟨2, ![K, M]⟩ ⟨2, ![K, N]⟩ ⟨2, ![M, N]⟩) K rfl rfl t
  have l : (⟨[0], [0], [1], [1], [], [], w⟩ : DotDims ⟨2, ![K, M]⟩ ⟨2, ![K, N]⟩ ⟨2, ![M, N]⟩).lhsIdx (ix2 p q)
      ((contrEquiv1 _ K rfl rfl).symm t) = ix2 t p := by
    funext ax; apply Fin.ext
    match ax with
    | ⟨0, _⟩ => simp [DotDims.lhsIdx]; exact c
    | ⟨1, _⟩ => simp [DotDims.lhsIdx]; rfl
  have r : (⟨[0], [0], [1], [1], [], [], w⟩ : DotDims ⟨2, ![K, M]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

/-- `A B` for an `M × K` matrix `A` and a `K × N` matrix `B` (the left operand's columns contracted with the right
    operand's rows), into zeros, at row `p` and column `q`, is `Σₜ A[p, t] · B[t, q]`. -/
theorem matmul_nn_zero_apply {φ₁ φ₂ : FTy} {M K N : Nat}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (p : Fin M) (q : Fin N) :
    FloatOps.matmul (⟨[1], [0], [0], [1], [], [], w⟩ : DotDims ⟨2, ![M, K]⟩ ⟨2, ![K, N]⟩ ⟨2, ![M, N]⟩) prec A B (constant ⟨2, ![M, N]⟩ .f32 0x00000000#32) (ix2 p q)
      = ∑ t : Fin K, A (ix2 p t) * B (ix2 t q) := by
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun t _ => ?_
  have c := contrEquiv1_symm_val (⟨[1], [0], [0], [1], [], [], w⟩ : DotDims ⟨2, ![M, K]⟩ ⟨2, ![K, N]⟩ ⟨2, ![M, N]⟩) K rfl rfl t
  have l : (⟨[1], [0], [0], [1], [], [], w⟩ : DotDims ⟨2, ![M, K]⟩ ⟨2, ![K, N]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [0], [0], [1], [], [], w⟩ : DotDims ⟨2, ![M, K]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

/-- `A Bᵀ` for an `M × K` matrix `A` and an `N × K` matrix `B` (both contracted on their columns), into zeros, at row
    `p` and column `q`, is `Σₜ A[p, t] · B[q, t]`. -/
theorem matmul_nt_zero_apply {φ₁ φ₂ : FTy} {M K N : Nat}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec A B (constant ⟨2, ![M, N]⟩ .f32 0x00000000#32) (ix2 p q)
      = ∑ t : Fin K, A (ix2 p t) * B (ix2 q t) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun t _ => ?_
  have c := contrEquiv1_symm_val (⟨[1], [1], [0], [0], [], [], w⟩ : DotDims ⟨2, ![M, K]⟩ ⟨2, ![N, K]⟩ ⟨2, ![M, N]⟩) K rfl rfl t
  have l : (⟨[1], [1], [0], [0], [], [], w⟩ : DotDims ⟨2, ![M, K]⟩ ⟨2, ![N, K]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [1], [0], [0], [], [], w⟩ : DotDims ⟨2, ![M, K]⟩ ⟨2, ![N, K]⟩ ⟨2, ![M, N]⟩).rhsIdx (ix2 p q)
      ((contrEquiv1 _ K rfl rfl).symm t) = ix2 q t := by
    funext ax; apply Fin.ext
    match ax with
    | ⟨0, _⟩ => simp [DotDims.rhsIdx]; rfl
    | ⟨1, _⟩ => simp [DotDims.rhsIdx]; exact c
  rw [l, r]

/-! ## The product of two stacks, matrix by matrix -/

/-- `Aᵀ B` member by member, for a stack of `K × M` matrices and a stack of `K × N` matrices (batch axes 0 and 0, each
    member contracted on its rows): at member `g`, row `p` and column `q` it is `Σₜ A[g, t, p] · B[g, t, q]`. -/
theorem dotGeneral_stack_tn_apply {φ₁ φ₂ : FTy} {G M K N : Nat}
    (w : DotDims.WF ⟨3, ![G, K, M]⟩ ⟨3, ![G, K, N]⟩ ⟨3, ![G, M, N]⟩ [1] [1] [2] [2] [0] [0])
    (prec : Option ContractPrecision) (A : FVec Ideal ⟨3, ![G, K, M]⟩ φ₁) (B : FVec Ideal ⟨3, ![G, K, N]⟩ φ₂) (g : Fin G) (p : Fin M) (q : Fin N) :
    Host.dotGeneral (⟨[1], [1], [2], [2], [0], [0], w⟩ : DotDims ⟨3, ![G, K, M]⟩ ⟨3, ![G, K, N]⟩ ⟨3, ![G, M, N]⟩) prec A B (ix3 g p q)
      = ∑ t : Fin K, A (ix3 g t p) * B (ix3 g t q) := by
  show FloatOps.dotGeneral _ prec _ A B (ix3 g p q) = _
  rw [Ideal.dotGeneral_apply,
    ← Equiv.sum_comp (contrEquiv1 (⟨[1], [1], [2], [2], [0], [0], w⟩ : DotDims ⟨3, ![G, K, M]⟩ ⟨3, ![G, K, N]⟩ ⟨3, ![G, M, N]⟩) K rfl rfl).symm]
  refine Finset.sum_congr rfl fun t _ => ?_
  have c := contrEquiv1_symm_val (⟨[1], [1], [2], [2], [0], [0], w⟩ : DotDims ⟨3, ![G, K, M]⟩ ⟨3, ![G, K, N]⟩ ⟨3, ![G, M, N]⟩) K rfl rfl t
  have l : (⟨[1], [1], [2], [2], [0], [0], w⟩ : DotDims ⟨3, ![G, K, M]⟩ ⟨3, ![G, K, N]⟩ ⟨3, ![G, M, N]⟩).lhsIdx (ix3 g p q)
      ((contrEquiv1 _ K rfl rfl).symm t) = ix3 g t p := by
    funext ax; apply Fin.ext
    match ax with
    | ⟨0, _⟩ => simp [DotDims.lhsIdx]; rfl
    | ⟨1, _⟩ => simp [DotDims.lhsIdx]; exact c
    | ⟨2, _⟩ => simp [DotDims.lhsIdx]; rfl
  have r : (⟨[1], [1], [2], [2], [0], [0], w⟩ : DotDims ⟨3, ![G, K, M]⟩ ⟨3, ![G, K, N]⟩ ⟨3, ![G, M, N]⟩).rhsIdx (ix3 g p q)
      ((contrEquiv1 _ K rfl rfl).symm t) = ix3 g t q := by
    funext ax; apply Fin.ext
    match ax with
    | ⟨0, _⟩ => simp [DotDims.rhsIdx]; rfl
    | ⟨1, _⟩ => simp [DotDims.rhsIdx]; exact c
    | ⟨2, _⟩ => simp [DotDims.rhsIdx]; rfl
  rw [l, r]

/-- `A Bᵀ` member by member, for a stack of `M × K` matrices and a stack of `N × K` matrices (batch axes 0 and 0, each
    member contracted on its columns): at member `g`, row `p` and column `q` it is `Σₜ A[g, p, t] · B[g, q, t]`. -/
theorem dotGeneral_stack_nt_apply {φ₁ φ₂ : FTy} {G M K N : Nat}
    (w : DotDims.WF ⟨3, ![G, M, K]⟩ ⟨3, ![G, N, K]⟩ ⟨3, ![G, M, N]⟩ [2] [2] [1] [1] [0] [0])
    (prec : Option ContractPrecision) (A : FVec Ideal ⟨3, ![G, M, K]⟩ φ₁) (B : FVec Ideal ⟨3, ![G, N, K]⟩ φ₂) (g : Fin G) (p : Fin M) (q : Fin N) :
    Host.dotGeneral (⟨[2], [2], [1], [1], [0], [0], w⟩ : DotDims ⟨3, ![G, M, K]⟩ ⟨3, ![G, N, K]⟩ ⟨3, ![G, M, N]⟩) prec A B (ix3 g p q)
      = ∑ t : Fin K, A (ix3 g p t) * B (ix3 g q t) := by
  show FloatOps.dotGeneral _ prec _ A B (ix3 g p q) = _
  rw [Ideal.dotGeneral_apply,
    ← Equiv.sum_comp (contrEquiv1 (⟨[2], [2], [1], [1], [0], [0], w⟩ : DotDims ⟨3, ![G, M, K]⟩ ⟨3, ![G, N, K]⟩ ⟨3, ![G, M, N]⟩) K rfl rfl).symm]
  refine Finset.sum_congr rfl fun t _ => ?_
  have c := contrEquiv1_symm_val (⟨[2], [2], [1], [1], [0], [0], w⟩ : DotDims ⟨3, ![G, M, K]⟩ ⟨3, ![G, N, K]⟩ ⟨3, ![G, M, N]⟩) K rfl rfl t
  have l : (⟨[2], [2], [1], [1], [0], [0], w⟩ : DotDims ⟨3, ![G, M, K]⟩ ⟨3, ![G, N, K]⟩ ⟨3, ![G, M, N]⟩).lhsIdx (ix3 g p q)
      ((contrEquiv1 _ K rfl rfl).symm t) = ix3 g p t := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c
  have r : (⟨[2], [2], [1], [1], [0], [0], w⟩ : DotDims ⟨3, ![G, M, K]⟩ ⟨3, ![G, N, K]⟩ ⟨3, ![G, M, N]⟩).rhsIdx (ix3 g p q)
      ((contrEquiv1 _ K rfl rfl).symm t) = ix3 g q t := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c
  rw [l, r]

end Idealize.ShloMosaic.StackDots

end
-- ==== Proof.LibRunSums.lean ====
/-
  A column of `L·n` terms summed in `n` consecutive runs of `L`.

  An accumulating kernel never sees a whole column: at each step of its reduction axis it adds the sum of the next `L` terms
  to what it already holds. In a commutative monoid that running total is the sum of an initial segment of the column, so
  after the last run it is the whole column's sum. Nothing here needs the terms to be finite: only commutativity and
  associativity of the addition are used, and the extended reals have both.
-/
import Idealize.ShloMosaic.PureOps.Ideal.Laws

open scoped BigOperators

namespace Cert.RunSums

variable {M : Type*} [AddCommMonoid M]

/-- The first `L·b` terms plus the next run of `L` are the first `L·(b+1)` terms. -/
theorem add_next_run (L : ℕ) (g : ℕ → M) (b : ℕ) :
    ∑ k ∈ Finset.range (L * b), g k + ∑ r : Fin L, g (L * b + r.val)
      = ∑ k ∈ Finset.range (L * (b + 1)), g k := by
  rw [Nat.mul_succ, Finset.sum_range_add, Finset.sum_range (fun x => g (L * b + x))]

/-- The first run by itself is the first `L` terms. -/
theorem first_run (L : ℕ) (g : ℕ → M) :
    ∑ r : Fin L, g (L * 0 + r.val) = ∑ k ∈ Finset.range (L * (0 + 1)), g k := by
  rw [Nat.zero_add, Nat.mul_one, Finset.sum_range]
  exact Finset.sum_congr rfl fun r _ => by rw [Nat.mul_zero, Nat.zero_add]

/-- The first `N` terms, listed by position, are the sum over the `N` positions. -/
theorem whole_column (N : ℕ) (g : ℕ → M) : ∑ k ∈ Finset.range N, g k = ∑ k : Fin N, g k.val :=
  Finset.sum_range g

end Cert.RunSums
-- ==== Proof.KI.ValAcc.lean ====
/-
  The two accumulators after the last point, read at a row and a column on the extended reals: each is the whole
  first-layer product of its half of the input, the 20 blocks' products summed in order from zeros.

  Each streamed block is read at a row and a column of its array (the block at point `t` is block column `t` of the
  first half, `t + 20` of the input for the second half, `t` of the first weight matrix); one point adds to an
  accumulator the 2048 products of that block's row with the weight block's row; so before point `n` an accumulator
  holds the sum of the first `2048·n` products of its row and column, and after the last point all 40960. Only
  commutativity and associativity of the addition are used.
-/
import proofs.«128817_g6923487281305_cont_9to1_m_76_4_alg».proof.Proof.KI.Defs
import proofs.«128817_g6923487281305_cont_9to1_m_76_4_alg».proof.Proof.Spec
import proofs.«128817_g6923487281305_cont_9to1_m_76_4_alg».proof.Proof.LibStackDots
import proofs.«128817_g6923487281305_cont_9to1_m_76_4_alg».proof.Proof.LibRunSums
import Idealize.ShloMosaic.Lib.ValueIdx
import Idealize.ShloMosaic.Lib.Pipeline.Value
import Idealize.ShloMosaic.PureOps.Ideal.Laws

noncomputable section

open scoped BigOperators

namespace Cert.KernelIdeal.Val

open Idealize.ShloMosaic Idealize.ShloMosaic.ValueIdx Idealize.SL.Sem
open Cert.KernelIdeal Cert.KernelIdeal.Gen

open Cert.KernelIdeal.Fr

variable (m : (ℓ : Loc nD τ sig) → Buf (Elt Ideal) ℓ)

/-! ## The blocks, read at a row and a column of their arrays -/

/-- The grid has 20 points. -/
theorem N20 : cfg0.N = 20 := N_0

/-- The first window's block at point `t` is block column `t` of the input. -/
theorem idx0 : ∀ t : Fin cfg0.N, win0_0.index t (0 : Fin 2) = 0 ∧ win0_0.index t (1 : Fin 2) = t.val :=
  (by decide +kernel : ∀ t : Fin grid0.N, _)

/-- The second window's block at point `t` is block column `t + 20` of the input. -/
theorem idx1 : ∀ t : Fin cfg0.N, win0_1.index t (0 : Fin 2) = 0 ∧ win0_1.index t (1 : Fin 2) = t.val + 20 :=
  (by decide +kernel : ∀ t : Fin grid0.N, _)

/-- The third window's block at point `t` is block column `t` of the first weight matrix. -/
theorem idx2 : ∀ t : Fin cfg0.N, win0_2.index t (0 : Fin 2) = 0 ∧ win0_2.index t (1 : Fin 2) = t.val :=
  (by decide +kernel : ∀ t : Fin grid0.N, _)

/-- The three small weight matrices are each one block, at every point. -/
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-- Point `t`'s block of the input's first half: columns `2048·t …`. -/
theorem iblk0_apply (c : Dev nD) (t : Fin cfg0.N) (p : Fin 1024) (j : Fin 2048) :
    iblk (F := Ideal) m c 0 t (ix2 p j)
      = V m c main_arg0 (ix2 p (⟨2048 * t.val + j.val, by have := t.isLt; have := N20; have := j.isLt; omega⟩ : Fin 81920)) := by
  obtain ⟨e0, e1⟩ := idx0 t
  unfold iblk
  rw [View.read_apply]
  show V m c main_arg0 (((cfg0.win 0).blk t).view.emb (ix2 p j)) = V m c main_arg0 _
  congr 1
  funext a
  apply Fin.ext
  match a with
  | ⟨0, _⟩ => show win0_0.index t (0 : Fin 2) * 1024 + 1 * p.val = p.val; omega
  | ⟨1, _⟩ => show win0_0.index t (1 : Fin 2) * 2048 + 1 * j.val = 2048 * t.val + j.val; omega

/-- Point `t`'s block of the input's second half: columns `40960 + 2048·t …`. -/
theorem iblk1_apply (c : Dev nD) (t : Fin cfg0.N) (p : Fin 1024) (j : Fin 2048) :
    iblk (F := Ideal) m c 1 t (ix2 p j)
      = V m c main_arg0 (ix2 p (⟨2048 * t.val + j.val + 40960, by have := t.isLt; have := N20; have := j.isLt; omega⟩ : Fin 81920)) := by
  obtain ⟨e0, e1⟩ := idx1 t
  unfold iblk
  rw [View.read_apply]
  show V m c main_arg0 (((cfg0.win 1).blk t).view.emb (ix2 p j)) = V m c main_arg0 _
  congr 1
  funext a
  apply Fin.ext
  match a with
  | ⟨0, _⟩ => show win0_1.index t (0 : Fin 2) * 1024 + 1 * p.val = p.val; omega
  | ⟨1, _⟩ => show win0_1.index t (1 : Fin 2) * 2048 + 1 * j.val = 2048 * t.val + j.val + 40960; omega

/-- Point `t`'s block of the first weight matrix: columns `2048·t …`. -/
theorem iblk2_apply (c : Dev nD) (t : Fin cfg0.N) (q : Fin 256) (j : Fin 2048) :
    iblk (F := Ideal) m c 2 t (ix2 q j)
      = V m c main_arg1 (ix2 q (⟨2048 * t.val + j.val, by have := t.isLt; have := N20; have := j.isLt; omega⟩ : Fin 40960)) := by
  obtain ⟨e0, e1⟩ := idx2 t
  unfold iblk
  rw [View.read_apply]
  show V m c main_arg1 (((cfg0.win 2).blk t).view.emb (ix2 q j)) = V m c main_arg1 _
  congr 1
  funext a
  apply Fin.ext
  match a with
  | ⟨0, _⟩ => show win0_2.index t (0 : Fin 2) * 256 + 1 * q.val = q.val; omega
  | ⟨1, _⟩ => show win0_2.index t (1 : Fin 2) * 2048 + 1 * j.val = 2048 * t.val + j.val; omega

/-- The second weight matrix is one block. -/
theorem iblk3_apply (c : Dev nD) (q : Fin 64) (j : Fin 256) :
    iblk (F := Ideal) m c 3 tLast (ix2 q j) = V m c main_arg2 (ix2 q j) := by
  obtain ⟨e0, e1⟩ := idx3 tLast
  unfold iblk
  rw [View.read_apply]
  show V m c main_arg2 (((cfg0.win 3).blk tLast).view.emb (ix2 q j)) = V m c main_arg2 _
  congr 1
  funext a
  apply Fin.ext
  match a with
  | ⟨0, _⟩ => show win0_3.index tLast (0 : Fin 2) * 64 + 1 * q.val = q.val; omega
  | ⟨1, _⟩ => show win0_3.index tLast (1 : Fin 2) * 256 + 1 * j.val = j.val; omega

/-- The third weight matrix is one block. -/
theorem iblk4_apply (c : Dev nD) (q : Fin 8) (j : Fin 128) :
    iblk (F := Ideal) m c 4 tLast (ix2 q j) = V m c main_arg3 (ix2 q j) := by
  obtain ⟨e0, e1⟩ := idx4 tLast
  unfold iblk
  rw [View.read_apply]
  show V m c main_arg3 (((cfg0.win 4).blk tLast).view.emb (ix2 q j)) = V m c main_arg3 _
  congr 1
  funext a
  apply Fin.ext
  match a with
  | ⟨0, _⟩ => show win0_4.index tLast (0 : Fin 2) * 8 + 1 * q.val = q.val; omega
  | ⟨1, _⟩ => show win0_4.index tLast (1 : Fin 2) * 128 + 1 * j.val = j.val; omega

/-- The last weight matrix is one block. -/
theorem iblk5_apply (c : Dev nD) (q : Fin 1) (j : Fin 8) :
    iblk (F := Ideal) m c 5 tLast (ix2 q j) = V m c main_arg4 (ix2 q j) := by
  obtain ⟨e0, e1⟩ := idx5 tLast
  unfold iblk
  rw [View.read_apply]
  show V m c main_arg4 (((cfg0.win 5).blk tLast).view.emb (ix2 q j)) = V m c main_arg4 _
  congr 1
  funext a
  apply Fin.ext
  match a with
  | ⟨0, _⟩ => show win0_5.index tLast (0 : Fin 2) * 1 + 1 * q.val = q.val; omega
  | ⟨1, _⟩ => show win0_5.index tLast (1 : Fin 2) * 8 + 1 * j.val = j.val; omega

/-! ## One point's step -/

/-- The accumulators start from zeros. -/
theorem pay1_apply (p : Fin 1024) (q : Fin 256) : k0_pay1 (F := Ideal) (ix2 p q) = 0 := by
  unfold k0_pay1
  rw [shapeCast_self]
  exact Ideal.ofBits_zero_f32

theorem pay2_apply (p : Fin 1024) (q : Fin 256) : k0_pay2 (F := Ideal) (ix2 p q) = 0 := by
  unfold k0_pay2
  rw [shapeCast_self]
  exact Ideal.ofBits_zero_f32

/-- A point adds to the first accumulator the product of its input block with the transposed weight block. -/
theorem pay4_apply (w : Vec Ideal S256x2048 .f32) (a : Vec Ideal S1024x256 .f32) (x : Vec Ideal S1024x2048 .f32)
    (p : Fin 1024) (q : Fin 256) :
    k0_pay4 (F := Ideal) w a x (ix2 p q) = a (ix2 p q) + ∑ j : Fin 2048, x (ix2 p j) * w (ix2 q j) := by
  unfold k0_pay4 k0_pay3
  rw [shapeCast_self, addf_apply]
  congr 1
  unfold dot_S1024x2048_S256x2048_S1024x256_1_1_0_0_n_n
  exact StackDots.matmul_nt_zero_apply (M := 1024) (K := 2048) (N := 256) _ none _ _ p q

/-- Likewise the second accumulator. -/
theorem pay5_apply (w : Vec Ideal S256x2048 .f32) (a : Vec Ideal S1024x256 .f32) (x : Vec Ideal S1024x2048 .f32)
    (p : Fin 1024) (q : Fin 256) :
    k0_pay5 (F := Ideal) w a x (ix2 p q) = a (ix2 p q) + ∑ j : Fin 2048, x (ix2 p j) * w (ix2 q j) := by
  unfold k0_pay5 k0_pay3
  rw [shapeCast_self, addf_apply]
  congr 1
  unfold dot_S1024x2048_S256x2048_S1024x256_1_1_0_0_n_n
  exact StackDots.matmul_nt_zero_apply (M := 1024) (K := 2048) (N := 256) _ none _ _ p q

/-! ## The accumulators, point after point -/

/-- The `k`-th product of input row `p` (from column `off` on) with weight row `q`, listed over all positions: zero
    past the row's 40960 columns. -/
def term (x : Fin 1024 → Fin 81920 → EReal) (w : Fin 256 → Fin 40960 → EReal) (off : ℕ) (hoff : off + 40960 ≤ 81920)
    (p : Fin 1024) (q : Fin 256) (k : ℕ) : EReal :=
  if h : k < 40960 then x p ⟨k + off, by omega⟩ * w q ⟨k, h⟩ else 0

/-- Before point `n` the first accumulator holds the first `2048·n` products of its row and column, summed. -/
theorem accA_partial (c : Dev nD) (p : Fin 1024) (q : Fin 256) : ∀ n : ℕ, n ≤ 20 →
    accA (F := Ideal) m c n (ix2 p q)
      = ∑ k ∈ Finset.range (2048 * n),
          term (fun p j => V m c main_arg0 (ix2 p j)) (fun q j => V m c main_arg1 (ix2 q j)) 0 (by omega) p q k := by
  intro n
  induction n with
  | zero =>
    intro _
    show k0_pay1 (F := Ideal) (ix2 p q) = _
    rw [pay1_apply, Nat.mul_zero, Finset.range_zero, Finset.sum_empty]
  | succ n ih =>
    intro hn
    have hn' : n < cfg0.N := by rw [N20]; omega
    refine ((congrFun (accA_succ m c ⟨n, hn'⟩) (ix2 p q)).trans (pay4_apply _ _ _ p q)).trans ?_
    rw [← Cert.RunSums.add_next_run 2048
        (term (fun p j => V m c main_arg0 (ix2 p j)) (fun q j => V m c main_arg1 (ix2 q j)) 0 (by omega) p q) n]
    refine congrArg₂ (· + ·) (ih (by omega)) (Finset.sum_congr rfl fun r _ => ?_)
    rw [iblk0_apply, iblk2_apply]
    unfold term
    rw [dif_pos (by have := r.isLt; omega : 2048 * n + r.val < 40960)]
    rfl

/-- Likewise the second accumulator, its row read from column 40960 on. -/
theorem accB_partial (c : Dev nD) (p : Fin 1024) (q : Fin 256) : ∀ n : ℕ, n ≤ 20 →
    accB (F := Ideal) m c n (ix2 p q)
      = ∑ k ∈ Finset.range (2048 * n),
          term (fun p j => V m c main_arg0 (ix2 p j)) (fun q j => V m c main_arg1 (ix2 q j)) 40960 (by omega) p q k := by
  intro n
  induction n with
  | zero =>
    intro _
    show k0_pay2 (F := Ideal) (ix2 p q) = _
    rw [pay2_apply, Nat.mul_zero, Finset.range_zero, Finset.sum_empty]
  | succ n ih =>
    intro hn
    have hn' : n < cfg0.N := by rw [N20]; omega
    refine ((congrFun (accB_succ m c ⟨n, hn'⟩) (ix2 p q)).trans (pay5_apply _ _ _ p q)).trans ?_
    rw [← Cert.RunSums.add_next_run 2048
        (term (fun p j => V m c main_arg0 (ix2 p j)) (fun q j => V m c main_arg1 (ix2 q j)) 40960 (by omega) p q) n]
    refine congrArg₂ (· + ·) (ih (by omega)) (Finset.sum_congr rfl fun r _ => ?_)
    rw [iblk1_apply, iblk2_apply]
    unfold term
    rw [dif_pos (by have := r.isLt; omega : 2048 * n + r.val < 40960)]

/-- After the last point the first accumulator is the first layer on the input's first half. -/
theorem accA_apply (c : Dev nD) (p : Fin 1024) (q : Fin 256) :
    accA (F := Ideal) m c 20 (ix2 p q)
      = Cert.Spec.first (fun p j => V m c main_arg0 (ix2 p j)) (fun q j => V m c main_arg1 (ix2 q j)) 0 (by omega) p q := by
  rw [accA_partial m c p q 20 (le_refl _), show 2048 * 20 = 40960 from rfl, Cert.RunSums.whole_column]
  unfold Cert.Spec.first
  refine Finset.sum_congr rfl fun k _ => ?_
  unfold term
  rw [dif_pos k.isLt]

/-- And the second accumulator the first layer on the second half. -/
theorem accB_apply (c : Dev nD) (p : Fin 1024) (q : Fin 256) :
    accB (F := Ideal) m c 20 (ix2 p q)
      = Cert.Spec.first (fun p j => V m c main_arg0 (ix2 p j)) (fun q j => V m c main_arg1 (ix2 q j)) 40960 (by omega) p q := by
  rw [accB_partial m c p q 20 (le_refl _), show 2048 * 20 = 40960 from rfl, Cert.RunSums.whole_column]
  unfold Cert.Spec.first
  refine Finset.sum_congr rfl fun k _ => ?_
  unfold term
  rw [dif_pos k.isLt]

end Cert.KernelIdeal.Val

end
-- ==== Proof.LibRowSums.lean ====
/-
  Row sums kept as a column, read at coordinates.

  `jnp.sum(x, axis=-1, keepdims=True)` of an `a × b` matrix is a lane reduction into a vector of length `a`,
  recast as an `a × 1` column; a kernel then either broadcasts the column along the rows of an `a × c`
  matrix, or transposes it to a `1 × a` row first. Read on the extended reals at explicit coordinates:
  the reduction at `p` is `Σₖ x[p, k]` over `k : Fin b`; the column at `(p, u)` is the vector at `p`; the
  column broadcast at `(p, q)` is the column at `(p, 0)`.
-/
import Idealize.ShloMosaic.PureOps.Ideal.Laws
import Idealize.ShloMosaic.Lib.ValueIdx
import Idealize.ShloMosaic.Lib.Pipeline.Value

noncomputable section

open scoped BigOperators

namespace Idealize.ShloMosaic.RowSums

open Idealize.ShloMosaic Idealize.ShloMosaic.ValueIdx

variable {α : Type}

/-- A length-`a` vector recast as an `a × 1` column reads, at `(p, u)`, the vector at `p`: both sit at
    row-major position `p`, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a × 1` column broadcast along the rows of an `a × c` matrix reads, at `(p, q)`, the column at `(p, 0)`. -/
theorem broadcastTo_a1_ac_apply {a c : ℕ} (v : (⟨2, ![a, 1]⟩ : Shape).Idx → α) (h : (⟨2, ![a, 1]⟩ : Shape).Broadcasts ⟨2, ![a, c]⟩)
    (p : Fin a) (q : Fin c) : broadcastTo ⟨2, ![a, c]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A lane reduction by `+` from the zero word of an `a × b` matrix over its second axis reads, at `p`, the sum
    `Σₖ x[p, k]` over `k : Fin b`: the index lifted from `p` with `k` inserted on the reduced axis is `(p, k)`. -/
theorem rowSum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x (funext fun d => Fin.ext ?_)
  match d with
  | ⟨0, _⟩ => rfl
  | ⟨1, _⟩ => rfl

end Idealize.ShloMosaic.RowSums

end
-- ==== Proof.KI.ValLn.lean ====
/-
  The kernel's row normalisation with the leaky rectifier, at the three row lengths it is applied at, read at a
  row and a column on the extended reals.
-/
import proofs.«128817_g6923487281305_cont_9to1_m_76_4_alg».proof.Proof.KI.Defs
import proofs.«128817_g6923487281305_cont_9to1_m_76_4_alg».proof.Proof.Spec
import proofs.«128817_g6923487281305_cont_9to1_m_76_4_alg».proof.Proof.LibRowSums
import Idealize.ShloMosaic.Lib.ValueIdx
import Idealize.ShloMosaic.Lib.Pipeline.Value
import Idealize.ShloMosaic.PureOps.Ideal.Laws

noncomputable section

open scoped BigOperators

namespace Cert.KernelIdeal.Val

open Idealize.ShloMosaic Idealize.ShloMosaic.ValueIdx Idealize.SL.Sem
open Cert.KernelIdeal Cert.KernelIdeal.Gen

variable {F : FTy → Type} [FloatOps F]

/-- Row normalisation and rectifier of a 1024 × 256 matrix, operation by operation as the kernel spells it. -/
def klnl256 (a : FVec F S1024x256 .f32) : FVec F S1024x256 .f32 :=
  have s1 : FVec F S1024 .f32 := multiReduction .add [1] S1024 a 0x00000000#32 reduces_S1024x256_S1024 (.inl rfl) rfl
  have mu : FVec F S1024x1 .f32 := divf (shapeCast S1024x1 s1 shapeCasts_S1024_S1024x1) (broadcast S1024x1 (Scalar.ofBits .f32 0x43800000#32))
  have dv : FVec F S1024x256 .f32 := subf a (broadcastTo S1024x256 mu broadcasts_S1024x1_S1024x256)
  have s2 : FVec F S1024 .f32 := multiReduction .add [1] S1024 (mulf dv dv) 0x00000000#32 reduces_S1024x256_S1024 (.inl rfl) rfl
  have vr : FVec F S1024x1 .f32 := divf (shapeCast S1024x1 s2 shapeCasts_S1024_S1024x1) (broadcast S1024x1 (Scalar.ofBits .f32 0x43800000#32))
  have y : FVec F S1024x256 .f32 := divf (subf a (broadcastTo S1024x256 mu broadcasts_S1024x1_S1024x256)) (broadcastTo S1024x256 (sqrt vr) broadcasts_S1024x1_S1024x256)
  maximumf (mulf (broadcast S1024x256 (Scalar.ofBits .f32 0x3D4CCCCD#32)) y) y

/-- The same of a 1024 × 64 matrix. -/
def klnl64 (a : FVec F S1024x64 .f32) : FVec F S1024x64 .f32 :=
  have s1 : FVec F S1024 .f32 := multiReduction .add [1] S1024 a 0x00000000#32 reduces_S1024x64_S1024 (.inl rfl) rfl
  have mu : FVec F S1024x1 .f32 := divf (shapeCast S1024x1 s1 shapeCasts_S1024_S1024x1) (broadcast S1024x1 (Scalar.ofBits .f32 0x42800000#32))
  have dv : FVec F S1024x64 .f32 := subf a (broadcastTo S1024x64 mu broadcasts_S1024x1_S1024x64)
  have s2 : FVec F S1024 .f32 := multiReduction .add [1] S1024 (mulf dv dv) 0x00000000#32 reduces_S1024x64_S1024 (.inl rfl) rfl
  have vr : FVec F S1024x1 .f32 := divf (shapeCast S1024x1 s2 shapeCasts_S1024_S1024x1) (broadcast S1024x1 (Scalar.ofBits .f32 0x42800000#32))
  have y : FVec F S1024x64 .f32 := divf (subf a (broadcastTo S1024x64 mu broadcasts_S1024x1_S1024x64)) (broadcastTo S1024x64 (sqrt vr) broadcasts_S1024x1_S1024x64)
  maximumf (mulf (broadcast S1024x64 (Scalar.ofBits .f32 0x3D4CCCCD#32)) y) y

/-- The same of a 1024 × 8 matrix. -/
def klnl8 (a : FVec F S1024x8 .f32) : FVec F S1024x8 .f32 :=
  have s1 : FVec F S1024 .f32 := multiReduction .add [1] S1024 a 0x00000000#32 reduces_S1024x8_S1024 (.inl rfl) rfl
  have mu : FVec F S1024x1 .f32 := divf (shapeCast S1024x1 s1 shapeCasts_S1024_S1024x1) (broadcast S1024x1 (Scalar.ofBits .f32 0x41000000#32))
  have dv : FVec F S1024x8 .f32 := subf a (broadcastTo S1024x8 mu broadcasts_S1024x1_S1024x8)
  have s2 : FVec F S1024 .f32 := multiReduction .add [1] S1024 (mulf dv dv) 0x00000000#32 reduces_S1024x8_S1024 (.inl rfl) rfl
  have vr : FVec F S1024x1 .f32 := divf (shapeCast S1024x1 s2 shapeCasts_S1024_S1024x1) (broadcast S1024x1 (Scalar.ofBits .f32 0x41000000#32))
  have y : FVec F S1024x8 .f32 := divf (subf a (broadcastTo S1024x8 mu broadcasts_S1024x1_S1024x8)) (broadcastTo S1024x8 (sqrt vr) broadcasts_S1024x1_S1024x8)
  maximumf (mulf (broadcast S1024x8 (Scalar.ofBits .f32 0x3D4CCCCD#32)) y) y

/-- A column of row sums divided by the broadcast literal `w`, read at `(p, 0)`: the row's sum over its
    length, divided by the literal's value. -/
theorem col_read {b : ℕ} (w : BitVec 32) (x : FVec Ideal ⟨2, ![1024, b]⟩ .f32)
    (hr : (⟨2, ![1024, b]⟩ : Shape).Reduces [1] ⟨1, ![1024]⟩) (hφ : FKind.Formats .f32)
    (hacc : (0x00000000#32 : BitVec 32) = FKind.add.neutral .f32 hφ)
    (hc : (⟨1, ![1024]⟩ : Shape).ShapeCasts ⟨2, ![1024, 1]⟩) (p : Fin 1024) :
    divf (shapeCast ⟨2, ![1024, 1]⟩ (multiReduction .add [1] ⟨1, ![1024]⟩ x 0x00000000#32 hr hφ hacc) hc)
        (broadcast ⟨2, ![1024, 1]⟩ (Scalar.ofBits .f32 w)) (ix2 p (0 : Fin 1))
      = Ideal.div (∑ k : Fin b, x (ix2 p k)) (Ideal.ofBits .f32 w) := by
  refine (divf_apply _ _ _).trans ?_
  refine congrArg (fun t => Ideal.div t (Ideal.ofBits .f32 w)) ?_
  exact (RowSums.shapeCast_a_a1_apply _ hc p 0).trans (RowSums.rowSum_apply x hr hφ hacc p)

/-- The whole chain at a general row length `b` with the divisor literal `w`: the mean column is the
    specification's mean, the centred matrix its centred entry, the variance column its variance, and the
    last three pointwise operations are the specification's quotient, product and maximum. -/
theorem chain_read {b : ℕ} (w : BitVec 32) (a : FVec Ideal ⟨2, ![1024, b]⟩ .f32)
    (hr : (⟨2, ![1024, b]⟩ : Shape).Reduces [1] ⟨1, ![1024]⟩) (hφ : FKind.Formats .f32)
    (hacc : (0x00000000#32 : BitVec 32) = FKind.add.neutral .f32 hφ)
    (hc : (⟨1, ![1024]⟩ : Shape).ShapeCasts ⟨2, ![1024, 1]⟩)
    (hb : (⟨2, ![1024, 1]⟩ : Shape).Broadcasts ⟨2, ![1024, b]⟩) (p : Fin 1024) (q : Fin b) :
    maximumf
        (mulf (broadcast ⟨2, ![1024, b]⟩ (Scalar.ofBits .f32 0x3D4CCCCD#32))
          (divf
            (subf a (broadcastTo ⟨2, ![1024, b]⟩
              (divf (shapeCast ⟨2, ![1024, 1]⟩ (multiReduction .add [1] ⟨1, ![1024]⟩ a 0x00000000#32 hr hφ hacc) hc)
                (broadcast ⟨2, ![1024, 1]⟩ (Scalar.ofBits .f32 w))) hb))
            (broadcastTo ⟨2, ![1024, b]⟩
              (sqrt
                (divf
                  (shapeCast ⟨2, ![1024, 1]⟩
                    (multiReduction .add [1] ⟨1, ![1024]⟩
                      (mulf
                        (subf a (broadcastTo ⟨2, ![1024, b]⟩
                          (divf (shapeCast ⟨2, ![1024, 1]⟩ (multiReduction .add [1] ⟨1, ![1024]⟩ a 0x00000000#32 hr hφ hacc) hc)
                            (broadcast ⟨2, ![1024, 1]⟩ (Scalar.ofBits .f32 w))) hb))
                        (subf a (broadcastTo ⟨2, ![1024, b]⟩
                          (divf (shapeCast ⟨2, ![1024, 1]⟩ (multiReduction .add [1] ⟨1, ![1024]⟩ a 0x00000000#32 hr hφ hacc) hc)
                            (broadcast ⟨2, ![1024, 1]⟩ (Scalar.ofBits .f32 w))) hb)))
                      0x00000000#32 hr hφ hacc) hc)
                  (broadcast ⟨2, ![1024, 1]⟩ (Scalar.ofBits .f32 w)))) hb)))
        (divf
          (subf a (broadcastTo ⟨2, ![1024, b]⟩
            (divf (shapeCast ⟨2, ![1024, 1]⟩ (multiReduction .add [1] ⟨1, ![1024]⟩ a 0x00000000#32 hr hφ hacc) hc)
              (broadcast ⟨2, ![1024, 1]⟩ (Scalar.ofBits .f32 w))) hb))
          (broadcastTo ⟨2, ![1024, b]⟩
            (sqrt
              (divf
                (shapeCast ⟨2, ![1024, 1]⟩
                  (multiReduction .add [1] ⟨1, ![1024]⟩
                    (mulf
                      (subf a (broadcastTo ⟨2, ![1024, b]⟩
                        (divf (shapeCast ⟨2, ![1024, 1]⟩ (multiReduction .add [1] ⟨1, ![1024]⟩ a 0x00000000#32 hr hφ hacc) hc)
                          (broadcast ⟨2, ![1024, 1]⟩ (Scalar.ofBits .f32 w))) hb))
                      (subf a (broadcastTo ⟨2, ![1024, b]⟩
                        (divf (shapeCast ⟨2, ![1024, 1]⟩ (multiReduction .add [1] ⟨1, ![1024]⟩ a 0x00000000#32 hr hφ hacc) hc)
                          (broadcast ⟨2, ![1024, 1]⟩ (Scalar.ofBits .f32 w))) hb)))
                    0x00000000#32 hr hφ hacc) hc)
                (broadcast ⟨2, ![1024, 1]⟩ (Scalar.ofBits .f32 w)))) hb))
        (ix2 p q)
      = Cert.Spec.lnl (Ideal.ofBits .f32 w) (fun p q => a (ix2 p q)) p q := by
  -- the mean column
  generalize hmu : (divf (shapeCast ⟨2, ![1024, 1]⟩ (multiReduction .add [1] ⟨1, ![1024]⟩ a 0x00000000#32 hr hφ hacc) hc)
      (broadcast ⟨2, ![1024, 1]⟩ (Scalar.ofBits .f32 w)) : FVec Ideal ⟨2, ![1024, 1]⟩ .f32) = mu
  have emu : ∀ r : Fin 1024, mu (ix2 r (0 : Fin 1)) = Cert.Spec.mean (Ideal.ofBits .f32 w) (fun p q => a (ix2 p q)) r :=
    fun r => hmu ▸ col_read w a hr hφ hacc hc r
  -- the centred matrix
  generalize hdv : (subf a (broadcastTo ⟨2, ![1024, b]⟩ mu hb) : FVec Ideal ⟨2, ![1024, b]⟩ .f32) = dv
  have edv : ∀ (r : Fin 1024) (k : Fin b),
      dv (ix2 r k) = a (ix2 r k) - Cert.Spec.mean (Ideal.ofBits .f32 w) (fun p q => a (ix2 p q)) r := fun r k => by
    subst hdv
    refine (subf_apply _ _ _).trans ?_
    exact congrArg (fun t => a (ix2 r k) - t) ((RowSums.broadcastTo_a1_ac_apply mu hb r k).trans (emu r))
  -- the variance column
  generalize hvr : (divf (shapeCast ⟨2, ![1024, 1]⟩ (multiReduction .add [1] ⟨1, ![1024]⟩ (mulf dv dv) 0x00000000#32 hr hφ hacc) hc)
      (broadcast ⟨2, ![1024, 1]⟩ (Scalar.ofBits .f32 w)) : FVec Ideal ⟨2, ![1024, 1]⟩ .f32) = vr
  have evr : ∀ r : Fin 1024, vr (ix2 r (0 : Fin 1)) = Cert.Spec.var (Ideal.ofBits .f32 w) (fun p q => a (ix2 p q)) r :=
    fun r => by
      subst hvr
      refine (col_read w (mulf dv dv) hr hφ hacc hc r).trans ?_
      refine congrArg (fun t => Ideal.div t (Ideal.ofBits .f32 w)) ?_
      refine Finset.sum_congr rfl fun k _ => ?_
      refine (mulf_apply _ _ _).trans ?_
      rw [edv r k]
  -- the last three pointwise operations
  have esq : broadcastTo ⟨2, ![1024, b]⟩ (sqrt vr) hb (ix2 p q)
      = Ideal.sqrt (Cert.Spec.var (Ideal.ofBits .f32 w) (fun p q => a (ix2 p q)) p) :=
    (RowSums.broadcastTo_a1_ac_apply (sqrt vr) hb p q).trans (congrArg Ideal.sqrt (evr p))
  show max (Ideal.ofBits .f32 0x3D4CCCCD#32 * Ideal.div (dv (ix2 p q)) (broadcastTo ⟨2, ![1024, b]⟩ (sqrt vr) hb (ix2 p q)))
      (Ideal.div (dv (ix2 p q)) (broadcastTo ⟨2, ![1024, b]⟩ (sqrt vr) hb (ix2 p q))) = _
  rw [esq, edv p q]
  rfl

theorem klnl256_apply (a : FVec Ideal S1024x256 .f32) (p : Fin 1024) (q : Fin 256) :
    klnl256 (F := Ideal) a (ix2 p q) = Cert.Spec.lnl Cert.Spec.d256 (fun p q => a (ix2 p q)) p q :=
  chain_read (b := 256) 0x43800000#32 a reduces_S1024x256_S1024 (.inl rfl) rfl shapeCasts_S1024_S1024x1
    broadcasts_S1024x1_S1024x256 p q

theorem klnl64_apply (a : FVec Ideal S1024x64 .f32) (p : Fin 1024) (q : Fin 64) :
    klnl64 (F := Ideal) a (ix2 p q) = Cert.Spec.lnl Cert.Spec.d64 (fun p q => a (ix2 p q)) p q :=
  chain_read (b := 64) 0x42800000#32 a reduces_S1024x64_S1024 (.inl rfl) rfl shapeCasts_S1024_S1024x1
    broadcasts_S1024x1_S1024x64 p q

theorem klnl8_apply (a : FVec Ideal S1024x8 .f32) (p : Fin 1024) (q : Fin 8) :
    klnl8 (F := Ideal) a (ix2 p q) = Cert.Spec.lnl Cert.Spec.d8 (fun p q => a (ix2 p q)) p q :=
  chain_read (b := 8) 0x41000000#32 a reduces_S1024x8_S1024 (.inl rfl) rfl shapeCasts_S1024_S1024x1
    broadcasts_S1024x1_S1024x8 p q

end Cert.KernelIdeal.Val

end
-- ==== Proof.KI.ValEpi.lean ====
/-
  Everything the kernel's last point computes after the first layer, read at a batch row on the extended reals.

  The kernel's text after the first layer is three matrix products with a transposed right operand, each into zeros,
  with the row normalisation and rectifier between them and the two 64-column halves laid side by side before the
  second product. Each product at a row and a column is the sum over the contracted coordinate of the operands'
  products; the side-by-side matrix at a column below 64 is the first half, from 64 on the second, 64 less.
-/
import proofs.«128817_g6923487281305_cont_9to1_m_76_4_alg».proof.Proof.KI.ValLn
import proofs.«128817_g6923487281305_cont_9to1_m_76_4_alg».proof.Proof.LibStackDots

noncomputable section

open scoped BigOperators

namespace Cert.KernelIdeal.Val

open Idealize.ShloMosaic Idealize.ShloMosaic.ValueIdx Idealize.SL.Sem
open Cert.KernelIdeal Cert.KernelIdeal.Gen

/-! ## The kernel's values after the first layer, over the normalisation chains -/

section restate

variable {F : FTy → Type} [FloatOps F]

/-- The second half's first normalisation is the 256-column chain. -/
theorem pay7_eq (a : FVec F S1024x256 .f32) : k0_pay7 a = klnl256 a := rfl

/-- The first half's second layer: the 256-column chain, then the product with the second weight matrix. -/
theorem pay8_eq (a : FVec F S1024x256 .f32) (w2 : Vec F S64x256 .f32) :
    k0_pay8 a w2 = matmul dot_S1024x256_S64x256_S1024x64_1_1_0_0_n_n (some .fp32) (klnl256 a) w2
      (constant S1024x64 .f32 0x00000000#32) := rfl

/-- The third layer: both halves through the 64-column chain, side by side, times the third weight matrix. -/
theorem pay9_eq (v63 : FVec F S1024x256 .f32) (v65 : FVec F S1024x64 .f32) (w2 : Vec F S64x256 .f32)
    (w3 : Vec F S8x128 .f32) :
    k0_pay9 v63 v65 w2 w3 = matmul dot_S1024x128_S8x128_S1024x8_1_1_0_0_n_n (some .fp32)
      (concatenate S1024x128 1 [⟨S1024x64, klnl64 v65⟩,
        ⟨S1024x64, klnl64 (matmul dot_S1024x256_S64x256_S1024x64_1_1_0_0_n_n (some .fp32) v63 w2
          (constant S1024x64 .f32 0x00000000#32))⟩] concatenates_S1024x64_S1024x64_S1024x128_d1 : FVec F S1024x128 .f32)
      w3 (constant S1024x8 .f32 0x00000000#32) := rfl

/-- The last layer, handed the row sums of its operand: the 8-column chain, then the product with the last weight
    matrix. -/
theorem pay6_eq (v108 : FVec F S1024x8 .f32) (w4 : Vec F S1x8 .f32) :
    k0_pay6 v108 (multiReduction .add [1] S1024 v108 0x00000000#32 reduces_S1024x8_S1024 (.inl rfl) rfl) w4
      = matmul dot_S1024x8_S1x8_S1024x1_1_1_0_0_n_n (some .fp32) (klnl8 v108) w4
          (constant S1024x1 .f32 0x00000000#32) := rfl

end restate

/-! ## The three products at a row and a column -/

/-- A 1024 × 256 matrix times the transpose of a 64 × 256 matrix, into zeros. -/
theorem mm64 (a : FVec Ideal S1024x256 .f32) (b : FVec Ideal S64x256 .f32) (p : Fin 1024) (q : Fin 64) :
    matmul dot_S1024x256_S64x256_S1024x64_1_1_0_0_n_n (some .fp32) a b (constant S1024x64 .f32 0x00000000#32) (ix2 p q)
      = ∑ t : Fin 256, a (ix2 p t) * b (ix2 q t) :=
  StackDots.matmul_nt_zero_apply (M := 1024) (K := 256) (N := 64) _ _ a b p q

/-- A 1024 × 128 matrix times the transpose of an 8 × 128 matrix, into zeros. -/
theorem mm128 (a : FVec Ideal S1024x128 .f32) (b : FVec Ideal S8x128 .f32) (p : Fin 1024) (q : Fin 8) :
    matmul dot_S1024x128_S8x128_S1024x8_1_1_0_0_n_n (some .fp32) a b (constant S1024x8 .f32 0x00000000#32) (ix2 p q)
      = ∑ t : Fin 128, a (ix2 p t) * b (ix2 q t) :=
  StackDots.matmul_nt_zero_apply (M := 1024) (K := 128) (N := 8) _ _ a b p q

/-- A 1024 × 8 matrix times the transpose of a 1 × 8 matrix, into zeros. -/
theorem mm8 (a : FVec Ideal S1024x8 .f32) (b : FVec Ideal S1x8 .f32) (p : Fin 1024) (q : Fin 1) :
    matmul dot_S1024x8_S1x8_S1024x1_1_1_0_0_n_n (some .fp32) a b (constant S1024x1 .f32 0x00000000#32) (ix2 p q)
      = ∑ t : Fin 8, a (ix2 p t) * b (ix2 q t) :=
  StackDots.matmul_nt_zero_apply (M := 1024) (K := 8) (N := 1) _ _ a b p q

/-! ## The two halves side by side -/

/-- Two 1024 × 64 matrices laid side by side, at a row and a column: the first below column 64, the second from
    column 64 on, 64 columns less. -/
theorem cat_apply (u v : FVec Ideal S1024x64 .f32) (p : Fin 1024) (j : Fin 128) :
    (concatenate S1024x128 1 [⟨S1024x64, u⟩, ⟨S1024x64, v⟩] concatenates_S1024x64_S1024x64_S1024x128_d1
        : FVec Ideal S1024x128 .f32) (ix2 p j)
      = Cert.Spec.cat (fun p q => u (ix2 p q)) (fun p q => v (ix2 p q)) p j := by
  unfold Cert.Spec.cat
  by_cases h : j.val < 64
  · rw [dif_pos h]
    exact concatenate_pair_apply_left (t := S1024x128) (s₁ := S1024x64) (s₂ := S1024x64) (1 : Fin 2) u v _ (ix2 p j) rfl
      (ix2 p (⟨j.val, h⟩ : Fin 64)) (fun b => by
        match b with
        | ⟨0, _⟩ => rfl
        | ⟨1, _⟩ => rfl)
  · rw [dif_neg h]
    have hj := j.isLt
    exact concatenate_pair_apply_right (t := S1024x128) (s₁ := S1024x64) (s₂ := S1024x64) (1 : Fin 2) u v _ (ix2 p j) rfl rfl
      (ix2 p (⟨j.val - 64, by omega⟩ : Fin 64)) (fun b hb => by
        match b with
        | ⟨0, _⟩ => rfl
        | ⟨1, _⟩ => exact absurd rfl hb) (by show j.val - 64 + 64 = j.val; omega)

/-! ## Layer by layer -/

/-- The 256-column chain, then the second weight matrix: the specification's second layer before its
    normalisation. -/
theorem mm64_lnl (a : FVec Ideal S1024x256 .f32) (w2 : FVec Ideal S64x256 .f32) :
    (fun (p : Fin 1024) (q : Fin 64) =>
        matmul dot_S1024x256_S64x256_S1024x64_1_1_0_0_n_n (some .fp32) (klnl256 a) w2
          (constant S1024x64 .f32 0x00000000#32) (ix2 p q))
      = Cert.Spec.dotT (Cert.Spec.lnl Cert.Spec.d256 (fun p q => a (ix2 p q))) (fun p q => w2 (ix2 p q)) := by
  funext p q
  refine (mm64 _ _ p q).trans ?_
  show _ = ∑ t : Fin 256, Cert.Spec.lnl Cert.Spec.d256 (fun p q => a (ix2 p q)) p t * w2 (ix2 q t)
  exact Finset.sum_congr rfl fun t _ => congrArg (· * w2 (ix2 q t)) (klnl256_apply a p t)

theorem epi_apply (a1 a2 : FVec Ideal S1024x256 .f32) (w2 : Vec Ideal S64x256 .f32) (w3 : Vec Ideal S8x128 .f32)
    (w4 : Vec Ideal S1x8 .f32) (p : Fin 1024) :
    Cert.KernelIdeal.Fr.epi (F := Ideal) a1 a2 w2 w3 w4 (ix2 p (0 : Fin 1))
      = Cert.Spec.tail (fun p q => a1 (ix2 p q)) (fun p q => a2 (ix2 p q)) (fun p q => w2 (ix2 p q))
          (fun p q => w3 (ix2 p q)) (fun p q => w4 (ix2 p q)) p := by
  -- the second layer of each half
  have h1 : (fun (p : Fin 1024) (q : Fin 64) => k0_pay8 (F := Ideal) a1 w2 (ix2 p q))
      = Cert.Spec.dotT (Cert.Spec.lnl Cert.Spec.d256 (fun p q => a1 (ix2 p q))) (fun p q => w2 (ix2 p q)) := by
    rw [pay8_eq]; exact mm64_lnl a1 w2
  have h2 : (fun (p : Fin 1024) (q : Fin 64) =>
        matmul (φ₂ := .f32) dot_S1024x256_S64x256_S1024x64_1_1_0_0_n_n (some .fp32) (k0_pay7 (F := Ideal) a2) w2
          (constant S1024x64 .f32 0x00000000#32) (ix2 p q))
      = Cert.Spec.dotT (Cert.Spec.lnl Cert.Spec.d256 (fun p q => a2 (ix2 p q))) (fun p q => w2 (ix2 p q)) := by
    rw [pay7_eq]; exact mm64_lnl a2 w2
  -- each normalised again
  have g1 : (fun (p : Fin 1024) (q : Fin 64) => klnl64 (k0_pay8 (F := Ideal) a1 w2) (ix2 p q))
      = Cert.Spec.lnl Cert.Spec.d64
          (Cert.Spec.dotT (Cert.Spec.lnl Cert.Spec.d256 (fun p q => a1 (ix2 p q))) (fun p q => w2 (ix2 p q))) := by
    funext p q; rw [klnl64_apply, h1]
  have g2 : (fun (p : Fin 1024) (q : Fin 64) =>
        klnl64 (matmul (φ₂ := .f32) dot_S1024x256_S64x256_S1024x64_1_1_0_0_n_n (some .fp32) (k0_pay7 (F := Ideal) a2) w2
          (constant S1024x64 .f32 0x00000000#32)) (ix2 p q))
      = Cert.Spec.lnl Cert.Spec.d64
          (Cert.Spec.dotT (Cert.Spec.lnl Cert.Spec.d256 (fun p q => a2 (ix2 p q))) (fun p q => w2 (ix2 p q))) := by
    funext p q; rw [klnl64_apply, h2]
  -- the third layer
  have hY : (fun (p : Fin 1024) (q : Fin 8) => k0_pay9 (F := Ideal) (k0_pay7 a2) (k0_pay8 a1 w2) w2 w3 (ix2 p q))
      = Cert.Spec.dotT
          (Cert.Spec.cat
            (Cert.Spec.lnl Cert.Spec.d64
              (Cert.Spec.dotT (Cert.Spec.lnl Cert.Spec.d256 (fun p q => a1 (ix2 p q))) (fun p q => w2 (ix2 p q))))
            (Cert.Spec.lnl Cert.Spec.d64
              (Cert.Spec.dotT (Cert.Spec.lnl Cert.Spec.d256 (fun p q => a2 (ix2 p q))) (fun p q => w2 (ix2 p q)))))
          (fun p q => w3 (ix2 p q)) := by
    funext p q
    rw [pay9_eq]
    refine (mm128 _ _ p q).trans ?_
    rw [← g1, ← g2]
    show _ = ∑ t : Fin 128, Cert.Spec.cat _ _ p t * w3 (ix2 q t)
    exact Finset.sum_congr rfl fun t _ => congrArg (· * w3 (ix2 q t)) (cat_apply _ _ p t)
  -- the last layer
  have h6 : Cert.KernelIdeal.Fr.epi (F := Ideal) a1 a2 w2 w3 w4
      = matmul (φ₂ := .f32) dot_S1024x8_S1x8_S1024x1_1_1_0_0_n_n (some .fp32)
          (klnl8 (k0_pay9 (F := Ideal) (k0_pay7 a2) (k0_pay8 a1 w2) w2 w3)) w4
          (constant S1024x1 .f32 0x00000000#32) := pay6_eq _ w4
  rw [h6]
  refine (mm8 _ _ p 0).trans ?_
  unfold Cert.Spec.tail
  rw [← hY]
  show _ = ∑ t : Fin 8, Cert.Spec.lnl Cert.Spec.d8 _ p t * w4 (ix2 (0 : Fin 1) t)
  exact Finset.sum_congr rfl fun t _ => congrArg (· * w4 (ix2 (0 : Fin 1) t)) (klnl8_apply _ p t)

end Cert.KernelIdeal.Val

end
-- ==== Proof.KI.ValNet.lean ====
/-
  The kernel's output block is the network of the argument arrays, batch row by batch row.

  The output block is everything after the first layer applied to the two accumulators after the last point and the
  three small weight matrices' blocks; each accumulator is the first layer on its half of the input, and each small
  block is its whole array.
-/
import proofs.«128817_g6923487281305_cont_9to1_m_76_4_alg».proof.Proof.KI.ValAcc
import proofs.«128817_g6923487281305_cont_9to1_m_76_4_alg».proof.Proof.KI.ValEpi

noncomputable section

open scoped BigOperators

namespace Cert.KernelIdeal.Val

open Idealize.ShloMosaic Idealize.ShloMosaic.ValueIdx Idealize.SL.Sem
open Cert.KernelIdeal Cert.KernelIdeal.Gen

open Cert.KernelIdeal.Fr

variable (m : (ℓ : Loc nD τ sig) → Buf (Elt Ideal) ℓ)

theorem netOut_apply (c : Dev nD) (p : Fin 1024) :
    netOut (F := Ideal) m c (ix2 p (0 : Fin 1))
      = Cert.Spec.net (fun p j => V m c main_arg0 (ix2 p j)) (fun q j => V m c main_arg1 (ix2 q j))
          (fun q j => V m c main_arg2 (ix2 q j)) (fun q j => V m c main_arg3 (ix2 q j)) (fun q j => V m c main_arg4 (ix2 q j)) p := by
  have e1 : (fun (p : Fin 1024) (q : Fin 256) => accA (F := Ideal) m c 20 (ix2 p q))
      = Cert.Spec.first (fun p j => V m c main_arg0 (ix2 p j)) (fun q j => V m c main_arg1 (ix2 q j)) 0 (by omega) :=
    funext fun p => funext fun q => accA_apply m c p q
  have e2 : (fun (p : Fin 1024) (q : Fin 256) => accB (F := Ideal) m c 20 (ix2 p q))
      = Cert.Spec.first (fun p j => V m c main_arg0 (ix2 p j)) (fun q j => V m c main_arg1 (ix2 q j)) 40960 (by omega) :=
    funext fun p => funext fun q => accB_apply m c p q
  have e3 : (fun (q : Fin 64) (j : Fin 256) => (iblk (F := Ideal) m c 3 tLast (ix2 q j) : EReal))
      = fun q j => V m c main_arg2 (ix2 q j) :=
    funext fun q => funext fun j => iblk3_apply m c q j
  have e4 : (fun (q : Fin 8) (j : Fin 128) => (iblk (F := Ideal) m c 4 tLast (ix2 q j) : EReal))
      = fun q j => V m c main_arg3 (ix2 q j) :=
    funext fun q => funext fun j => iblk4_apply m c q j
  have e5 : (fun (q : Fin 1) (j : Fin 8) => (iblk (F := Ideal) m c 5 tLast (ix2 q j) : EReal))
      = fun q j => V m c main_arg4 (ix2 q j) :=
    funext fun q => funext fun j => iblk5_apply m c q j
  unfold netOut
  refine (epi_apply _ _ _ _ _ p).trans ?_
  unfold Cert.Spec.net
  exact congrFun (congr (congr (congr (congr (congrArg Cert.Spec.tail e1) e2) e3) e4) e5) p

end Cert.KernelIdeal.Val

end
-- ==== Proof.R.ValLn.lean ====
/-
  The reference's row normalisation with the leaky rectifier, at the three row lengths it is applied at, read at a
  row and a column on the extended reals.
-/
import proofs.«128817_g6923487281305_cont_9to1_m_76_4_alg».proof.Proof.Gen.ReferenceIdeal.Run
import proofs.«128817_g6923487281305_cont_9to1_m_76_4_alg».proof.Proof.Spec
import Idealize.ShloMosaic.Lib.ValueIdx
import Idealize.ShloMosaic.Lib.Pipeline.Value
import Idealize.ShloMosaic.PureOps.Ideal.Laws
import Idealize.ShloMosaic.Lib.IdealHost

noncomputable section

open scoped BigOperators

namespace Cert.ReferenceIdeal.RefVal

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Value

variable {F : FTy → Type} [FloatOps F]

/-- Row normalisation and rectifier of a 1024 × 256 matrix, operation by operation as the reference spells it. -/
def hlnl256 (a : FVec F S1024x256 .f32) : FVec F S1024x256 .f32 :=
  have mu : FVec F S1024x1 .f32 := broadcastInDim S1024x1 ![0] bcast_S1024_S1024x1_0 (Host.divf (Host.reduceAdd a (constant S_ .f32 0x00000000#32) reducesTo_S1024x256_S1024_d1 h_S_) (broadcastInDim S1024 ![] bcast_S_S1024 (constant S_ .f32 0x43800000#32)))
  have dv : FVec F S1024x256 .f32 := subf a (broadcastInDim S1024x256 ![0, 1] bcast_S1024x1_S1024x256_0_1 mu)
  have sd : FVec F S1024 .f32 := Host.sqrt (Host.divf (Host.reduceAdd (mulf dv dv) (constant S_ .f32 0x00000000#32) reducesTo_S1024x256_S1024_d1 h_S_) (broadcastInDim S1024 ![] bcast_S_S1024 (constant S_ .f32 0x43800000#32)))
  have y : FVec F S1024x256 .f32 := Host.divf (subf a (broadcastInDim S1024x256 ![0, 1] bcast_S1024x1_S1024x256_0_1 mu)) (broadcastInDim S1024x256 ![0, 1] bcast_S1024x1_S1024x256_0_1 (broadcastInDim S1024x1 ![0] bcast_S1024_S1024x1_0 sd))
  maximumf (mulf (broadcastInDim S1024x256 ![] bcast_S_S1024x256 (constant S_ .f32 0x3D4CCCCD#32)) y) y

/-- The same of a 1024 × 64 matrix. -/
def hlnl64 (a : FVec F S1024x64 .f32) : FVec F S1024x64 .f32 :=
  have mu : FVec F S1024x1 .f32 := broadcastInDim S1024x1 ![0] bcast_S1024_S1024x1_0 (Host.divf (Host.reduceAdd a (constant S_ .f32 0x00000000#32) reducesTo_S1024x64_S1024_d1 h_S_) (broadcastInDim S1024 ![] bcast_S_S1024 (constant S_ .f32 0x42800000#32)))
  have dv : FVec F S1024x64 .f32 := subf a (broadcastInDim S1024x64 ![0, 1] bcast_S1024x1_S1024x64_0_1 mu)
  have sd : FVec F S1024 .f32 := Host.sqrt (Host.divf (Host.reduceAdd (mulf dv dv) (constant S_ .f32 0x00000000#32) reducesTo_S1024x64_S1024_d1 h_S_) (broadcastInDim S1024 ![] bcast_S_S1024 (constant S_ .f32 0x42800000#32)))
  have y : FVec F S1024x64 .f32 := Host.divf (subf a (broadcastInDim S1024x64 ![0, 1] bcast_S1024x1_S1024x64_0_1 mu)) (broadcastInDim S1024x64 ![0, 1] bcast_S1024x1_S1024x64_0_1 (broadcastInDim S1024x1 ![0] bcast_S1024_S1024x1_0 sd))
  maximumf (mulf (broadcastInDim S1024x64 ![] bcast_S_S1024x64 (constant S_ .f32 0x3D4CCCCD#32)) y) y

/-- The same of a 1024 × 8 matrix. -/
def hlnl8 (a : FVec F S1024x8 .f32) : FVec F S1024x8 .f32 :=
  have mu : FVec F S1024x1 .f32 := broadcastInDim S1024x1 ![0] bcast_S1024_S1024x1_0 (Host.divf (Host.reduceAdd a (constant S_ .f32 0x00000000#32) reducesTo_S1024x8_S1024_d1 h_S_) (broadcastInDim S1024 ![] bcast_S_S1024 (constant S_ .f32 0x41000000#32)))
  have dv : FVec F S1024x8 .f32 := subf a (broadcastInDim S1024x8 ![0, 1] bcast_S1024x1_S1024x8_0_1 mu)
  have sd : FVec F S1024 .f32 := Host.sqrt (Host.divf (Host.reduceAdd (mulf dv dv) (constant S_ .f32 0x00000000#32) reducesTo_S1024x8_S1024_d1 h_S_) (broadcastInDim S1024 ![] bcast_S_S1024 (constant S_ .f32 0x41000000#32)))
  have y : FVec F S1024x8 .f32 := Host.divf (subf a (broadcastInDim S1024x8 ![0, 1] bcast_S1024x1_S1024x8_0_1 mu)) (broadcastInDim S1024x8 ![0, 1] bcast_S1024x1_S1024x8_0_1 (broadcastInDim S1024x1 ![0] bcast_S1024_S1024x1_0 sd))
  maximumf (mulf (broadcastInDim S1024x8 ![] bcast_S_S1024x8 (constant S_ .f32 0x3D4CCCCD#32)) y) y

/-! ## The steps, at any extents

Each operation of the chain read at coordinates: a vector laid out as a column, a column repeated along the rows, and
the sum along a row from the zero word. -/

section Steps

variable {α : Type}

/-- A length-`m` vector laid out as an `m × 1` column reads, at `(p, u)`, the vector at `p`. -/
theorem column_apply {m : ℕ} (h : (⟨1, ![m]⟩ : Shape).BroadcastsInDim ⟨2, ![m, 1]⟩ ![0])
    (x : (⟨1, ![m]⟩ : Shape).Idx → α) (p : Fin m) (u : Fin 1) :
    broadcastInDim ⟨2, ![m, 1]⟩ ![0] h x (ix2 p u) = x (ix1 p) := by
  refine broadcastInDim_apply ![0] h x (ix2 p u) (ix1 p) fun ax => ?_
  match ax with
  | ⟨0, _⟩ =>
    show p.val = if m = 1 then 0 else p.val
    split
    · have := p.isLt; omega
    · rfl

/-- An `m × 1` column repeated along the rows of an `m × c` matrix reads, at `(p, q)`, the column at `(p, 0)`. -/
theorem alongRows_apply {m c : ℕ} (h : (⟨2, ![m, 1]⟩ : Shape).BroadcastsInDim ⟨2, ![m, c]⟩ ![0, 1])
    (v : (⟨2, ![m, 1]⟩ : Shape).Idx → α) (p : Fin m) (q : Fin c) :
    broadcastInDim ⟨2, ![m, c]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if m = 1 then 0 else p.val
    split
    · have := p.isLt; omega
    · rfl
  | ⟨1, _⟩ => rfl

/-- A vector laid out as a column and repeated along the rows reads, at `(p, q)`, the vector at `p`. -/
theorem perRow_apply {m c : ℕ} (h1 : (⟨1, ![m]⟩ : Shape).BroadcastsInDim ⟨2, ![m, 1]⟩ ![0])
    (h2 : (⟨2, ![m, 1]⟩ : Shape).BroadcastsInDim ⟨2, ![m, c]⟩ ![0, 1])
    (x : (⟨1, ![m]⟩ : Shape).Idx → α) (p : Fin m) (q : Fin c) :
    broadcastInDim ⟨2, ![m, c]⟩ ![0, 1] h2 (broadcastInDim ⟨2, ![m, 1]⟩ ![0] h1 x) (ix2 p q) = x (ix1 p) :=
  (alongRows_apply h2 _ p q).trans (column_apply h1 x p 0)

/-- The sum along axis 1 of an `m × c` matrix from the zero word reads, at `p`, `Σₖ x[p, k]`: the initial value is
    the extended real zero, and the index over `p` with `k` put on the summed axis is `(p, k)`. -/
theorem hostRowSum_apply {m c : ℕ} (x : FVec Ideal ⟨2, ![m, c]⟩ .f32)
    (h' : (⟨2, ![m, c]⟩ : Shape).ReducesTo [1] ⟨1, ![m]⟩) (hu : 0 < (⟨0, ![]⟩ : Shape).numel) (p : Fin m) :
    Host.reduceAdd x (constant (F := Ideal) ⟨0, ![]⟩ .f32 0x00000000#32) h' hu (ix1 p) = ∑ k : Fin c, x (ix2 p k) := by
  have h : (⟨2, ![m, c]⟩ : Shape).Reduces [1] ⟨1, ![m]⟩ := ⟨h'.1, Nat.one_pos, h'.2⟩
  refine (hostReduceAdd_apply x _ h' hu (ix1 p)).trans ?_
  refine (Ideal.hostReduceAdd_single h' h x _ (ix1 p)).trans ?_
  refine (congrArg (· + _) ((constant_apply _ _).trans Ideal.ofBits_zero_f32)).trans ((zero_add _).trans ?_)
  refine Finset.sum_congr rfl fun k _ => congrArg x (funext fun d => Fin.ext ?_)
  match d with
  | ⟨0, _⟩ => rfl
  | ⟨1, _⟩ => rfl

end Steps

/-! ## The chain at any row length -/

section Chain

variable {c : ℕ}

/-- The reference's chain on a 1024 × `c` matrix, with the row length spelled as the float word `w`. -/
def rowChain (w : BitVec 32) (hr : (⟨2, ![1024, c]⟩ : Shape).ReducesTo [1] S1024) (hS : 0 < S_.numel)
    (b0 : S_.BroadcastsInDim S1024 (![] : Fin 0 → Fin S1024.rank))
    (b1 : S1024.BroadcastsInDim S1024x1 (![0] : Fin 1 → Fin S1024x1.rank))
    (b2 : S1024x1.BroadcastsInDim ⟨2, ![1024, c]⟩ (![0, 1] : Fin 2 → Fin (⟨2, ![1024, c]⟩ : Shape).rank))
    (b3 : S_.BroadcastsInDim ⟨2, ![1024, c]⟩ (![] : Fin 0 → Fin (⟨2, ![1024, c]⟩ : Shape).rank))
    (a : FVec Ideal ⟨2, ![1024, c]⟩ .f32) : FVec Ideal ⟨2, ![1024, c]⟩ .f32 :=
  have mu : FVec Ideal S1024x1 .f32 := broadcastInDim S1024x1 ![0] b1 (Host.divf (Host.reduceAdd a (constant S_ .f32 0x00000000#32) hr hS) (broadcastInDim S1024 ![] b0 (constant S_ .f32 w)))
  have dv : FVec Ideal ⟨2, ![1024, c]⟩ .f32 := subf a (broadcastInDim ⟨2, ![1024, c]⟩ ![0, 1] b2 mu)
  have sd : FVec Ideal S1024 .f32 := Host.sqrt (Host.divf (Host.reduceAdd (mulf dv dv) (constant S_ .f32 0x00000000#32) hr hS) (broadcastInDim S1024 ![] b0 (constant S_ .f32 w)))
  have y : FVec Ideal ⟨2, ![1024, c]⟩ .f32 := Host.divf (subf a (broadcastInDim ⟨2, ![1024, c]⟩ ![0, 1] b2 mu)) (broadcastInDim ⟨2, ![1024, c]⟩ ![0, 1] b2 (broadcastInDim S1024x1 ![0] b1 sd))
  maximumf (mulf (broadcastInDim ⟨2, ![1024, c]⟩ ![] b3 (constant S_ .f32 0x3D4CCCCD#32)) y) y

/-- The chain at `(p, q)` is the specification's normalisation and rectifier of the matrix's entries. -/
theorem rowChain_apply (w : BitVec 32) (hr : (⟨2, ![1024, c]⟩ : Shape).ReducesTo [1] S1024) (hS : 0 < S_.numel)
    (b0 : S_.BroadcastsInDim S1024 (![] : Fin 0 → Fin S1024.rank))
    (b1 : S1024.BroadcastsInDim S1024x1 (![0] : Fin 1 → Fin S1024x1.rank))
    (b2 : S1024x1.BroadcastsInDim ⟨2, ![1024, c]⟩ (![0, 1] : Fin 2 → Fin (⟨2, ![1024, c]⟩ : Shape).rank))
    (b3 : S_.BroadcastsInDim ⟨2, ![1024, c]⟩ (![] : Fin 0 → Fin (⟨2, ![1024, c]⟩ : Shape).rank))
    (a : FVec Ideal ⟨2, ![1024, c]⟩ .f32) (p : Fin 1024) (q : Fin c) :
    rowChain w hr hS b0 b1 b2 b3 a (ix2 p q)
      = Cert.Spec.lnl (Ideal.ofBits .f32 w) (fun p q => a (ix2 p q)) p q := by
  -- the divisor vector reads the row length's word at every row
  have hd : ∀ p' : Fin 1024,
      broadcastInDim S1024 ![] b0 (constant (F := Ideal) S_ .f32 w) (ix1 p') = Ideal.ofBits .f32 w :=
    fun p' => broadcastInDim_scalar_apply b0 _ _
  -- the mean, as the column repeated along the rows
  have hmu : ∀ (p' : Fin 1024) (q' : Fin c),
      broadcastInDim ⟨2, ![1024, c]⟩ ![0, 1] b2 (broadcastInDim S1024x1 ![0] b1
        (Host.divf (Host.reduceAdd a (constant S_ .f32 0x00000000#32) hr hS)
          (broadcastInDim S1024 ![] b0 (constant S_ .f32 w)))) (ix2 p' q')
        = Cert.Spec.mean (Ideal.ofBits .f32 w) (fun p q => a (ix2 p q)) p' := by
    intro p' q'
    refine (perRow_apply b1 b2 _ p' q').trans ?_
    exact congrArg₂ Ideal.div (hostRowSum_apply a hr hS p') (hd p')
  -- the variance: the row sum of the squared deviations over the row length
  have hvar : ∀ p' : Fin 1024,
      Host.divf (Host.reduceAdd
          (mulf (subf a (broadcastInDim ⟨2, ![1024, c]⟩ ![0, 1] b2 (broadcastInDim S1024x1 ![0] b1
              (Host.divf (Host.reduceAdd a (constant S_ .f32 0x00000000#32) hr hS)
                (broadcastInDim S1024 ![] b0 (constant S_ .f32 w))))))
            (subf a (broadcastInDim ⟨2, ![1024, c]⟩ ![0, 1] b2 (broadcastInDim S1024x1 ![0] b1
              (Host.divf (Host.reduceAdd a (constant S_ .f32 0x00000000#32) hr hS)
                (broadcastInDim S1024 ![] b0 (constant S_ .f32 w)))))))
          (constant S_ .f32 0x00000000#32) hr hS)
        (broadcastInDim S1024 ![] b0 (constant S_ .f32 w)) (ix1 p')
        = Cert.Spec.var (Ideal.ofBits .f32 w) (fun p q => a (ix2 p q)) p' := by
    intro p'
    refine (congrArg₂ Ideal.div (hostRowSum_apply _ hr hS p') (hd p')).trans ?_
    refine congrArg (fun s => Ideal.div s (Ideal.ofBits .f32 w)) (Finset.sum_congr rfl fun k _ => ?_)
    exact congrArg₂ (· * ·) (congrArg (a (ix2 p' k) - ·) (hmu p' k)) (congrArg (a (ix2 p' k) - ·) (hmu p' k))
  -- the normalised entry
  have hy : Host.divf (subf a (broadcastInDim ⟨2, ![1024, c]⟩ ![0, 1] b2 (broadcastInDim S1024x1 ![0] b1
              (Host.divf (Host.reduceAdd a (constant S_ .f32 0x00000000#32) hr hS)
                (broadcastInDim S1024 ![] b0 (constant S_ .f32 w))))))
        (broadcastInDim ⟨2, ![1024, c]⟩ ![0, 1] b2 (broadcastInDim S1024x1 ![0] b1 (Host.sqrt (Host.divf (Host.reduceAdd
          (mulf (subf a (broadcastInDim ⟨2, ![1024, c]⟩ ![0, 1] b2 (broadcastInDim S1024x1 ![0] b1
              (Host.divf (Host.reduceAdd a (constant S_ .f32 0x00000000#32) hr hS)
                (broadcastInDim S1024 ![] b0 (constant S_ .f32 w))))))
            (subf a (broadcastInDim ⟨2, ![1024, c]⟩ ![0, 1] b2 (broadcastInDim S1024x1 ![0] b1
              (Host.divf (Host.reduceAdd a (constant S_ .f32 0x00000000#32) hr hS)
                (broadcastInDim S1024 ![] b0 (constant S_ .f32 w)))))))
          (constant S_ .f32 0x00000000#32) hr hS)
        (broadcastInDim S1024 ![] b0 (constant S_ .f32 w)))))) (ix2 p q)
      = Ideal.div (a (ix2 p q) - Cert.Spec.mean (Ideal.ofBits .f32 w) (fun p q => a (ix2 p q)) p)
          (Ideal.sqrt (Cert.Spec.var (Ideal.ofBits .f32 w) (fun p q => a (ix2 p q)) p)) := by
    refine congrArg₂ Ideal.div (congrArg (a (ix2 p q) - ·) (hmu p q)) ?_
    refine (perRow_apply b1 b2 _ p q).trans ?_
    exact congrArg Ideal.sqrt (hvar p)
  -- the slope's word at every entry
  have hc : broadcastInDim ⟨2, ![1024, c]⟩ ![] b3 (constant (F := Ideal) S_ .f32 0x3D4CCCCD#32) (ix2 p q) = Cert.Spec.c05 :=
    broadcastInDim_scalar_apply b3 _ _
  exact congrArg₂ max (congrArg₂ (· * ·) hc hy) hy

end Chain

theorem hlnl256_apply (a : FVec Ideal S1024x256 .f32) (p : Fin 1024) (q : Fin 256) :
    hlnl256 (F := Ideal) a (ix2 p q) = Cert.Spec.lnl Cert.Spec.d256 (fun p q => a (ix2 p q)) p q :=
  rowChain_apply 0x43800000#32 reducesTo_S1024x256_S1024_d1 h_S_ bcast_S_S1024 bcast_S1024_S1024x1_0
    bcast_S1024x1_S1024x256_0_1 bcast_S_S1024x256 a p q

theorem hlnl64_apply (a : FVec Ideal S1024x64 .f32) (p : Fin 1024) (q : Fin 64) :
    hlnl64 (F := Ideal) a (ix2 p q) = Cert.Spec.lnl Cert.Spec.d64 (fun p q => a (ix2 p q)) p q :=
  rowChain_apply 0x42800000#32 reducesTo_S1024x64_S1024_d1 h_S_ bcast_S_S1024 bcast_S1024_S1024x1_0
    bcast_S1024x1_S1024x64_0_1 bcast_S_S1024x64 a p q

theorem hlnl8_apply (a : FVec Ideal S1024x8 .f32) (p : Fin 1024) (q : Fin 8) :
    hlnl8 (F := Ideal) a (ix2 p q) = Cert.Spec.lnl Cert.Spec.d8 (fun p q => a (ix2 p q)) p q :=
  rowChain_apply 0x41000000#32 reducesTo_S1024x8_S1024_d1 h_S_ bcast_S_S1024 bcast_S1024_S1024x1_0
    bcast_S1024x1_S1024x8_0_1 bcast_S_S1024x8 a p q

end Cert.ReferenceIdeal.RefVal

end
-- ==== Proof.LibHostDot.lean ====
/-
  The host's matrix product `A B` read at a row and a column.

  For an `M × K` matrix `A` and a `K × N` matrix `B`, the host's `dot_general` contracting the left operand's
  columns with the right operand's rows is, on the extended reals, `Σₜ A[p, t] · B[t, q]` at row `p` and column
  `q`: the sum over the one-axis contraction index is re-indexed by that axis's coordinate `t`, which sits in the
  second place of the left operand's index and in the first place of the right operand's.
-/
import Idealize.ShloMosaic.PureOps.Ideal.Laws
import Idealize.ShloMosaic.Lib.ValueIdx

noncomputable section

open scoped BigOperators

namespace Idealize.ShloMosaic.HostDot

open Idealize.ShloMosaic Idealize.ShloMosaic.ValueIdx

/-- `A B` on the host, at row `p` and column `q`, is `Σₜ A[p, t] · B[t, q]`. -/
theorem dotGeneral_nn_apply {φ₁ φ₂ : FTy} {M K N : Nat}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (p : Fin M) (q : Fin N) :
    Host.dotGeneral (⟨[1], [0], [0], [1], [], [], w⟩ : DotDims ⟨2, ![M, K]⟩ ⟨2, ![K, N]⟩ ⟨2, ![M, N]⟩) prec A B (ix2 p q)
      = ∑ t : Fin K, A (ix2 p t) * B (ix2 t q) := by
  show FloatOps.dotGeneral _ prec _ A B (ix2 p q) = _
  rw [Ideal.dotGeneral_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun t _ => ?_
  have c := contrEquiv1_symm_val (⟨[1], [0], [0], [1], [], [], w⟩ : DotDims ⟨2, ![M, K]⟩ ⟨2, ![K, N]⟩ ⟨2, ![M, N]⟩) K rfl rfl t
  have l : (⟨[1], [0], [0], [1], [], [], w⟩ : DotDims ⟨2, ![M, K]⟩ ⟨2, ![K, N]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [0], [0], [1], [], [], w⟩ : DotDims ⟨2, ![M, K]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

end Idealize.ShloMosaic.HostDot

end
-- ==== Proof.LibMatrixReads.lean ====
/-
  Matrices read at a row and a column, and a sum over consecutive runs.

  For arrays with two axes of literal extents: a single row broadcast down the rows reads that row; a slice at a
  row offset and a column offset reads the operand that many rows down and columns to the right; a transpose
  swaps the coordinates; a vector laid out as a single row reads the vector. And in any commutative monoid a sum
  over `a + b` consecutive terms is the sum of the first `a` plus the sum of the last `b`.
-/
import Idealize.ShloMosaic.Lib.Pipeline.Value
import Idealize.ShloMosaic.Lib.ValueIdx
import Mathlib.Algebra.BigOperators.Fin

noncomputable section

open scoped BigOperators

namespace Idealize.ShloMosaic.MatrixReads

open Idealize.ShloMosaic Idealize.ShloMosaic.ValueIdx

/-- A single row broadcast down `m` rows reads that row at every row. -/
theorem rowBroadcast_apply {α : Type} (m n : Nat) (x : (⟨2, ![1, n]⟩ : Shape).Idx → α)
    (h : (⟨2, ![1, n]⟩ : Shape).Broadcasts ⟨2, ![m, n]⟩) (p : Fin m) (j : Fin n) :
    broadcastTo ⟨2, ![m, n]⟩ x h (ix2 p j) = x (ix2 (0 : Fin 1) j) := by
  refine broadcastTo_apply x h (ix2 p j) (ix2 0 j) fun a => ?_
  match a with
  | ⟨0, _⟩ => rfl
  | ⟨1, _⟩ =>
    show j.val = if n = 1 then 0 else j.val
    have := j.isLt
    split_ifs with hn
    · omega
    · rfl

/-- A slice of columns `off … off + n' - 1` reads the operand `off` columns to the right. -/
theorem colSlice_apply {α : Type} (m n n' off : Nat) (x : (⟨2, ![m, n]⟩ : Shape).Idx → α)
    (h : (⟨2, ![m, n]⟩ : Shape).Slices ![0, off] ⟨2, ![m, n']⟩) (p : Fin m) (j : Fin n') (hj : j.val + off < n) :
    extractStridedSlice ⟨2, ![m, n']⟩ ![0, off] x h (ix2 p j) = x (ix2 p (⟨j.val + off, hj⟩ : Fin n)) := by
  refine extractStridedSlice_apply _ x h (ix2 p j) _ fun a => ?_
  match a with
  | ⟨0, _⟩ => show p.val = 0 + p.val; omega
  | ⟨1, _⟩ => show j.val + off = off + j.val; omega

/-- A slice of a matrix at row offset `o0` and column offset `o1`. -/
theorem slice2_apply {α : Type} (m n m' n' o0 o1 : Nat) (x : (⟨2, ![m, n]⟩ : Shape).Idx → α)
    (h : (⟨2, ![m, n]⟩ : Shape).Slices ![o0, o1] ⟨2, ![m', n']⟩) (p : Fin m') (j : Fin n')
    (hp : p.val + o0 < m) (hj : j.val + o1 < n) :
    extractStridedSlice ⟨2, ![m', n']⟩ ![o0, o1] x h (ix2 p j) = x (ix2 (⟨p.val + o0, hp⟩ : Fin m) (⟨j.val + o1, hj⟩ : Fin n)) := by
  refine extractStridedSlice_apply _ x h (ix2 p j) _ fun a => ?_
  match a with
  | ⟨0, _⟩ => show p.val + o0 = o0 + p.val; omega
  | ⟨1, _⟩ => show j.val + o1 = o1 + j.val; omega

/-- The transpose of a matrix. -/
theorem transpose2_apply {α : Type} (m n : Nat) (x : (⟨2, ![m, n]⟩ : Shape).Idx → α)
    (h : (⟨2, ![m, n]⟩ : Shape).Transposes [1, 0] ⟨2, ![n, m]⟩) (k : Fin n) (j : Fin m) :
    transpose ⟨2, ![n, m]⟩ [1, 0] x h (ix2 k j) = x (ix2 j k) :=
  transpose_apply [1, 0] x h (ix2 k j) (ix2 j k) (fun b => match b with
    | ⟨0, _⟩ => rfl
    | ⟨1, _⟩ => rfl)

/-- A vector laid out as a single row. -/
theorem rowOfVec_apply {α : Type} (n : Nat) (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply x h _ _ ?_
  rw [Shape.rowMajor_val_one, Shape.rowMajor_val_two]
  show j.val = (0 : Nat) * n + j.val
  omega

/-- A sum over `a + b` terms is the sum of the first `a` plus the sum of the last `b`. -/
theorem sum_two_runs {M : Type} [AddCommMonoid M] (a b : Nat) (f : Fin (a + b) → M) :
    ∑ k, f k = (∑ k : Fin a, f ⟨k.val, by omega⟩) + ∑ k : Fin b, f ⟨k.val + a, by omega⟩ := by
  rw [Fin.sum_univ_add]
  congr 1
  refine Finset.sum_congr rfl fun k _ => congrArg f (Fin.ext ?_)
  simp [Fin.natAdd, Nat.add_comm]

end Idealize.ShloMosaic.MatrixReads

end
-- ==== Proof.R.ValTail.lean ====
/-
  Everything the reference computes after the first layer, read at a batch row on the extended reals.
-/
import proofs.«128817_g6923487281305_cont_9to1_m_76_4_alg».proof.Proof.R.ValLn
import proofs.«128817_g6923487281305_cont_9to1_m_76_4_alg».proof.Proof.LibHostDot
import proofs.«128817_g6923487281305_cont_9to1_m_76_4_alg».proof.Proof.LibMatrixReads

noncomputable section

open scoped BigOperators

namespace Cert.ReferenceIdeal.RefVal

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Value

/-- The reference's result as its run states it, over any contents `V0` of the arguments. -/
def refOut (V0 : Valuation τ sig (Elt Ideal)) : FVec Ideal S1024x1 .f32 :=
  (Host.dotGeneral (φ₁ := .f32) (φ₂ := .f32) dot_S1024x8_S8x1_S1024x1_1_0_0_1_n_n none (maximumf (mulf (broadcastInDim S1024x8 ![] bcast_S_S1024x8 (constant S_ .f32 0x3D4CCCCD#32)) (res_main_v104 V0)) (res_main_v104 V0)) (transpose (α := Ideal .f32) S8x1 [1, 0] (V0 (Proc.devRef .tc main_arg4)) transposes_S1x8_S8x1_1_0))

/-! ### The host's matrix products at the three shapes they are taken at -/

/-- A 1024 × 256 matrix times a 256 × 64 one. -/
theorem hd64 (a : FVec Ideal S1024x256 .f32) (b : FVec Ideal S256x64 .f32) (p : Fin 1024) (q : Fin 64) :
    Host.dotGeneral (φ₁ := .f32) (φ₂ := .f32) dot_S1024x256_S256x64_S1024x64_1_0_0_1_n_n none a b (ix2 p q)
      = ∑ t : Fin 256, a (ix2 p t) * b (ix2 t q) := by
  unfold dot_S1024x256_S256x64_S1024x64_1_0_0_1_n_n
  exact HostDot.dotGeneral_nn_apply _ none a b p q

/-- A 1024 × 128 matrix times a 128 × 8 one. -/
theorem hd8 (a : FVec Ideal S1024x128 .f32) (b : FVec Ideal S128x8 .f32) (p : Fin 1024) (q : Fin 8) :
    Host.dotGeneral (φ₁ := .f32) (φ₂ := .f32) dot_S1024x128_S128x8_S1024x8_1_0_0_1_n_n none a b (ix2 p q)
      = ∑ t : Fin 128, a (ix2 p t) * b (ix2 t q) := by
  unfold dot_S1024x128_S128x8_S1024x8_1_0_0_1_n_n
  exact HostDot.dotGeneral_nn_apply _ none a b p q

/-- A 1024 × 8 matrix times an 8 × 1 one. -/
theorem hd1 (a : FVec Ideal S1024x8 .f32) (b : FVec Ideal S8x1 .f32) (p : Fin 1024) (q : Fin 1) :
    Host.dotGeneral (φ₁ := .f32) (φ₂ := .f32) dot_S1024x8_S8x1_S1024x1_1_0_0_1_n_n none a b (ix2 p q)
      = ∑ t : Fin 8, a (ix2 p t) * b (ix2 t q) := by
  unfold dot_S1024x8_S8x1_S1024x1_1_0_0_1_n_n
  exact HostDot.dotGeneral_nn_apply _ none a b p q

/-- A matrix times the transpose of a weight matrix is the row-by-row product of the specification. -/
theorem dot_transpose {R K C : Nat} (a : FVec Ideal ⟨2, ![R, K]⟩ .f32) (w : FVec Ideal ⟨2, ![C, K]⟩ .f32)
    (h : (⟨2, ![C, K]⟩ : Shape).Transposes [1, 0] ⟨2, ![K, C]⟩) (p : Fin R) (q : Fin C) :
    (∑ t : Fin K, a (ix2 p t) * transpose (α := Ideal .f32) ⟨2, ![K, C]⟩ [1, 0] w h (ix2 t q))
      = Cert.Spec.dotT (fun p t => a (ix2 p t)) (fun q t => w (ix2 q t)) p q := by
  unfold Cert.Spec.dotT
  refine Finset.sum_congr rfl fun t _ => ?_
  exact congrArg (fun z => a (ix2 p t) * z) (MatrixReads.transpose2_apply C K w h t q)

/-- Two 64-column matrices side by side, at a row and a column. -/
theorem cat_apply (a b : FVec Ideal S1024x64 .f32) (p : Fin 1024) (j : Fin 128) :
    concatenate (α := Ideal .f32) S1024x128 1 [⟨S1024x64, a⟩, ⟨S1024x64, b⟩] concatenates_S1024x64_S1024x64_S1024x128_d1 (ix2 p j)
      = Cert.Spec.cat (fun p q => a (ix2 p q)) (fun p q => b (ix2 p q)) p j := by
  unfold Cert.Spec.cat
  split_ifs with h
  · exact concatenate_pair_apply_left (t := S1024x128) (s₁ := S1024x64) (s₂ := S1024x64) (1 : Fin 2) a b _ (ix2 p j) rfl
      (ix2 p (⟨j.val, h⟩ : Fin 64)) (fun c => match c with
        | ⟨0, _⟩ => rfl
        | ⟨1, _⟩ => rfl)
  · exact concatenate_pair_apply_right (t := S1024x128) (s₁ := S1024x64) (s₂ := S1024x64) (1 : Fin 2) a b _ (ix2 p j) rfl rfl
      (ix2 p (⟨j.val - 64, by omega⟩ : Fin 64)) (fun c hc => match c, hc with
        | ⟨0, _⟩, _ => rfl
        | ⟨1, _⟩, hc => absurd rfl hc)
      (by show (j.val - 64) + 64 = j.val; omega)

/-! ### The run's terms over the normalisation chains -/

theorem v22_eq (V0 : Valuation τ sig (Elt Ideal)) :
    maximumf (mulf (broadcastInDim S1024x256 ![] bcast_S_S1024x256 (constant S_ .f32 0x3D4CCCCD#32)) (res_main_v19 (F := Ideal) V0)) (res_main_v19 V0)
      = hlnl256 (F := Ideal) (res_main_v3 V0) := by
  unfold res_main_v19 res_main_v9 res_main_v7 hlnl256; rfl

theorem v43_eq (V0 : Valuation τ sig (Elt Ideal)) :
    maximumf (mulf (broadcastInDim S1024x256 ![] bcast_S_S1024x256 (constant S_ .f32 0x3D4CCCCD#32)) (res_main_v40 (F := Ideal) V0)) (res_main_v40 V0)
      = hlnl256 (F := Ideal) (res_main_v24 V0) := by
  unfold res_main_v40 res_main_v30 res_main_v28 hlnl256; rfl

theorem v64_eq (V0 : Valuation τ sig (Elt Ideal)) :
    maximumf (mulf (broadcastInDim S1024x64 ![] bcast_S_S1024x64 (constant S_ .f32 0x3D4CCCCD#32)) (res_main_v61 (F := Ideal) V0)) (res_main_v61 V0)
      = hlnl64 (F := Ideal) (res_main_v45 V0) := by
  unfold res_main_v61 res_main_v51 res_main_v49 hlnl64; rfl

theorem v85_eq (V0 : Valuation τ sig (Elt Ideal)) :
    maximumf (mulf (broadcastInDim S1024x64 ![] bcast_S_S1024x64 (constant S_ .f32 0x3D4CCCCD#32)) (res_main_v82 (F := Ideal) V0)) (res_main_v82 V0)
      = hlnl64 (F := Ideal) (res_main_v66 V0) := by
  unfold res_main_v82 res_main_v72 res_main_v70 hlnl64; rfl

theorem v107_eq (V0 : Valuation τ sig (Elt Ideal)) :
    maximumf (mulf (broadcastInDim S1024x8 ![] bcast_S_S1024x8 (constant S_ .f32 0x3D4CCCCD#32)) (res_main_v104 (F := Ideal) V0)) (res_main_v104 V0)
      = hlnl8 (F := Ideal) (res_main_v88 V0) := by
  unfold res_main_v104 res_main_v94 res_main_v92 hlnl8; rfl

/-! ### The layers, from the inside out -/

/-- The second layer on the first half. -/
theorem v45_apply (V0 : Valuation τ sig (Elt Ideal)) (p : Fin 1024) (q : Fin 64) :
    res_main_v45 (F := Ideal) V0 (ix2 p q)
      = Cert.Spec.dotT (Cert.Spec.lnl Cert.Spec.d256 (fun p q => res_main_v3 (F := Ideal) V0 (ix2 p q)))
          (fun q j => V0 (Proc.devRef .tc main_arg2) (ix2 q j)) p q := by
  unfold res_main_v45
  rw [v22_eq V0]
  refine (hd64 _ _ p q).trans ?_
  refine (dot_transpose _ _ _ p q).trans ?_
  exact congrArg (fun f => Cert.Spec.dotT f _ p q) (funext fun p => funext fun q => hlnl256_apply _ p q)

/-- The second layer on the second half. -/
theorem v66_apply (V0 : Valuation τ sig (Elt Ideal)) (p : Fin 1024) (q : Fin 64) :
    res_main_v66 (F := Ideal) V0 (ix2 p q)
      = Cert.Spec.dotT (Cert.Spec.lnl Cert.Spec.d256 (fun p q => res_main_v24 (F := Ideal) V0 (ix2 p q)))
          (fun q j => V0 (Proc.devRef .tc main_arg2) (ix2 q j)) p q := by
  unfold res_main_v66
  rw [v43_eq V0]
  refine (hd64 _ _ p q).trans ?_
  refine (dot_transpose _ _ _ p q).trans ?_
  exact congrArg (fun f => Cert.Spec.dotT f _ p q) (funext fun p => funext fun q => hlnl256_apply _ p q)

/-- The third layer, on the two normalised halves side by side. -/
theorem v88_apply (V0 : Valuation τ sig (Elt Ideal)) (p : Fin 1024) (q : Fin 8) :
    res_main_v88 (F := Ideal) V0 (ix2 p q)
      = Cert.Spec.dotT
          (Cert.Spec.cat
            (Cert.Spec.lnl Cert.Spec.d64 (Cert.Spec.dotT (Cert.Spec.lnl Cert.Spec.d256 (fun p q => res_main_v3 (F := Ideal) V0 (ix2 p q)))
              (fun q j => V0 (Proc.devRef .tc main_arg2) (ix2 q j))))
            (Cert.Spec.lnl Cert.Spec.d64 (Cert.Spec.dotT (Cert.Spec.lnl Cert.Spec.d256 (fun p q => res_main_v24 (F := Ideal) V0 (ix2 p q)))
              (fun q j => V0 (Proc.devRef .tc main_arg2) (ix2 q j)))))
          (fun q j => V0 (Proc.devRef .tc main_arg3) (ix2 q j)) p q := by
  unfold res_main_v88
  rw [v64_eq V0, v85_eq V0]
  refine (hd8 _ _ p q).trans ?_
  refine (dot_transpose _ _ _ p q).trans ?_
  refine congrArg (fun f => Cert.Spec.dotT f _ p q) (funext fun p => funext fun j => ?_)
  refine (cat_apply _ _ p j).trans ?_
  refine congrArg₂ (fun f g => Cert.Spec.cat f g p j) ?_ ?_
  · funext p q
    refine (hlnl64_apply _ p q).trans ?_
    exact congrArg (fun f => Cert.Spec.lnl Cert.Spec.d64 f p q) (funext fun p => funext fun q => v45_apply V0 p q)
  · funext p q
    refine (hlnl64_apply _ p q).trans ?_
    exact congrArg (fun f => Cert.Spec.lnl Cert.Spec.d64 f p q) (funext fun p => funext fun q => v66_apply V0 p q)

theorem ref_tail (V0 : Valuation τ sig (Elt Ideal)) (p : Fin 1024) :
    refOut V0 (ix2 p (0 : Fin 1))
      = Cert.Spec.tail (fun p q => res_main_v3 (F := Ideal) V0 (ix2 p q)) (fun p q => res_main_v24 (F := Ideal) V0 (ix2 p q))
          (fun q j => V0 (Proc.devRef .tc main_arg2) (ix2 q j)) (fun q j => V0 (Proc.devRef .tc main_arg3) (ix2 q j))
          (fun q j => V0 (Proc.devRef .tc main_arg4) (ix2 q j)) p := by
  unfold refOut Cert.Spec.tail
  rw [v107_eq V0]
  refine (hd1 _ _ p 0).trans ?_
  refine (dot_transpose _ _ _ p 0).trans ?_
  refine congrArg (fun f => Cert.Spec.dotT f _ p (0 : Fin 1)) (funext fun p => funext fun q => ?_)
  refine (hlnl8_apply _ p q).trans ?_
  exact congrArg (fun f => Cert.Spec.lnl Cert.Spec.d8 f p q) (funext fun p => funext fun q => v88_apply V0 p q)

end Cert.ReferenceIdeal.RefVal

end
-- ==== Proof.R.ValFirst.lean ====
/-
  The reference's first layer on each half of the input, read at a row and a column on the extended reals.
-/
import proofs.«128817_g6923487281305_cont_9to1_m_76_4_alg».proof.Proof.Gen.ReferenceIdeal.Run
import proofs.«128817_g6923487281305_cont_9to1_m_76_4_alg».proof.Proof.Spec
import proofs.«128817_g6923487281305_cont_9to1_m_76_4_alg».proof.Proof.LibHostDot
import proofs.«128817_g6923487281305_cont_9to1_m_76_4_alg».proof.Proof.LibMatrixReads
import Idealize.ShloMosaic.Lib.ValueIdx
import Idealize.ShloMosaic.Lib.Pipeline.Value
import Idealize.ShloMosaic.PureOps.Ideal.Laws

noncomputable section

open scoped BigOperators

namespace Cert.ReferenceIdeal.RefVal

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Value

theorem ref_first_A (V0 : Valuation τ sig (Elt Ideal)) (p : Fin 1024) (q : Fin 256) :
    res_main_v3 (F := Ideal) V0 (ix2 p q)
      = Cert.Spec.first (fun p j => V0 (Proc.devRef .tc main_arg0) (ix2 p j)) (fun q j => V0 (Proc.devRef .tc main_arg1) (ix2 q j)) 0 (by omega) p q := by
  unfold res_main_v3 dot_S1024x40960_S40960x256_S1024x256_1_0_0_1_n_n
  refine (HostDot.dotGeneral_nn_apply (M := 1024) (K := 40960) (N := 256) _ none _ _ p q).trans ?_
  unfold Cert.Spec.first
  refine Finset.sum_congr rfl fun j _ => ?_
  refine congrArg₂ (· * ·) ?_ ?_
  · exact MatrixReads.colSlice_apply 1024 81920 40960 0 _ _ p j (by omega)
  · exact MatrixReads.transpose2_apply 256 40960 _ _ j q

theorem ref_first_B (V0 : Valuation τ sig (Elt Ideal)) (p : Fin 1024) (q : Fin 256) :
    res_main_v24 (F := Ideal) V0 (ix2 p q)
      = Cert.Spec.first (fun p j => V0 (Proc.devRef .tc main_arg0) (ix2 p j)) (fun q j => V0 (Proc.devRef .tc main_arg1) (ix2 q j)) 40960 (by omega) p q := by
  unfold res_main_v24 dot_S1024x40960_S40960x256_S1024x256_1_0_0_1_n_n
  refine (HostDot.dotGeneral_nn_apply (M := 1024) (K := 40960) (N := 256) _ none _ _ p q).trans ?_
  unfold Cert.Spec.first
  refine Finset.sum_congr rfl fun j _ => ?_
  refine congrArg₂ (· * ·) ?_ ?_
  · exact MatrixReads.colSlice_apply 1024 81920 40960 40960 _ _ p j (by omega)
  · exact MatrixReads.transpose2_apply 256 40960 _ _ j q

end Cert.ReferenceIdeal.RefVal

end
-- ==== Proof.R.ValNet.lean ====
/-
  The reference's result is the network of the argument arrays, batch row by batch row.
-/
import proofs.«128817_g6923487281305_cont_9to1_m_76_4_alg».proof.Proof.R.ValTail
import proofs.«128817_g6923487281305_cont_9to1_m_76_4_alg».proof.Proof.R.ValFirst

noncomputable section

open scoped BigOperators

namespace Cert.ReferenceIdeal.RefVal

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Value

theorem ref_net (V0 : Valuation τ sig (Elt Ideal)) (p : Fin 1024) :
    refOut V0 (ix2 p (0 : Fin 1))
      = Cert.Spec.net (fun p j => V0 (Proc.devRef .tc main_arg0) (ix2 p j)) (fun q j => V0 (Proc.devRef .tc main_arg1) (ix2 q j))
          (fun q j => V0 (Proc.devRef .tc main_arg2) (ix2 q j)) (fun q j => V0 (Proc.devRef .tc main_arg3) (ix2 q j))
          (fun q j => V0 (Proc.devRef .tc main_arg4) (ix2 q j)) p := by
  have hA : (fun p q => res_main_v3 (F := Ideal) V0 (ix2 p q))
      = Cert.Spec.first (fun p j => V0 (Proc.devRef .tc main_arg0) (ix2 p j)) (fun q j => V0 (Proc.devRef .tc main_arg1) (ix2 q j)) 0 (by omega) := by
    funext p q
    exact ref_first_A V0 p q
  have hB : (fun p q => res_main_v24 (F := Ideal) V0 (ix2 p q))
      = Cert.Spec.first (fun p j => V0 (Proc.devRef .tc main_arg0) (ix2 p j)) (fun q j => V0 (Proc.devRef .tc main_arg1) (ix2 q j)) 40960 (by omega) := by
    funext p q
    exact ref_first_B V0 p q
  refine (ref_tail V0 p).trans ?_
  unfold Cert.Spec.net
  exact congrArg₂ (fun a b => Cert.Spec.tail a b (fun q j => V0 (Proc.devRef .tc main_arg2) (ix2 q j)) (fun q j => V0 (Proc.devRef .tc main_arg3) (ix2 q j))
    (fun q j => V0 (Proc.devRef .tc main_arg4) (ix2 q j)) p) hA hB

end Cert.ReferenceIdeal.RefVal

end
-- ==== Proof.lean ====
/-
  The certificate of the network kernel against its reference.

  Both programs compute, for every batch row, the same network of the five argument arrays (proof/Proof/Spec.lean).
  The kernel accumulates the first layer's two products block by block over its 20 grid points and applies the rest
  of the network at the last point; the reference computes the two products whole. On the extended reals a sum's
  grouping and order do not matter, and every later operation is the same function on both sides, so the two
  results agree entry by entry.

  frame_Kernel, frame_KernelIdeal: the kernel program runs to the end, faults nowhere and leaves its arguments
    unchanged — one proof, generic in the float instance, laid out once per printed program.
  frame_ReferenceIdeal: the reference's run with its result dropped.
  preserves_Kernel_KernelIdeal: the idealization rewrote nothing.
  algebraic_KernelIdeal_ReferenceIdeal: the kernel's result array holds its output block, which is the network of
    the arguments; the reference's result is the same network of arguments that agree.
-/
import proofs.«128817_g6923487281305_cont_9to1_m_76_4_alg».proof.Defs
import proofs.«128817_g6923487281305_cont_9to1_m_76_4_alg».proof.Proof.Gen.Kernel
import proofs.«128817_g6923487281305_cont_9to1_m_76_4_alg».proof.Proof.Gen.KernelIdeal
import proofs.«128817_g6923487281305_cont_9to1_m_76_4_alg».proof.Proof.Gen.ReferenceIdeal
import proofs.«128817_g6923487281305_cont_9to1_m_76_4_alg».proof.Proof.Gen.Pre_finite_inputs
import proofs.«128817_g6923487281305_cont_9to1_m_76_4_alg».proof.Proof.Gen.ReferenceIdeal.Run
import proofs.«128817_g6923487281305_cont_9to1_m_76_4_alg».proof.Proof.K.FrFinal
import proofs.«128817_g6923487281305_cont_9to1_m_76_4_alg».proof.Proof.KI.FrFinal
import proofs.«128817_g6923487281305_cont_9to1_m_76_4_alg».proof.Proof.KI.ValNet
import proofs.«128817_g6923487281305_cont_9to1_m_76_4_alg».proof.Proof.R.ValNet
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree, the reference's result is the kernel's output block: both are the network, batch row
    by batch row. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.RefVal.refOut (StableHlo.launchContents m' c) = Cert.KernelIdeal.Fr.netOut (F := Ideal) m c := by
  funext j
  obtain ⟨p, q, rfl⟩ : ∃ (p : Fin 1024) (q : Fin 1), j = ix2 p q := ⟨j 0, j 1, eq_ix2 j⟩
  obtain rfl : q = 0 := Subsingleton.elim _ _
  rw [Cert.ReferenceIdeal.RefVal.ref_net, Cert.KernelIdeal.Val.netOut_apply]
  have e0 : (fun (p : Fin 1024) (j : Fin 81920) => (StableHlo.launchContents m' c) (Proc.devRef .tc Cert.ReferenceIdeal.main_arg0) (ix2 p j))
      = fun p j => Cert.KernelIdeal.Fr.V m c Cert.KernelIdeal.main_arg0 (ix2 p j) := by
    funext p j; exact congrFun h0 (ix2 p j)
  have e1 : (fun (p : Fin 256) (j : Fin 40960) => (StableHlo.launchContents m' c) (Proc.devRef .tc Cert.ReferenceIdeal.main_arg1) (ix2 p j))
      = fun p j => Cert.KernelIdeal.Fr.V m c Cert.KernelIdeal.main_arg1 (ix2 p j) := by
    funext p j; exact congrFun h1 (ix2 p j)
  have e2 : (fun (p : Fin 64) (j : Fin 256) => (StableHlo.launchContents m' c) (Proc.devRef .tc Cert.ReferenceIdeal.main_arg2) (ix2 p j))
      = fun p j => Cert.KernelIdeal.Fr.V m c Cert.KernelIdeal.main_arg2 (ix2 p j) := by
    funext p j; exact congrFun h2 (ix2 p j)
  have e3 : (fun (p : Fin 8) (j : Fin 128) => (StableHlo.launchContents m' c) (Proc.devRef .tc Cert.ReferenceIdeal.main_arg3) (ix2 p j))
      = fun p j => Cert.KernelIdeal.Fr.V m c Cert.KernelIdeal.main_arg3 (ix2 p j) := by
    funext p j; exact congrFun h3 (ix2 p j)
  have e4 : (fun (p : Fin 1) (j : Fin 8) => (StableHlo.launchContents m' c) (Proc.devRef .tc Cert.ReferenceIdeal.main_arg4) (ix2 p j))
      = fun p j => Cert.KernelIdeal.Fr.V m c Cert.KernelIdeal.main_arg4 (ix2 p j) := by
    funext p j; exact congrFun h4 (ix2 p j)
  rw [e0, e1, e2, e3, e4]

theorem algebraic : Cert.algebraic_KernelIdeal_ReferenceIdeal := by
  intro m ρ m' ρ' _ hagree
  refine ⟨fun c => Cert.KernelIdeal.Fr.netOut (F := Ideal) m c, Cert.KernelIdeal.Fr.run (F := Ideal) m ρ, ?_⟩
  refine (θ_run Cert.ReferenceIdeal.defs _ _).mono (fun _ h c => ⟨(h c).1.trans ?_, (h c).2⟩)
    (Cert.ReferenceIdeal.Value.run (F := Ideal) m' ρ')
  exact out_eq m m' c (hagree c).1 (hagree c).2.1 (hagree c).2.2.1 (hagree c).2.2.2.1 (hagree c).2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
